-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S4096x512 : Shape := ⟨2, ![4096, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096x4096 .f32) (main_arg8 : FVec F S4096 .f32) (main_arg9 : FVec F S4096x512 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x512 .f32 := Host.absf main_arg9
  let main_cst_16 : FVec F S_ .f32 := constant S_ .f32 0x7F800000#32
  let main_v45 : FVec F S4096x512 .f32 := broadcastInDim S4096x512 ![] bcast_S_S4096x512 main_cst_16
  let main_v46 : IVec S4096x512 1 := cmpf .olt main_v44 main_v45
  let main_c_17 : IVec S_ 1 := constantI S_ 1 1#1
  let main_v47 : IVec S_ 1 := (fun x v => Host.reduce IntOp.andi x v reducesTo_S4096x512_S_d0_1 h_S_) main_v46 main_c_17
  let main_v48 : IVec S_ 1 := andi main_v43 main_v47
  main_v48

def fn_part1 {F : FTy → Type} [FloatOps F] (main_arg4 : FVec F S1024 .f32) (main_arg5 : FVec F S512x4096 .f32) (main_arg6 : FVec F S4096 .f32) (main_arg7 : FVec F S4096x4096 .f32) (main_arg8 : FVec F S4096 .f32) (main_arg9 : FVec F S4096x512 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x4096 .f32) (main_arg1 : FVec F S4096x4096 .f32) (main_arg2 : FVec F S4096 .f32) (main_arg3 : FVec F S4096x1024 .f32) (main_arg4 : FVec F S1024 .f32) (main_arg5 : FVec F S512x4096 .f32) (main_arg6 : FVec F S4096 .f32) (main_arg7 : FVec F S4096x4096 .f32) (main_arg8 : FVec F S4096 .f32) (main_arg9 : FVec F S4096x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S4096x512 : Shape := ⟨2, ![4096, 512]⟩
abbrev S1x4096 : Shape := ⟨2, ![1, 4096]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 20
  | .vmem => 41
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S512x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x512, .f32⟩
  | .hbm, ⟨10, _⟩ => ⟨S1x4096, .f32⟩
  | .hbm, ⟨11, _⟩ => ⟨S4096x4096, .f32⟩
  | .hbm, ⟨12, _⟩ => ⟨S1x1024, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S1x4096, .f32⟩
  | .hbm, ⟨17, _⟩ => ⟨S4096x4096, .f32⟩
  | .hbm, ⟨18, _⟩ => ⟨S1x4096, .f32⟩
  | .hbm, ⟨19, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S1024x512, .f32⟩
  | .local _ .vmem, ⟨24, _⟩ => ⟨S1024x512, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S1x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1x1024, .f32⟩
  | .local _ .vmem, ⟨37, _⟩ => ⟨S1x1024, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨3, ![4, 4, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .f32 = 32 ∨ (Rect.block (s := S4096x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x512.size a
  hwx1_6 : ∀ i : grid1.Coords, EltTy.bits .f32 = 32 ∨ (Rect.block (s := S4096x512) S512x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x4096.size a
  hwx2_1 : ∀ i : grid2.Coords, EltTy.bits .f32 = 32 ∨ (Rect.block (s := S512x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x4096.size a
  hwx3_3 : ∀ i : grid3.Coords, EltTy.bits .f32 = 32 ∨ (Rect.block (s := S4096x4096) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v3_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v5) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S512x4096 : Shape := ⟨2, ![512, 4096]⟩
abbrev S4096x512 : Shape := ⟨2, ![4096, 512]⟩
abbrev S1x4096 : Shape := ⟨2, ![1, 4096]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S512x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x512, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x512_0_0 : S4096x1024.Slices ![0, 0] S4096x512
  slices_S4096x1024_S4096x512_0_512 : S4096x1024.Slices ![0, 512] S4096x512
  bcast_S_S4096x512 : S_.BroadcastsInDim S4096x512 (![] : Fin 0 → Fin S4096x512.rank)
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []
  dot_S4096x512_S512x4096_S4096x4096_1_0_0_1_n_n_wf : DotDims.WF S4096x512 S512x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Base.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Two facts about the whole-buffer rectangle at offset zero, shared by every launch's module. -/

theorem hz2 : (![0, 0] : Fin 2 → Nat) = fun _ => 0 := by funext a; fin_cases a <;> rfl

theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

end Cert.Kernel.Hand

end
-- ==== Proof.K.Body0.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: a tiled matrix product accumulated over the last grid axis, bias added (and the activation applied) at the last step

The scratch block carries the partial sum between consecutive points of one output tile: it is reset at a
point whose last coordinate is 0, every point adds its two blocks' product, and the point whose last
coordinate is 3 stores the sum plus the bias row (through the activation) into the output block. -/

section Region
variable (V : (c : Dev nD) → (b : Ref sig .tc) → Buf (Elt F) ((c : Thread nD τ).loc b))

/-- Window `w`'s block of its array at point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- The reset's condition: the last grid coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The epilogue's condition: the last grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## What the scratch and the output block hold, point by point -/

/-- The scratch after point `n`: this point's product added to zero at a reset point, to what the point before left otherwise. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 4 = 0 then (k0_pay1 (F := F)) else acc0 c n (Nat.lt_of_succ_lt hn))

theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rw [acc0]
  | succ n => rw [acc0, if_pos h]

theorem acc0_step (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => rw [acc0, if_neg h]; rfl

/-- The output block a last-step point stores: the accumulated sum and the bias row through the epilogue. -/
def out0 (c : Dev nD) (t : Fin cfg0.N) : Vec F S1024x1024 .f32 :=
  k0_pay3 (acc0 V c t.val t.isLt) (iblk0 V c 2 t)

/-! ## The body's triples, one per case of the two conditions -/

set_option maxHeartbeats 1000000 in
/-- A reset point that is no last step: the scratch ends at the product added to zero; the output block is not touched. -/
theorem sound0_A (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond0_0 i) (hc1 : ¬cond0_1 i) (x0 : Vec F S1024x1024 .f32) (x1 : Vec F S1024x1024 .f32) (x2 : Vec F S1x1024 .f32) (xi3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 (k0_pay1 (F := F)))) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  have hf7 : True := trivial
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A point that neither resets nor finishes: the scratch ends at the product added to what it held; the output block is not touched. -/
theorem sound0_B (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond0_0 i) (hc1 : ¬cond0_1 i) (x0 : Vec F S1024x1024 .f32) (x1 : Vec F S1024x1024 .f32) (x2 : Vec F S1x1024 .f32) (xi3 : Vec F S1024x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 xs7)) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A last-step point that does not reset: the scratch as in the middle case, and the output block ends at the epilogue of the new sum and the bias row. -/
theorem sound0_C (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond0_0 i) (hc1 : cond0_1 i) (x0 : Vec F S1024x1024 .f32) (x1 : Vec F S1024x1024 .f32) (x2 : Vec F S1x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 xs7) x2) ∗ owns (c : Thread nD τ) arg7 fullShare (k0_pay2 x0 x1 xs7)) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

/-! ## The invariant: the scratch at the accumulator, the rest of the scoped buffers and the generator register untouched -/

/-- The scratch operand as a whole memref. -/
abbrev scM0 : Memref sig .tc .vmem S1024x1024 .f32 := Memref.whole cc0_scratch0

/-- The class invariant with this call's scratch split off. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before point `n`: at the first point the class invariant (the scratch at anything); later the scratch at what the point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Pipeline 0's proof data on core `c`: the arrays as the region finds them; after the body each input's buffer at its
    block, the output's at the epilogue's value (read only at last-step points); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_in (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t) := by
  refine ⟨?_, ?_, ?_⟩
  · unfold Dat.leavesExact; rw [show cfg0.idle 0 (cfg0.grid.coords t) = false from rfl, after0_0]
  · unfold Dat.leavesExact; rw [show cfg0.idle 1 (cfg0.grid.coords t) = false from rfl, after0_1]
  · unfold Dat.leavesExact; rw [show cfg0.idle 2 (cfg0.grid.coords t) = false from rfl, after0_2]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [(leaves0_in V c t).1, (leaves0_in V c t).2.1, (leaves0_in V c t).2.2]
  have hN : t.val < 64 := lt_of_lt_of_eq t.isLt (show cfg0.N = 64 from N_0)
  by_cases h0 : t.val % 4 = 0
  · have h1 : ¬t.val % 4 = 3 := by omega
    have hc0 := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩⟩
      iapply (sound0_A c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (sound0_A c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [acc0_step V c t h0]
    rw [Phi0_castSucc V c t, Phi0_pos V c _ _ hz]
    by_cases h1 : t.val % 4 = 3
    · have hc1 := (hcond0_1 t).mpr h1
      rw [show (dat0 V c).leavesExact 3 t = owns (c : Thread nD τ) (st0_3 t) fullShare ((dat0 V c).after 3 t) from by
        unfold Dat.leavesExact; rw [liveAt0_3 t hc1], after0_3]
      unfold out0
      rw [acc0_step V c t h0]
      iintro ⟨⟨⟨HS, Hrest⟩, Hg⟩, Ho, ⟨%d0, H0⟩, ⟨%d1, H1⟩, ⟨%d2, H2⟩, ⟨%d3, H3⟩⟩
      iapply (sound0_C c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hrest⟩, Hg⟩, Ho, ⟨%d0, H0⟩, ⟨%d1, H1⟩, ⟨%d2, H2⟩, ⟨%d3, H3⟩⟩
      iapply (sound0_B c Set.univ (grid0.coords t) _ _ _ _ _ _ _ _ scM0 (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- after the last point the invariant gives it back, the scratch's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hrest⟩, Hg⟩
  isplitl [HS Hrest]
  · isplitl [HS]; · iexists _; iexact HS
    iexact Hrest
  iexact Hg

end Region

end Cert.Kernel.Hand

end
-- ==== Proof.K.Body1.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the second encoder product accumulated over the last grid axis, with the sampling step in its last step

The scratch block carries the partial sum of one row block: reset at a point whose last coordinate is 0, added to
at every point; the point whose last coordinate is 3 adds the bias row, splits the columns into the mean and the
log-variance, and stores those and the sample into the three output blocks. -/

section Region
variable (V : (c : Dev nD) → (b : Ref sig .tc) → Buf (Elt F) ((c : Thread nD τ).loc b))

/-- Window `w`'s block of its array at point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## What the scratch and the output blocks hold, point by point -/

/-- The scratch after point `n`: this point's product added to zero at a reset point, to what the point before left otherwise. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_reset (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rw [acc1]
  | succ n => rw [acc1, if_pos h]

theorem acc1_step (c : Dev nD) (t : Fin cfg1.N) (h : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => rw [acc1, if_neg h]; rfl

/-- The three blocks a last-step point stores: the sample, the mean, the log-variance. -/
def outZs1 (c : Dev nD) (t : Fin cfg1.N) : Vec F S512x512 .f32 := k1_pay6 (acc1 V c t.val t.isLt) (iblk1 V c 2 t) (iblk1 V c 3 t)
def outMu1 (c : Dev nD) (t : Fin cfg1.N) : Vec F S512x512 .f32 := k1_pay4 (acc1 V c t.val t.isLt) (iblk1 V c 2 t)
def outLv1 (c : Dev nD) (t : Fin cfg1.N) : Vec F S512x512 .f32 := k1_pay5 (acc1 V c t.val t.isLt) (iblk1 V c 2 t)

/-! ## The body's triples, one per case of the two conditions -/

set_option maxHeartbeats 1000000 in
theorem sound1_A (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : cond1_0 i) (hc1 : ¬cond1_1 i) (x0 : Vec F S512x1024 .f32) (x1 : Vec F S1024x1024 .f32) (x2 : Vec F S1x1024 .f32) (x3 : Vec F S512x512 .f32) (xi4 xi5 xi6 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6 ∗ owns (c : Thread nD τ) arg9 fullShare (k1_pay2 x0 x1 (k1_pay1 (F := F)))) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, View.ld_unit_zero (S := S512x1024) hz2, View.ld_unit_zero (S := S1024x1024) hz2, View.ld_unit_zero (S := S1x1024) hz2, View.ld_unit_zero (S := S512x512) hz2, View.readCov_unit_zero (S := S512x1024) _ hz2]

set_option maxHeartbeats 1000000 in
theorem sound1_B (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : ¬cond1_0 i) (hc1 : ¬cond1_1 i) (x0 : Vec F S512x1024 .f32) (x1 : Vec F S1024x1024 .f32) (x2 : Vec F S1x1024 .f32) (x3 : Vec F S512x512 .f32) (xi4 xi5 xi6 : Vec F S512x512 .f32) (xs9 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6 ∗ owns (c : Thread nD τ) arg9 fullShare xs9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6 ∗ owns (c : Thread nD τ) arg9 fullShare (k1_pay2 x0 x1 xs9)) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg9.eq_unread hf9
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]

set_option maxHeartbeats 1000000 in
theorem sound1_C (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : ¬cond1_0 i) (hc1 : cond1_1 i) (x0 : Vec F S512x1024 .f32) (x1 : Vec F S1024x1024 .f32) (x2 : Vec F S1x1024 .f32) (x3 : Vec F S512x512 .f32) (xs9 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay6 (k1_pay2 x0 x1 xs9) x2 x3)
            ∗ owns (c : Thread nD τ) arg7 fullShare (k1_pay4 (k1_pay2 x0 x1 xs9) x2)
            ∗ owns (c : Thread nD τ) arg8 fullShare (k1_pay5 (k1_pay2 x0 x1 xs9) x2)
            ∗ owns (c : Thread nD τ) arg9 fullShare (k1_pay2 x0 x1 xs9)) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f9, %hf9, H9⟩, Hk⟩
  obtain rfl := harg2.eq_unread hf0; obtain rfl := harg3.eq_unread hf1; obtain rfl := harg4.eq_unread hf2; obtain rfl := harg5.eq_unread hf3
  obtain rfl := harg9.eq_unread hf9
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  isplitl [H5]
  · iexists _; isplitr
    swap; · iexact H5
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  isplitl [H6]
  · iexists _; isplitr
    swap; · iexact H6
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]

/-! ## The invariant -/

abbrev scM1 : Memref sig .tc .vmem S512x1024 .f32 := Memref.whole cc1_scratch0

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outZs1 V c t
    | ⟨5, _⟩ => outMu1 V c t
    | ⟨6, _⟩ => outLv1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outZs1 V c t := by dsimp only [dat1]
theorem after1_5 (c : Dev nD) (t : Fin cfg1.N) : (dat1 V c).after 5 t = outMu1 V c t := by dsimp only [dat1]
theorem after1_6 (c : Dev nD) (t : Fin cfg1.N) : (dat1 V c).after 6 t = outLv1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t) := by
  refine ⟨?_, ?_, ?_, ?_⟩
  · unfold Dat.leavesExact; rw [show cfg1.idle 0 (cfg1.grid.coords t) = false from rfl, after1_0]
  · unfold Dat.leavesExact; rw [show cfg1.idle 1 (cfg1.grid.coords t) = false from rfl, after1_1]
  · unfold Dat.leavesExact; rw [show cfg1.idle 2 (cfg1.grid.coords t) = false from rfl, after1_2]
  · unfold Dat.leavesExact; rw [show cfg1.idle 3 (cfg1.grid.coords t) = false from rfl, after1_3]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [(leaves1_in V c t).1, (leaves1_in V c t).2.1, (leaves1_in V c t).2.2.1, (leaves1_in V c t).2.2.2]
  have hN : t.val < 32 := lt_of_lt_of_eq t.isLt (show cfg1.N = 32 from N_1)
  by_cases h0 : t.val % 4 = 0
  · have h1 : ¬t.val % 4 = 3 := by omega
    have hc0 := (hcond1_0 t).mpr h0
    have hc1 : ¬cond1_1 (grid1.coords t) := fun h => h1 ((hcond1_1 t).mp h)
    rw [Dat.leavesExact_idle (dat1 V c) 4 t (idleAt1_4 t hc1) (noFlush1_4 t hc1), Dat.leavesExact_idle (dat1 V c) 5 t (idleAt1_5 t hc1) (noFlush1_5 t hc1),
      Dat.leavesExact_idle (dat1 V c) 6 t (idleAt1_6 t hc1) (noFlush1_6 t hc1)]
    rw [acc1_reset V c t h0]
    by_cases hz : t.val = 0
    · rw [Phi1_castSucc V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_A c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_A c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun e => h0 (by rw [e])
    have hc0 : ¬cond1_0 (grid1.coords t) := fun h => h0 ((hcond1_0 t).mp h)
    rw [acc1_step V c t h0]
    rw [Phi1_castSucc V c t, Phi1_pos V c _ _ hz]
    by_cases h1 : t.val % 4 = 3
    · have hc1 := (hcond1_1 t).mpr h1
      rw [show (dat1 V c).leavesExact 4 t = owns (c : Thread nD τ) (st1_4 t) fullShare ((dat1 V c).after 4 t) from by
        unfold Dat.leavesExact; rw [liveAt1_4 t hc1], after1_4]
      rw [show (dat1 V c).leavesExact 5 t = owns (c : Thread nD τ) (st1_5 t) fullShare ((dat1 V c).after 5 t) from by
        unfold Dat.leavesExact; rw [liveAt1_5 t hc1], after1_5]
      rw [show (dat1 V c).leavesExact 6 t = owns (c : Thread nD τ) (st1_6 t) fullShare ((dat1 V c).after 6 t) from by
        unfold Dat.leavesExact; rw [liveAt1_6 t hc1], after1_6]
      unfold outZs1 outMu1 outLv1
      rw [acc1_step V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_C c Set.univ (grid1.coords t) _ _ _ _ _ _ _ _ _ _ _ _ _ _ scM1 (Memref.isWhole_whole _) hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 4 t (idleAt1_4 t hc1) (noFlush1_4 t hc1), Dat.leavesExact_idle (dat1 V c) 5 t (idleAt1_5 t hc1) (noFlush1_5 t hc1),
      Dat.leavesExact_idle (dat1 V c) 6 t (idleAt1_6 t hc1) (noFlush1_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_B c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, Hrest⟩, Hg⟩
  isplitl [HS Hrest]
  · isplitl [HS]; · iexists _; iexact HS
    iexact Hrest
  iexact Hg

end Region

end Cert.Kernel.Hand

end
-- ==== Proof.K.Body2.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: a tiled matrix product whose contracted axis is ONE block

Every point resets the scratch block, adds its two blocks' product, and stores the sum plus the bias row through
the activation into its output block: the scratch carries nothing from point to point. -/

/-- A whole-buffer load after stores of which the LAST was a whole-buffer store reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section Region
variable (V : (c : Dev nD) → (b : Ref sig .tc) → Buf (Elt F) ((c : Thread nD τ).loc b))

/-- Window `w`'s block of its array at point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions hold at every point: the last grid axis has one coordinate -/

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))
theorem liveAt2_3 : ∀ t : Fin cfg2.N, cfg2.idle 3 (grid2.coords t) = false := by decide +kernel

/-! ## What the scratch and the output block hold after a point -/

/-- The scratch after point `t`: the product added to zero. -/
def acc2 (c : Dev nD) (t : Fin cfg2.N) : Vec F S1024x1024 .f32 :=
  k2_pay2 (iblk2 V c 0 t) (iblk2 V c 1 t) (k2_pay1 (F := F))

/-- The output block point `t` stores: that sum and the bias row through the epilogue. -/
def out2 (c : Dev nD) (t : Fin cfg2.N) : Vec F S1024x1024 .f32 :=
  k2_pay3 (acc2 V c t) (iblk2 V c 2 t)

/-! ## The body's triple -/

set_option maxHeartbeats 1000000 in
theorem sound2_D (c : Dev nD) (E : Set ℕ) (i : grid2.Coords) (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond2_0 i) (hc1 : cond2_1 i) (x0 : Vec F S1024x512 .f32) (x1 : Vec F S512x1024 .f32) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 (k2_pay1 (F := F))) x2) ∗ owns (c : Thread nD τ) arg7 fullShare (k2_pay2 x0 x1 (k2_pay1 (F := F)))) -∗ K ⟨⟩))
      ⊢ wp frame (wpE (defs₀ (F := F)) Variants.none c none) E (cc2__mm_bias_act_kernel i arg3 harg3 arg4 harg4 arg5 harg5 arg6 harg6 arg7 harg7) K := by
  simp only [cc2__mm_bias_act_kernel_eq_skeleton]; unfold cc2__mm_bias_act_kernel_skel
  unfold owns
  iintro ⟨⟨%f0, %hf0, H0⟩, ⟨%f1, %hf1, H1⟩, ⟨%f2, %hf2, H2⟩, ⟨%d3, %f3, -, H3⟩, ⟨%d7, %f7, -, H7⟩, Hk⟩
  obtain rfl := harg3.eq_unread hf0; obtain rfl := harg4.eq_unread hf1; obtain rfl := harg5.eq_unread hf2
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, View.ld_unit_zero (S := S1024x512) hz2, View.ld_unit_zero (S := S512x1024) hz2, View.ld_unit_zero (S := S1x1024) hz2, View.ld_unit_zero (S := S1024x1024) hz2, View.readCov_unit_zero (S := S1024x1024) _ hz2, readCov_cons_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, View.ld_unit_zero (S := S1024x512) hz2, View.ld_unit_zero (S := S512x1024) hz2, View.ld_unit_zero (S := S1x1024) hz2, View.ld_unit_zero (S := S1024x1024) hz2, View.readCov_unit_zero (S := S1024x1024) _ hz2, readCov_cons_unit_zero (S := S1024x1024) _ hz2]

/-! ## The invariant -/

abbrev scM2 : Memref sig .tc .vmem S1024x1024 .f32 := Memref.whole cc2_scratch0

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before point `n`: at the first point the class invariant; later the scratch at what the point before left. -/
def Phi2 (c : Dev nD) : (n : ℕ) → n ≤ cfg2.N → sProp 𝕄
  | 0, _ => Pipeline.ΦA spec2 c
  | n + 1, hn => iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t) := by
  refine ⟨?_, ?_, ?_⟩
  · unfold Dat.leavesExact; rw [show cfg2.idle 0 (cfg2.grid.coords t) = false from rfl, after2_0]
  · unfold Dat.leavesExact; rw [show cfg2.idle 1 (cfg2.grid.coords t) = false from rfl, after2_1]
  · unfold Dat.leavesExact; rw [show cfg2.idle 2 (cfg2.grid.coords t) = false from rfl, after2_2]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [(leaves2_in V c t).1, (leaves2_in V c t).2.1, (leaves2_in V c t).2.2]
  rw [show (dat2 V c).leavesExact 3 t = owns (c : Thread nD τ) (st2_3 t) fullShare ((dat2 V c).after 3 t) from by
    unfold Dat.leavesExact; rw [liveAt2_3 t], after2_3]
  unfold out2 acc2
  by_cases hz : t.val = 0
  · rw [Phi2_castSucc V c t, Phi2_zero V c _ _ hz, PhiA2_eq]
    iintro ⟨⟨⟨HS, Hrest⟩, Hg⟩, Ho, ⟨%d0, H0⟩, ⟨%d1, H1⟩, ⟨%d2, H2⟩, ⟨%d3, H3⟩⟩
    iapply (sound2_D c Set.univ (grid2.coords t) _ _ _ _ _ _ _ _ scM2 (Memref.isWhole_whole _) (hcond2_0 t) (hcond2_1 t) (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Phi2_castSucc V c t, Phi2_pos V c _ _ hz]
    iintro ⟨⟨⟨HS, Hrest⟩, Hg⟩, Ho, ⟨%d0, H0⟩, ⟨%d1, H1⟩, ⟨%d2, H2⟩, ⟨%d3, H3⟩⟩
    iapply (sound2_D c Set.univ (grid2.coords t) _ _ _ _ _ _ _ _ scM2 (Memref.isWhole_whole _) (hcond2_0 t) (hcond2_1 t) (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 16 := N_2; omega), PhiA2_eq]
  iintro ⟨⟨HS, Hrest⟩, Hg⟩
  isplitl [HS Hrest]
  · isplitl [HS]; · iexists _; iexact HS
    iexact Hrest
  iexact Hg

end Region

end Cert.Kernel.Hand

end
-- ==== Proof.K.Body3.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: a tiled matrix product accumulated over the last grid axis, bias added (and the activation applied) at the last step

The scratch block carries the partial sum between consecutive points of one output tile: it is reset at a
point whose last coordinate is 0, every point adds its two blocks' product, and the point whose last
coordinate is 3 stores the sum plus the bias row (through the activation) into the output block. -/

section Region
variable (V : (c : Dev nD) → (b : Ref sig .tc) → Buf (Elt F) ((c : Thread nD τ).loc b))

/-- Window `w`'s block of its array at point `t`, the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or carried over. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or carried over. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or carried over. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions over the grid -/

/-- The reset's condition: the last grid coordinate is 0. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The epilogue's condition: the last grid coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## What the scratch and the output block hold, point by point -/

/-- The scratch after point `n`: this point's product added to zero at a reset point, to what the point before left otherwise. -/
def acc3 (c : Dev nD) : (n : ℕ) → n < cfg3.N → Vec F S1024x1024 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩)
      (if (n + 1) % 4 = 0 then (k3_pay1 (F := F)) else acc3 c n (Nat.lt_of_succ_lt hn))

theorem acc3_reset (c : Dev nD) (t : Fin cfg3.N) (h : t.val % 4 = 0) :
    acc3 V c t.val t.isLt = k3_pay2 (iblk3 V c 0 t) (iblk3 V c 1 t) (k3_pay1 (F := F)) := by
  obtain ⟨n, hn⟩ := t
  cases n with
  | zero => rw [acc3]
  | succ n => rw [acc3, if_pos h]

theorem acc3_step (c : Dev nD) (t : Fin cfg3.N) (h : ¬t.val % 4 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => rw [acc3, if_neg h]; rfl

/-- The output block a last-step point stores: the accumulated sum and the bias row through the epilogue. -/
def out3 (c : Dev nD) (t : Fin cfg3.N) : Vec F S1024x1024 .f32 :=
  k3_pay3 (acc3 V c t.val t.isLt) (iblk3 V c 2 t)

/-! ## The body's triples, one per case of the two conditions -/

set_option maxHeartbeats 1000000 in
/-- A reset point that is no last step: the scratch ends at the product added to zero; the output block is not touched. -/
theorem sound3_A (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond3_0 i) (hc1 : ¬cond3_1 i) (x0 : Vec F S1024x1024 .f32) (x1 : Vec F S1024x1024 .f32) (x2 : Vec F S1x1024 .f32) (xi3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 (k3_pay1 (F := F)))) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  have hf7 : True := trivial
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A point that neither resets nor finishes: the scratch ends at the product added to what it held; the output block is not touched. -/
theorem sound3_B (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond3_0 i) (hc1 : ¬cond3_1 i) (x0 : Vec F S1024x1024 .f32) (x1 : Vec F S1024x1024 .f32) (x2 : Vec F S1x1024 .f32) (xi3 : Vec F S1024x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 xs7)) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A last-step point that does not reset: the scratch as in the middle case, and the output block ends at the epilogue of the new sum and the bias row. -/
theorem sound3_C (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond3_0 i) (hc1 : cond3_1 i) (x0 : Vec F S1024x1024 .f32) (x1 : Vec F S1024x1024 .f32) (x2 : Vec F S1x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare (k3_pay3 (k3_pay2 x0 x1 xs7) x2) ∗ owns (c : Thread nD τ) arg7 fullShare (k3_pay2 x0 x1 xs7)) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

/-! ## The invariant: the scratch at the accumulator, the rest of the scoped buffers and the generator register untouched -/

/-- The scratch operand as a whole memref. -/
abbrev scM3 : Memref sig .tc .vmem S1024x1024 .f32 := Memref.whole cc3_scratch0

/-- The class invariant with this call's scratch split off. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before point `n`: at the first point the class invariant (the scratch at anything); later the scratch at what the point before left. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- Pipeline 0's proof data on core `c`: the arrays as the region finds them; after the body each input's buffer at its
    block, the output's at the epilogue's value (read only at last-step points); the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_in (c : Dev nD) (t : Fin cfg3.N) :
    (dat3 V c).leavesExact 0 t = owns (c : Thread nD τ) (st3_0 t) fullShare (iblk3 V c 0 t)
    ∧ (dat3 V c).leavesExact 1 t = owns (c : Thread nD τ) (st3_1 t) fullShare (iblk3 V c 1 t)
    ∧ (dat3 V c).leavesExact 2 t = owns (c : Thread nD τ) (st3_2 t) fullShare (iblk3 V c 2 t) := by
  refine ⟨?_, ?_, ?_⟩
  · unfold Dat.leavesExact; rw [show cfg3.idle 0 (cfg3.grid.coords t) = false from rfl, after3_0]
  · unfold Dat.leavesExact; rw [show cfg3.idle 1 (cfg3.grid.coords t) = false from rfl, after3_1]
  · unfold Dat.leavesExact; rw [show cfg3.idle 2 (cfg3.grid.coords t) = false from rfl, after3_2]

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [(leaves3_in V c t).1, (leaves3_in V c t).2.1, (leaves3_in V c t).2.2]
  have hN : t.val < 64 := lt_of_lt_of_eq t.isLt (show cfg3.N = 64 from N_3)
  by_cases h0 : t.val % 4 = 0
  · have h1 : ¬t.val % 4 = 3 := by omega
    have hc0 := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [acc3_reset V c t h0]
    by_cases hz : t.val = 0
    · rw [Phi3_castSucc V c t, Phi3_zero V c _ _ hz, PhiA3_eq]
      iintro ⟨⟨⟨HS, Hrest⟩, Hg⟩, Ho, ⟨%d0, H0⟩, ⟨%d1, H1⟩, ⟨%d2, H2⟩, ⟨%d3, H3⟩⟩
      iapply (sound3_A c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi3_castSucc V c t, Phi3_pos V c _ _ hz]
      iintro ⟨⟨⟨HS, Hrest⟩, Hg⟩, Ho, ⟨%d0, H0⟩, ⟨%d1, H1⟩, ⟨%d2, H2⟩, ⟨%d3, H3⟩⟩
      iapply (sound3_A c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond3_0 (grid3.coords t) := fun h => h0 ((hcond3_0 t).mp h)
    rw [acc3_step V c t h0]
    rw [Phi3_castSucc V c t, Phi3_pos V c _ _ hz]
    by_cases h1 : t.val % 4 = 3
    · have hc1 := (hcond3_1 t).mpr h1
      rw [show (dat3 V c).leavesExact 3 t = owns (c : Thread nD τ) (st3_3 t) fullShare ((dat3 V c).after 3 t) from by
        unfold Dat.leavesExact; rw [liveAt3_3 t hc1], after3_3]
      unfold out3
      rw [acc3_step V c t h0]
      iintro ⟨⟨⟨HS, Hrest⟩, Hg⟩, Ho, ⟨%d0, H0⟩, ⟨%d1, H1⟩, ⟨%d2, H2⟩, ⟨%d3, H3⟩⟩
      iapply (sound3_C c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iintro ⟨⟨⟨HS, Hrest⟩, Hg⟩, Ho, ⟨%d0, H0⟩, ⟨%d1, H1⟩, ⟨%d2, H2⟩, ⟨%d3, H3⟩⟩
      iapply (sound3_B c Set.univ (grid3.coords t) _ _ _ _ _ _ _ _ scM3 (Memref.isWhole_whole _) hc0 hc1 (iblk3 V c 0 t) (iblk3 V c 1 t) (iblk3 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point; -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- after the last point the invariant gives it back, the scratch's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), PhiA3_eq]
  iintro ⟨⟨HS, Hrest⟩, Hg⟩
  isplitl [HS Hrest]
  · isplitl [HS]; · iexists _; iexact HS
    iexact Hrest
  iexact Hg

end Region

end Cert.Kernel.Hand

end
-- ==== Proof.K.Run.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Base
import proofs.«167880_j27642409517588_1_alg».proof.Proof.K.Body0
import proofs.«167880_j27642409517588_1_alg».proof.Proof.K.Body1
import proofs.«167880_j27642409517588_1_alg».proof.Proof.K.Body2
import proofs.«167880_j27642409517588_1_alg».proof.Proof.K.Body3
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eight segments from the launch to the return

Four host stretches (each one reshape of a bias vector into a row) alternate with the four kernel regions.
The buffer contents at every segment boundary are a fold from the launch memory: a stretch maps the contents
through its operations, a region replaces its windows' arrays by what its write-backs leave and keeps every
other buffer.

## The buffer contents at each segment boundary -/

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its windows' arrays at what the pipeline leaves (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its windows' arrays at what the pipeline leaves (an input as entered, an output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = V4 m ρ c (Pipeline.arrRef spec1 w) :=
  (W4_arr m ρ c w).symm
/-- and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its windows' arrays at what the pipeline leaves (an input as entered, an output with
    every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = V6 m ρ c (Pipeline.arrRef spec2 w) :=
  (W6_arr m ρ c w).symm
/-- and every other buffer what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its windows' arrays at what the pipeline leaves (an input as entered, an output with
    every write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = V8 m ρ c (Pipeline.arrRef spec3 w) :=
  (W8_arr m ρ c w).symm
/-- and every other buffer what it held at entry. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    at those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- No operation of the third host stretch allocates a buffer. -/
theorem hostOps2_fresh : (hostOps2 : List (HloOp τ sig (Elt F))).Forall fun op => op.fresh = ∅ := by
  simp only [List.Forall]; repeat' constructor
/-- No operation of the fourth host stretch allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments

A region is entered from every unscoped buffer at its entry contents. Its windows' arrays are split out of the
unscoped buffers and put back at the exit contents. The generator register and the scoped buffers no window
stages make the class invariant, which is the proof data's invariant before the first point (the scratch
block at anything); after the last point the proof data's invariant gives the class invariant back (the
scratch block's contents forgotten). Nothing is owed; the kernel has no semaphore of its own. -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ Pipeline.ΦA spec3 c from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of @main on the
    TensorCores terminates, nothing faulting, and in every final state every unscoped buffer of every core holds
    the last boundary's contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Frame.lean ====
import proofs.«167880_j27642409517588_1_alg».proof.Proof.Gen.Kernel.Launch
import proofs.«167880_j27642409517588_1_alg».proof.Proof.Gen.Kernel.Skeleton
import proofs.«167880_j27642409517588_1_alg».proof.Proof.Gen.Kernel.Points
import proofs.«167880_j27642409517588_1_alg».proof.Proof.K.Run
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The arguments end as launched

No host stretch writes an argument array (each writes only its own reshape result) and no launch writes one
(a launch's write-backs go to its output windows' arrays only; an argument it reads through an input window is
left as found): so the last fold, read at an argument, walks back to the launch memory. -/

variable (m : (ℓ : Loc nD τ sig) → Buf (Elt F) ℓ) (ρ : Dev nD → PrngReg)

/-- A host stretch leaves every buffer but its one result as it was. -/
theorem keepHost (ops : List (HloOp τ sig (Elt F))) (Ws : List (Ref sig .tc))
    (hw : ops.Forall fun op => op.writes ⊆ (Ws.map (Proc.devRef (τ := τ) .tc)).toFinset)
    (W : Valuation τ sig (Elt F)) (b : Ref sig .tc) (hb : b ∉ Ws) :
    StableHlo.after ops W (Proc.devRef .tc b) = W (Proc.devRef .tc b) :=
  StableHlo.after_of_writes_sub ops _ hw hb

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))

/-- Launch 0 leaves every buffer that is no output array of its own as it found it. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    rw [W2_arr]
    exact ((dat0 (V1 m ρ) c).arrAt_in w hin _).trans (A_eq0 (V1 m ρ) c w)
  · exact W2_of_ne m ρ c b (fun w e => h ⟨w, e⟩)

/-- Launch 1 leaves every buffer that is no output array of its own as it found it. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    rw [W4_arr]
    exact ((dat1 (V3 m ρ) c).arrAt_in w hin _).trans (A_eq1 (V3 m ρ) c w)
  · exact W4_of_ne m ρ c b (fun w e => h ⟨w, e⟩)

/-- Launch 2 leaves every buffer that is no output array of its own as it found it. -/
theorem W6_keep (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [W6_arr]
    exact ((dat2 (V5 m ρ) c).arrAt_in w hin _).trans (A_eq2 (V5 m ρ) c w)
  · exact W6_of_ne m ρ c b (fun w e => h ⟨w, e⟩)

/-- Launch 3 leaves every buffer that is no output array of its own as it found it. -/
theorem W8_keep (c : Dev nD) (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [W8_arr]
    exact ((dat3 (V7 m ρ) c).arrAt_in w hin _).trans (A_eq3 (V7 m ρ) c w)
  · exact W8_of_ne m ρ c b (fun w e => h ⟨w, e⟩)

/-- Buffer `b` holds its launch contents after each host stretch and at the end. -/
abbrev Kept (c : Dev nD) (b : Ref sig .tc) : Prop :=
  W1 m ρ c (Proc.devRef .tc b) = m ((c : Thread nD τ).loc b)
    ∧ W3 m ρ c (Proc.devRef .tc b) = m ((c : Thread nD τ).loc b)
    ∧ W5 m ρ c (Proc.devRef .tc b) = m ((c : Thread nD τ).loc b)
    ∧ W7 m ρ c (Proc.devRef .tc b) = m ((c : Thread nD τ).loc b)
    ∧ W8 m ρ c (Proc.devRef .tc b) = m ((c : Thread nD τ).loc b)

/-- A buffer that no host stretch writes and that is no launch's output array holds its launch contents at every fold. -/
theorem W_keep (c : Dev nD) (b : Ref sig .tc)
    (h0 : b ≠ main_v0) (h1 : b ≠ main_v2) (h2 : b ≠ main_v4) (h3 : b ≠ main_v6)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    Kept m ρ c b := by
  have e1 : W1 m ρ c (Proc.devRef .tc b) = m ((c : Thread nD τ).loc b) :=
    (keepHost hostOps0 [main_v0] hostOps0_writes _ b (by simpa using h0)).trans rfl
  have e3 : W3 m ρ c (Proc.devRef .tc b) = m ((c : Thread nD τ).loc b) :=
    (keepHost hostOps1 [main_v2] hostOps1_writes _ b (by simpa using h1)).trans ((W2_keep m ρ c b o0).trans e1)
  have e5 : W5 m ρ c (Proc.devRef .tc b) = m ((c : Thread nD τ).loc b) :=
    (keepHost hostOps2 [main_v4] hostOps2_writes _ b (by simpa using h2)).trans ((W4_keep m ρ c b o1).trans e3)
  have e7 : W7 m ρ c (Proc.devRef .tc b) = m ((c : Thread nD τ).loc b) :=
    (keepHost hostOps3 [main_v6] hostOps3_writes _ b (by simpa using h3)).trans ((W6_keep m ρ c b o2).trans e5)
  exact ⟨e1, e3, e5, e7, (W8_keep m ρ c b o3).trans e7⟩

theorem keep_arg0 (c : Dev nD) : Kept m ρ c main_arg0 := W_keep m ρ c main_arg0 (by decide) (by decide) (by decide) (by decide) (by decide) (by decide) (by decide) (by decide)
theorem keep_arg1 (c : Dev nD) : Kept m ρ c main_arg1 := W_keep m ρ c main_arg1 (by decide) (by decide) (by decide) (by decide) (by decide) (by decide) (by decide) (by decide)
theorem keep_arg2 (c : Dev nD) : Kept m ρ c main_arg2 := W_keep m ρ c main_arg2 (by decide) (by decide) (by decide) (by decide) (by decide) (by decide) (by decide) (by decide)
theorem keep_arg3 (c : Dev nD) : Kept m ρ c main_arg3 := W_keep m ρ c main_arg3 (by decide) (by decide) (by decide) (by decide) (by decide) (by decide) (by decide) (by decide)
theorem keep_arg4 (c : Dev nD) : Kept m ρ c main_arg4 := W_keep m ρ c main_arg4 (by decide) (by decide) (by decide) (by decide) (by decide) (by decide) (by decide) (by decide)
theorem keep_arg5 (c : Dev nD) : Kept m ρ c main_arg5 := W_keep m ρ c main_arg5 (by decide) (by decide) (by decide) (by decide) (by decide) (by decide) (by decide) (by decide)
theorem keep_arg6 (c : Dev nD) : Kept m ρ c main_arg6 := W_keep m ρ c main_arg6 (by decide) (by decide) (by decide) (by decide) (by decide) (by decide) (by decide) (by decide)
theorem keep_arg7 (c : Dev nD) : Kept m ρ c main_arg7 := W_keep m ρ c main_arg7 (by decide) (by decide) (by decide) (by decide) (by decide) (by decide) (by decide) (by decide)
theorem keep_arg8 (c : Dev nD) : Kept m ρ c main_arg8 := W_keep m ρ c main_arg8 (by decide) (by decide) (by decide) (by decide) (by decide) (by decide) (by decide) (by decide)
theorem keep_arg9 (c : Dev nD) : Kept m ρ c main_arg9 := W_keep m ρ c main_arg9 (by decide) (by decide) (by decide) (by decide) (by decide) (by decide) (by decide) (by decide)

/-- THE FRAME, at any instance: every weakly fair execution terminates and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (keep_arg0 m ρ c).2.2.2.2,
    (h c _ (mem_uc main_arg1 (by decide))).trans (keep_arg1 m ρ c).2.2.2.2,
    (h c _ (mem_uc main_arg2 (by decide))).trans (keep_arg2 m ρ c).2.2.2.2,
    (h c _ (mem_uc main_arg3 (by decide))).trans (keep_arg3 m ρ c).2.2.2.2,
    (h c _ (mem_uc main_arg4 (by decide))).trans (keep_arg4 m ρ c).2.2.2.2,
    (h c _ (mem_uc main_arg5 (by decide))).trans (keep_arg5 m ρ c).2.2.2.2,
    (h c _ (mem_uc main_arg6 (by decide))).trans (keep_arg6 m ρ c).2.2.2.2,
    (h c _ (mem_uc main_arg7 (by decide))).trans (keep_arg7 m ρ c).2.2.2.2,
    (h c _ (mem_uc main_arg8 (by decide))).trans (keep_arg8 m ρ c).2.2.2.2,
    (h c _ (mem_uc main_arg9 (by decide))).trans (keep_arg9 m ρ c).2.2.2.2⟩) (run_all m ρ)

end Cert.Kernel.Hand

end
-- ==== Proof.KI.Base.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Two facts about the whole-buffer rectangle at offset zero, shared by every launch's module. -/

theorem hz2 : (![0, 0] : Fin 2 → Nat) = fun _ => 0 := by funext a; fin_cases a <;> rfl

theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

end Cert.KernelIdeal.Hand

end
-- ==== Proof.KI.Body0.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: a tiled matrix product accumulated over the last grid axis, bias added (and the activation applied) at the last step

The scratch block carries the partial sum between consecutive points of one output tile: it is reset at a
point whose last coordinate is 0, every point adds its two blocks' product, and the point whose last
coordinate is 3 stores the sum plus the bias row (through the activation) into the output block. -/

section Region
variable (V : (c : Dev nD) → (b : Ref sig .tc) → Buf (Elt F) ((c : Thread nD τ).loc b))

/-- Window `w`'s block of its array at point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or carried over. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or carried over. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or carried over. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- The reset's condition: the last grid coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The epilogue's condition: the last grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## What the scratch and the output block hold, point by point -/

/-- The scratch after point `n`: this point's product added to zero at a reset point, to what the point before left otherwise. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 4 = 0 then (k0_pay1 (F := F)) else acc0 c n (Nat.lt_of_succ_lt hn))

theorem acc0_reset (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rw [acc0]
  | succ n => rw [acc0, if_pos h]

theorem acc0_step (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => rw [acc0, if_neg h]; rfl

/-- The output block a last-step point stores: the accumulated sum and the bias row through the epilogue. -/
def out0 (c : Dev nD) (t : Fin cfg0.N) : Vec F S1024x1024 .f32 :=
  k0_pay3 (acc0 V c t.val t.isLt) (iblk0 V c 2 t)

/-! ## The body's triples, one per case of the two conditions -/

set_option maxHeartbeats 1000000 in
/-- A reset point that is no last step: the scratch ends at the product added to zero; the output block is not touched. -/
theorem sound0_A (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond0_0 i) (hc1 : ¬cond0_1 i) (x0 : Vec F S1024x1024 .f32) (x1 : Vec F S1024x1024 .f32) (x2 : Vec F S1x1024 .f32) (xi3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 (k0_pay1 (F := F)))) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  have hf7 : True := trivial
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A point that neither resets nor finishes: the scratch ends at the product added to what it held; the output block is not touched. -/
theorem sound0_B (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond0_0 i) (hc1 : ¬cond0_1 i) (x0 : Vec F S1024x1024 .f32) (x1 : Vec F S1024x1024 .f32) (x2 : Vec F S1x1024 .f32) (xi3 : Vec F S1024x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 x0 x1 xs7)) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A last-step point that does not reset: the scratch as in the middle case, and the output block ends at the epilogue of the new sum and the bias row. -/
theorem sound0_C (c : Dev nD) (E : Set ℕ) (i : grid0.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond0_0 i) (hc1 : cond0_1 i) (x0 : Vec F S1024x1024 .f32) (x1 : Vec F S1024x1024 .f32) (x2 : Vec F S1x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 xs7) x2) ∗ owns (c : Thread nD τ) arg7 fullShare (k0_pay2 x0 x1 xs7)) -∗ K ⟨⟩))
      ⊢ wp frame (wpE (defs₀ (F := F)) Variants.none c none) E (cc0__mm_bias_act_kernel i arg3 harg3 arg4 harg4 arg5 harg5 arg6 harg6 arg7 harg7) K := by
  simp only [cc0__mm_bias_act_kernel_eq_skeleton]; unfold cc0__mm_bias_act_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

/-! ## The invariant: the scratch at the accumulator, the rest of the scoped buffers and the generator register untouched -/

/-- The scratch operand as a whole memref. -/
abbrev scM0 : Memref sig .tc .vmem S1024x1024 .f32 := Memref.whole cc0_scratch0

/-- The class invariant with this call's scratch split off. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before point `n`: at the first point the class invariant (the scratch at anything); later the scratch at what the point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- Pipeline 0's proof data on core `c`: the arrays as the region finds them; after the body each input's buffer at its
    block, the output's at the epilogue's value (read only at last-step points); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_in (c : Dev nD) (t : Fin cfg0.N) :
    (dat0 V c).leavesExact 0 t = owns (c : Thread nD τ) (st0_0 t) fullShare (iblk0 V c 0 t)
    ∧ (dat0 V c).leavesExact 1 t = owns (c : Thread nD τ) (st0_1 t) fullShare (iblk0 V c 1 t)
    ∧ (dat0 V c).leavesExact 2 t = owns (c : Thread nD τ) (st0_2 t) fullShare (iblk0 V c 2 t) := by
  refine ⟨?_, ?_, ?_⟩
  · unfold Dat.leavesExact; rw [show cfg0.idle 0 (cfg0.grid.coords t) = false from rfl, after0_0]
  · unfold Dat.leavesExact; rw [show cfg0.idle 1 (cfg0.grid.coords t) = false from rfl, after0_1]
  · unfold Dat.leavesExact; rw [show cfg0.idle 2 (cfg0.grid.coords t) = false from rfl, after0_2]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [(leaves0_in V c t).1, (leaves0_in V c t).2.1, (leaves0_in V c t).2.2]
  have hN : t.val < 64 := lt_of_lt_of_eq t.isLt (show cfg0.N = 64 from N_0)
  by_cases h0 : t.val % 4 = 0
  · have h1 : ¬t.val % 4 = 3 := by omega
    have hc0 := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩⟩
      iapply (sound0_A c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (sound0_A c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [acc0_step V c t h0]
    rw [Phi0_castSucc V c t, Phi0_pos V c _ _ hz]
    by_cases h1 : t.val % 4 = 3
    · have hc1 := (hcond0_1 t).mpr h1
      rw [show (dat0 V c).leavesExact 3 t = owns (c : Thread nD τ) (st0_3 t) fullShare ((dat0 V c).after 3 t) from by
        unfold Dat.leavesExact; rw [liveAt0_3 t hc1], after0_3]
      unfold out0
      rw [acc0_step V c t h0]
      iintro ⟨⟨⟨HS, Hrest⟩, Hg⟩, Ho, ⟨%d0, H0⟩, ⟨%d1, H1⟩, ⟨%d2, H2⟩, ⟨%d3, H3⟩⟩
      iapply (sound0_C c Set.univ (grid0.coords t) _ _ _ _ _ _ _ _ scM0 (Memref.isWhole_whole _) hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hrest⟩, Hg⟩, Ho, ⟨%d0, H0⟩, ⟨%d1, H1⟩, ⟨%d2, H2⟩, ⟨%d3, H3⟩⟩
      iapply (sound0_B c Set.univ (grid0.coords t) _ _ _ _ _ _ _ _ scM0 (Memref.isWhole_whole _) hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- after the last point the invariant gives it back, the scratch's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hrest⟩, Hg⟩
  isplitl [HS Hrest]
  · isplitl [HS]; · iexists _; iexact HS
    iexact Hrest
  iexact Hg

end Region

end Cert.KernelIdeal.Hand

end
-- ==== Proof.KI.Body1.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the second encoder product accumulated over the last grid axis, with the sampling step in its last step

The scratch block carries the partial sum of one row block: reset at a point whose last coordinate is 0, added to
at every point; the point whose last coordinate is 3 adds the bias row, splits the columns into the mean and the
log-variance, and stores those and the sample into the three output blocks. -/

section Region
variable (V : (c : Dev nD) → (b : Ref sig .tc) → Buf (Elt F) ((c : Thread nD τ).loc b))

/-- Window `w`'s block of its array at point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## What the scratch and the output blocks hold, point by point -/

/-- The scratch after point `n`: this point's product added to zero at a reset point, to what the point before left otherwise. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_reset (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rw [acc1]
  | succ n => rw [acc1, if_pos h]

theorem acc1_step (c : Dev nD) (t : Fin cfg1.N) (h : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => rw [acc1, if_neg h]; rfl

/-- The three blocks a last-step point stores: the sample, the mean, the log-variance. -/
def outZs1 (c : Dev nD) (t : Fin cfg1.N) : Vec F S512x512 .f32 := k1_pay6 (acc1 V c t.val t.isLt) (iblk1 V c 2 t) (iblk1 V c 3 t)
def outMu1 (c : Dev nD) (t : Fin cfg1.N) : Vec F S512x512 .f32 := k1_pay4 (acc1 V c t.val t.isLt) (iblk1 V c 2 t)
def outLv1 (c : Dev nD) (t : Fin cfg1.N) : Vec F S512x512 .f32 := k1_pay5 (acc1 V c t.val t.isLt) (iblk1 V c 2 t)

/-! ## The body's triples, one per case of the two conditions -/

set_option maxHeartbeats 1000000 in
theorem sound1_A (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : cond1_0 i) (hc1 : ¬cond1_1 i) (x0 : Vec F S512x1024 .f32) (x1 : Vec F S1024x1024 .f32) (x2 : Vec F S1x1024 .f32) (x3 : Vec F S512x512 .f32) (xi4 xi5 xi6 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6 ∗ owns (c : Thread nD τ) arg9 fullShare (k1_pay2 x0 x1 (k1_pay1 (F := F)))) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, View.ld_unit_zero (S := S512x1024) hz2, View.ld_unit_zero (S := S1024x1024) hz2, View.ld_unit_zero (S := S1x1024) hz2, View.ld_unit_zero (S := S512x512) hz2, View.readCov_unit_zero (S := S512x1024) _ hz2]

set_option maxHeartbeats 1000000 in
theorem sound1_B (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : ¬cond1_0 i) (hc1 : ¬cond1_1 i) (x0 : Vec F S512x1024 .f32) (x1 : Vec F S1024x1024 .f32) (x2 : Vec F S1x1024 .f32) (x3 : Vec F S512x512 .f32) (xi4 xi5 xi6 : Vec F S512x512 .f32) (xs9 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6 ∗ owns (c : Thread nD τ) arg9 fullShare xs9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6 ∗ owns (c : Thread nD τ) arg9 fullShare (k1_pay2 x0 x1 xs9)) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg9.eq_unread hf9
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]

set_option maxHeartbeats 1000000 in
theorem sound1_C (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x1024 .f32) (harg9 : arg9.IsWhole)
    (hc0 : ¬cond1_0 i) (hc1 : cond1_1 i) (x0 : Vec F S512x1024 .f32) (x1 : Vec F S1024x1024 .f32) (x2 : Vec F S1x1024 .f32) (x3 : Vec F S512x512 .f32) (xs9 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay6 (k1_pay2 x0 x1 xs9) x2 x3)
            ∗ owns (c : Thread nD τ) arg7 fullShare (k1_pay4 (k1_pay2 x0 x1 xs9) x2)
            ∗ owns (c : Thread nD τ) arg8 fullShare (k1_pay5 (k1_pay2 x0 x1 xs9) x2)
            ∗ owns (c : Thread nD τ) arg9 fullShare (k1_pay2 x0 x1 xs9)) -∗ K ⟨⟩))
      ⊢ wp frame (wpE (defs₀ (F := F)) Variants.none c none) E (cc1__enc2_reparam_kernel i arg2 harg2 arg3 harg3 arg4 harg4 arg5 harg5 arg6 harg6 arg7 harg7 arg8 harg8 arg9 harg9) K := by
  simp only [cc1__enc2_reparam_kernel_eq_skeleton]; unfold cc1__enc2_reparam_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f9, %hf9, H9⟩, Hk⟩
  obtain rfl := harg2.eq_unread hf0; obtain rfl := harg3.eq_unread hf1; obtain rfl := harg4.eq_unread hf2; obtain rfl := harg5.eq_unread hf3
  obtain rfl := harg9.eq_unread hf9
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr
    swap; · iexact H4
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  isplitl [H5]
  · iexists _; isplitr
    swap; · iexact H5
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  isplitl [H6]
  · iexists _; isplitr
    swap; · iexact H6
    ipureintro
    sl_unfold_words
    rw [View.read_writes_eq_canon _ _ _ (fun y => ⟨_, List.mem_cons_self, mem_unit_zero hz2 inb_S512x512_S512x512_0_0 y⟩), View.canon_cons_unit_zero (S := S512x512) hz2]
    simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]
  iexists _; isplitr
  swap; · iexact H9
  ipureintro
  sl_unfold_words
  rw [View.read_writes_eq_canon _ _ _ (fun y => ⟨_, List.mem_cons_self, mem_unit_zero hz2 inb_S512x1024_S512x1024_0_0 y⟩), View.canon_cons_unit_zero (S := S512x1024) hz2]
  simp only [View.readAt_eq_ld, hf0, hf1, hf2, hf3, hf9, View.ld_unit_zero (S := S512x1024) hz2, View.ld_unit_zero (S := S1024x1024) hz2, View.ld_unit_zero (S := S1x1024) hz2, View.ld_unit_zero (S := S512x512) hz2, View.readCov_unit_zero (S := S512x1024) _ hz2]

/-! ## The invariant -/

abbrev scM1 : Memref sig .tc .vmem S512x1024 .f32 := Memref.whole cc1_scratch0

theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outZs1 V c t
    | ⟨5, _⟩ => outMu1 V c t
    | ⟨6, _⟩ => outLv1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outZs1 V c t := by dsimp only [dat1]
theorem after1_5 (c : Dev nD) (t : Fin cfg1.N) : (dat1 V c).after 5 t = outMu1 V c t := by dsimp only [dat1]
theorem after1_6 (c : Dev nD) (t : Fin cfg1.N) : (dat1 V c).after 6 t = outLv1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_in (c : Dev nD) (t : Fin cfg1.N) :
    (dat1 V c).leavesExact 0 t = owns (c : Thread nD τ) (st1_0 t) fullShare (iblk1 V c 0 t)
    ∧ (dat1 V c).leavesExact 1 t = owns (c : Thread nD τ) (st1_1 t) fullShare (iblk1 V c 1 t)
    ∧ (dat1 V c).leavesExact 2 t = owns (c : Thread nD τ) (st1_2 t) fullShare (iblk1 V c 2 t)
    ∧ (dat1 V c).leavesExact 3 t = owns (c : Thread nD τ) (st1_3 t) fullShare (iblk1 V c 3 t) := by
  refine ⟨?_, ?_, ?_, ?_⟩
  · unfold Dat.leavesExact; rw [show cfg1.idle 0 (cfg1.grid.coords t) = false from rfl, after1_0]
  · unfold Dat.leavesExact; rw [show cfg1.idle 1 (cfg1.grid.coords t) = false from rfl, after1_1]
  · unfold Dat.leavesExact; rw [show cfg1.idle 2 (cfg1.grid.coords t) = false from rfl, after1_2]
  · unfold Dat.leavesExact; rw [show cfg1.idle 3 (cfg1.grid.coords t) = false from rfl, after1_3]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [(leaves1_in V c t).1, (leaves1_in V c t).2.1, (leaves1_in V c t).2.2.1, (leaves1_in V c t).2.2.2]
  have hN : t.val < 32 := lt_of_lt_of_eq t.isLt (show cfg1.N = 32 from N_1)
  by_cases h0 : t.val % 4 = 0
  · have h1 : ¬t.val % 4 = 3 := by omega
    have hc0 := (hcond1_0 t).mpr h0
    have hc1 : ¬cond1_1 (grid1.coords t) := fun h => h1 ((hcond1_1 t).mp h)
    rw [Dat.leavesExact_idle (dat1 V c) 4 t (idleAt1_4 t hc1) (noFlush1_4 t hc1), Dat.leavesExact_idle (dat1 V c) 5 t (idleAt1_5 t hc1) (noFlush1_5 t hc1),
      Dat.leavesExact_idle (dat1 V c) 6 t (idleAt1_6 t hc1) (noFlush1_6 t hc1)]
    rw [acc1_reset V c t h0]
    by_cases hz : t.val = 0
    · rw [Phi1_castSucc V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_A c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [Phi1_castSucc V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_A c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun e => h0 (by rw [e])
    have hc0 : ¬cond1_0 (grid1.coords t) := fun h => h0 ((hcond1_0 t).mp h)
    rw [acc1_step V c t h0]
    rw [Phi1_castSucc V c t, Phi1_pos V c _ _ hz]
    by_cases h1 : t.val % 4 = 3
    · have hc1 := (hcond1_1 t).mpr h1
      rw [show (dat1 V c).leavesExact 4 t = owns (c : Thread nD τ) (st1_4 t) fullShare ((dat1 V c).after 4 t) from by
        unfold Dat.leavesExact; rw [liveAt1_4 t hc1], after1_4]
      rw [show (dat1 V c).leavesExact 5 t = owns (c : Thread nD τ) (st1_5 t) fullShare ((dat1 V c).after 5 t) from by
        unfold Dat.leavesExact; rw [liveAt1_5 t hc1], after1_5]
      rw [show (dat1 V c).leavesExact 6 t = owns (c : Thread nD τ) (st1_6 t) fullShare ((dat1 V c).after 6 t) from by
        unfold Dat.leavesExact; rw [liveAt1_6 t hc1], after1_6]
      unfold outZs1 outMu1 outLv1
      rw [acc1_step V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_C c Set.univ (grid1.coords t) _ _ _ _ _ _ _ _ _ _ _ _ _ _ scM1 (Memref.isWhole_whole _) hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 4 t (idleAt1_4 t hc1) (noFlush1_4 t hc1), Dat.leavesExact_idle (dat1 V c) 5 t (idleAt1_5 t hc1) (noFlush1_5 t hc1),
      Dat.leavesExact_idle (dat1 V c) 6 t (idleAt1_6 t hc1) (noFlush1_6 t hc1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (sound1_B c Set.univ (grid1.coords t) _ _ _ _ _ _ _ _ _ _ _ _ _ _ scM1 (Memref.isWhole_whole _) hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, Hrest⟩, Hg⟩
  isplitl [HS Hrest]
  · isplitl [HS]; · iexists _; iexact HS
    iexact Hrest
  iexact Hg

end Region

end Cert.KernelIdeal.Hand

end
-- ==== Proof.KI.Body2.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: a tiled matrix product whose contracted axis is ONE block

Every point resets the scratch block, adds its two blocks' product, and stores the sum plus the bias row through
the activation into its output block: the scratch carries nothing from point to point. -/

/-- A whole-buffer load after stores of which the LAST was a whole-buffer store reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section Region
variable (V : (c : Dev nD) → (b : Ref sig .tc) → Buf (Elt F) ((c : Thread nD τ).loc b))

/-- Window `w`'s block of its array at point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions hold at every point: the last grid axis has one coordinate -/

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))
theorem liveAt2_3 : ∀ t : Fin cfg2.N, cfg2.idle 3 (grid2.coords t) = false := by decide +kernel

/-! ## What the scratch and the output block hold after a point -/

/-- The scratch after point `t`: the product added to zero. -/
def acc2 (c : Dev nD) (t : Fin cfg2.N) : Vec F S1024x1024 .f32 :=
  k2_pay2 (iblk2 V c 0 t) (iblk2 V c 1 t) (k2_pay1 (F := F))

/-- The output block point `t` stores: that sum and the bias row through the epilogue. -/
def out2 (c : Dev nD) (t : Fin cfg2.N) : Vec F S1024x1024 .f32 :=
  k2_pay3 (acc2 V c t) (iblk2 V c 2 t)

/-! ## The body's triple -/

set_option maxHeartbeats 1000000 in
theorem sound2_D (c : Dev nD) (E : Set ℕ) (i : grid2.Coords) (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond2_0 i) (hc1 : cond2_1 i) (x0 : Vec F S1024x512 .f32) (x1 : Vec F S512x1024 .f32) (x2 : Vec F S1x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 (k2_pay1 (F := F))) x2) ∗ owns (c : Thread nD τ) arg7 fullShare (k2_pay2 x0 x1 (k2_pay1 (F := F)))) -∗ K ⟨⟩))
      ⊢ wp frame (wpE (defs₀ (F := F)) Variants.none c none) E (cc2__mm_bias_act_kernel i arg3 harg3 arg4 harg4 arg5 harg5 arg6 harg6 arg7 harg7) K := by
  simp only [cc2__mm_bias_act_kernel_eq_skeleton]; unfold cc2__mm_bias_act_kernel_skel
  unfold owns
  iintro ⟨⟨%f0, %hf0, H0⟩, ⟨%f1, %hf1, H1⟩, ⟨%f2, %hf2, H2⟩, ⟨%d3, %f3, -, H3⟩, ⟨%d7, %f7, -, H7⟩, Hk⟩
  obtain rfl := harg3.eq_unread hf0; obtain rfl := harg4.eq_unread hf1; obtain rfl := harg5.eq_unread hf2
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, View.ld_unit_zero (S := S1024x512) hz2, View.ld_unit_zero (S := S512x1024) hz2, View.ld_unit_zero (S := S1x1024) hz2, View.ld_unit_zero (S := S1024x1024) hz2, View.readCov_unit_zero (S := S1024x1024) _ hz2, readCov_cons_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, View.ld_unit_zero (S := S1024x512) hz2, View.ld_unit_zero (S := S512x1024) hz2, View.ld_unit_zero (S := S1x1024) hz2, View.ld_unit_zero (S := S1024x1024) hz2, View.readCov_unit_zero (S := S1024x1024) _ hz2, readCov_cons_unit_zero (S := S1024x1024) _ hz2]

/-! ## The invariant -/

abbrev scM2 : Memref sig .tc .vmem S1024x1024 .f32 := Memref.whole cc2_scratch0

theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before point `n`: at the first point the class invariant; later the scratch at what the point before left. -/
def Phi2 (c : Dev nD) : (n : ℕ) → n ≤ cfg2.N → sProp 𝕄
  | 0, _ => Pipeline.ΦA spec2 c
  | n + 1, hn => iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t) := by
  refine ⟨?_, ?_, ?_⟩
  · unfold Dat.leavesExact; rw [show cfg2.idle 0 (cfg2.grid.coords t) = false from rfl, after2_0]
  · unfold Dat.leavesExact; rw [show cfg2.idle 1 (cfg2.grid.coords t) = false from rfl, after2_1]
  · unfold Dat.leavesExact; rw [show cfg2.idle 2 (cfg2.grid.coords t) = false from rfl, after2_2]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [(leaves2_in V c t).1, (leaves2_in V c t).2.1, (leaves2_in V c t).2.2]
  rw [show (dat2 V c).leavesExact 3 t = owns (c : Thread nD τ) (st2_3 t) fullShare ((dat2 V c).after 3 t) from by
    unfold Dat.leavesExact; rw [liveAt2_3 t], after2_3]
  unfold out2 acc2
  by_cases hz : t.val = 0
  · rw [Phi2_castSucc V c t, Phi2_zero V c _ _ hz, PhiA2_eq]
    iintro ⟨⟨⟨HS, Hrest⟩, Hg⟩, Ho, ⟨%d0, H0⟩, ⟨%d1, H1⟩, ⟨%d2, H2⟩, ⟨%d3, H3⟩⟩
    iapply (sound2_D c Set.univ (grid2.coords t) _ _ _ _ _ _ _ _ scM2 (Memref.isWhole_whole _) (hcond2_0 t) (hcond2_1 t) (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · rw [Phi2_castSucc V c t, Phi2_pos V c _ _ hz]
    iintro ⟨⟨⟨HS, Hrest⟩, Hg⟩, Ho, ⟨%d0, H0⟩, ⟨%d1, H1⟩, ⟨%d2, H2⟩, ⟨%d3, H3⟩⟩
    iapply (sound2_D c Set.univ (grid2.coords t) _ _ _ _ _ _ _ _ scM2 (Memref.isWhole_whole _) (hcond2_0 t) (hcond2_1 t) (iblk2 V c 0 t) (iblk2 V c 1 t) (iblk2 V c 2 t) _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 16 := N_2; omega), PhiA2_eq]
  iintro ⟨⟨HS, Hrest⟩, Hg⟩
  isplitl [HS Hrest]
  · isplitl [HS]; · iexists _; iexact HS
    iexact Hrest
  iexact Hg

end Region

end Cert.KernelIdeal.Hand

end
-- ==== Proof.KI.Body3.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Base
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: a tiled matrix product accumulated over the last grid axis, bias added (and the activation applied) at the last step

The scratch block carries the partial sum between consecutive points of one output tile: it is reset at a
point whose last coordinate is 0, every point adds its two blocks' product, and the point whose last
coordinate is 3 stores the sum plus the bias row (through the activation) into the output block. -/

section Region
variable (V : (c : Dev nD) → (b : Ref sig .tc) → Buf (Elt F) ((c : Thread nD τ).loc b))

/-- Window `w`'s block of its array at point `t`, the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or carried over. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or carried over. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or carried over. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions over the grid -/

/-- The reset's condition: the last grid coordinate is 0. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The epilogue's condition: the last grid coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## What the scratch and the output block hold, point by point -/

/-- The scratch after point `n`: this point's product added to zero at a reset point, to what the point before left otherwise. -/
def acc3 (c : Dev nD) : (n : ℕ) → n < cfg3.N → Vec F S1024x1024 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩)
      (if (n + 1) % 4 = 0 then (k3_pay1 (F := F)) else acc3 c n (Nat.lt_of_succ_lt hn))

theorem acc3_reset (c : Dev nD) (t : Fin cfg3.N) (h : t.val % 4 = 0) :
    acc3 V c t.val t.isLt = k3_pay2 (iblk3 V c 0 t) (iblk3 V c 1 t) (k3_pay1 (F := F)) := by
  obtain ⟨n, hn⟩ := t
  cases n with
  | zero => rw [acc3]
  | succ n => rw [acc3, if_pos h]

theorem acc3_step (c : Dev nD) (t : Fin cfg3.N) (h : ¬t.val % 4 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => rw [acc3, if_neg h]; rfl

/-- The output block a last-step point stores: the accumulated sum and the bias row through the epilogue. -/
def out3 (c : Dev nD) (t : Fin cfg3.N) : Vec F S1024x1024 .f32 :=
  k3_pay3 (acc3 V c t.val t.isLt) (iblk3 V c 2 t)

/-! ## The body's triples, one per case of the two conditions -/

set_option maxHeartbeats 1000000 in
/-- A reset point that is no last step: the scratch ends at the product added to zero; the output block is not touched. -/
theorem sound3_A (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : cond3_0 i) (hc1 : ¬cond3_1 i) (x0 : Vec F S1024x1024 .f32) (x1 : Vec F S1024x1024 .f32) (x2 : Vec F S1x1024 .f32) (xi3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 (k3_pay1 (F := F)))) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  obtain rfl := harg3.eq_unread hf0; obtain rfl := harg4.eq_unread hf1; obtain rfl := harg5.eq_unread hf2; obtain rfl := harg6.eq_unread hf3
  have hf7 : True := trivial
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A point that neither resets nor finishes: the scratch ends at the product added to what it held; the output block is not touched. -/
theorem sound3_B (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond3_0 i) (hc1 : ¬cond3_1 i) (x0 : Vec F S1024x1024 .f32) (x1 : Vec F S1024x1024 .f32) (x2 : Vec F S1x1024 .f32) (xi3 : Vec F S1024x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k3_pay2 x0 x1 xs7)) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

set_option maxHeartbeats 1000000 in
/-- A last-step point that does not reset: the scratch as in the middle case, and the output block ends at the epilogue of the new sum and the bias row. -/
theorem sound3_C (c : Dev nD) (E : Set ℕ) (i : grid3.Coords) (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬cond3_0 i) (hc1 : cond3_1 i) (x0 : Vec F S1024x1024 .f32) (x1 : Vec F S1024x1024 .f32) (x2 : Vec F S1x1024 .f32) (xs7 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs7
        ∗ (iprop(owns (c : Thread nD τ) arg3 fullShare x0 ∗ owns (c : Thread nD τ) arg4 fullShare x1 ∗ owns (c : Thread nD τ) arg5 fullShare x2
            ∗ owns (c : Thread nD τ) arg6 fullShare (k3_pay3 (k3_pay2 x0 x1 xs7) x2) ∗ owns (c : Thread nD τ) arg7 fullShare (k3_pay2 x0 x1 xs7)) -∗ K ⟨⟩))
      ⊢ wp frame (wpE (defs₀ (F := F)) Variants.none c none) E (cc3__mm_bias_act_kernel i arg3 harg3 arg4 harg4 arg5 harg5 arg6 harg6 arg7 harg7) K := by
  simp only [cc3__mm_bias_act_kernel_eq_skeleton]; unfold cc3__mm_bias_act_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    sl_unfold_words
    rw [View.read_writes_eq_canon _ _ _ (fun y => ⟨_, List.mem_cons_self, mem_unit_zero hz2 inb_S1024x1024_S1024x1024_0_0 y⟩), View.canon_cons_unit_zero (S := S1024x1024) hz2]
    simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]
  iexists _; isplitr
  swap; · iexact H7
  ipureintro
  sl_unfold_words
  rw [View.read_writes_eq_canon _ _ _ (fun y => ⟨_, List.mem_cons_self, mem_unit_zero hz2 inb_S1024x1024_S1024x1024_0_0 y⟩), View.canon_cons_unit_zero (S := S1024x1024) hz2]
  simp only [View.readAt_eq_ld, hf0, hf1, hf2, hf7, View.ld_unit_zero (S := S1024x1024) hz2, View.ld_unit_zero (S := S1024x1024) hz2, View.ld_unit_zero (S := S1x1024) hz2, View.ld_unit_zero (S := S1024x1024) hz2, View.readCov_unit_zero (S := S1024x1024) _ hz2]

/-! ## The invariant: the scratch at the accumulator, the rest of the scoped buffers and the generator register untouched -/

/-- The scratch operand as a whole memref. -/
abbrev scM3 : Memref sig .tc .vmem S1024x1024 .f32 := Memref.whole cc3_scratch0

/-- The class invariant with this call's scratch split off. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before point `n`: at the first point the class invariant (the scratch at anything); later the scratch at what the point before left. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- Pipeline 0's proof data on core `c`: the arrays as the region finds them; after the body each input's buffer at its
    block, the output's at the epilogue's value (read only at last-step points); the invariant above; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_in (c : Dev nD) (t : Fin cfg3.N) :
    (dat3 V c).leavesExact 0 t = owns (c : Thread nD τ) (st3_0 t) fullShare (iblk3 V c 0 t)
    ∧ (dat3 V c).leavesExact 1 t = owns (c : Thread nD τ) (st3_1 t) fullShare (iblk3 V c 1 t)
    ∧ (dat3 V c).leavesExact 2 t = owns (c : Thread nD τ) (st3_2 t) fullShare (iblk3 V c 2 t) := by
  refine ⟨?_, ?_, ?_⟩
  · unfold Dat.leavesExact; rw [show cfg3.idle 0 (cfg3.grid.coords t) = false from rfl, after3_0]
  · unfold Dat.leavesExact; rw [show cfg3.idle 1 (cfg3.grid.coords t) = false from rfl, after3_1]
  · unfold Dat.leavesExact; rw [show cfg3.idle 2 (cfg3.grid.coords t) = false from rfl, after3_2]

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [(leaves3_in V c t).1, (leaves3_in V c t).2.1, (leaves3_in V c t).2.2]
  have hN : t.val < 64 := lt_of_lt_of_eq t.isLt (show cfg3.N = 64 from N_3)
  by_cases h0 : t.val % 4 = 0
  · have h1 : ¬t.val % 4 = 3 := by omega
    have hc0 := (hcond3_0 t).mpr h0
    have hc1 : ¬cond3_1 (grid3.coords t) := fun h => h1 ((hcond3_1 t).mp h)
    rw [Dat.leavesExact_idle (dat3 V c) 3 t (idleAt3_3 t hc1) (noFlush3_3 t hc1)]
    rw [acc3_reset V c t h0]
    by_cases hz : t.val = 0
    · rw [Phi3_castSucc V c t, Phi3_zero V c _ _ hz, PhiA3_eq]
      iintro ⟨⟨⟨HS, Hrest⟩, Hg⟩, Ho, ⟨%d0, H0⟩, ⟨%d1, H1⟩, ⟨%d2, H2⟩, ⟨%d3, H3⟩⟩
      iapply (sound3_A c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi3_castSucc V c t, Phi3_pos V c _ _ hz]
      iintro ⟨⟨⟨HS, Hrest⟩, Hg⟩, Ho, ⟨%d0, H0⟩, ⟨%d1, H1⟩, ⟨%d2, H2⟩, ⟨%d3, H3⟩⟩
      iapply (sound3_A c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond3_0 (grid3.coords t) := fun h => h0 ((hcond3_0 t).mp h)
    rw [acc3_step V c t h0]
    rw [Phi3_castSucc V c t, Phi3_pos V c _ _ hz]
    by_cases h1 : t.val % 4 = 3
    · have hc1 := (hcond3_1 t).mpr h1
      rw [show (dat3 V c).leavesExact 3 t = owns (c : Thread nD τ) (st3_3 t) fullShare ((dat3 V c).after 3 t) from by
        unfold Dat.leavesExact; rw [liveAt3_3 t hc1], after3_3]
      unfold out3
      rw [acc3_step V c t h0]
      iintro ⟨⟨⟨HS, Hrest⟩, Hg⟩, Ho, ⟨%d0, H0⟩, ⟨%d1, H1⟩, ⟨%d2, H2⟩, ⟨%d3, H3⟩⟩
      iapply (sound3_C c Set.univ (grid3.coords t) _ _ _ _ _ _ _ _ scM3 (Memref.isWhole_whole _) hc0 hc1 (iblk3 V c 0 t) (iblk3 V c 1 t) (iblk3 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iintro ⟨⟨⟨HS, Hrest⟩, Hg⟩, Ho, ⟨%d0, H0⟩, ⟨%d1, H1⟩, ⟨%d2, H2⟩, ⟨%d3, H3⟩⟩
      iapply (sound3_B c Set.univ (grid3.coords t) _ _ _ _ _ _ _ _ scM3 (Memref.isWhole_whole _) hc0 hc1 (iblk3 V c 0 t) (iblk3 V c 1 t) (iblk3 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point; -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- after the last point the invariant gives it back, the scratch's contents forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 64 := N_3; omega), PhiA3_eq]
  iintro ⟨⟨HS, Hrest⟩, Hg⟩
  isplitl [HS Hrest]
  · isplitl [HS]; · iexists _; iexact HS
    iexact Hrest
  iexact Hg

end Region

end Cert.KernelIdeal.Hand

end
-- ==== Proof.KI.Run.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Base
import proofs.«167880_j27642409517588_1_alg».proof.Proof.KI.Body0
import proofs.«167880_j27642409517588_1_alg».proof.Proof.KI.Body1
import proofs.«167880_j27642409517588_1_alg».proof.Proof.KI.Body2
import proofs.«167880_j27642409517588_1_alg».proof.Proof.KI.Body3
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eight segments from the launch to the return

Four host stretches (each one reshape of a bias vector into a row) alternate with the four kernel regions.
The buffer contents at every segment boundary are a fold from the launch memory: a stretch maps the contents
through its operations, a region replaces its windows' arrays by what its write-backs leave and keeps every
other buffer.

## The buffer contents at each segment boundary -/

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its windows' arrays at what the pipeline leaves (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its windows' arrays at what the pipeline leaves (an input as entered, an output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = V4 m ρ c (Pipeline.arrRef spec1 w) :=
  (W4_arr m ρ c w).symm
/-- and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its windows' arrays at what the pipeline leaves (an input as entered, an output with
    every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = V6 m ρ c (Pipeline.arrRef spec2 w) :=
  (W6_arr m ρ c w).symm
/-- and every other buffer what it held at entry. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its windows' arrays at what the pipeline leaves (an input as entered, an output with
    every write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = V8 m ρ c (Pipeline.arrRef spec3 w) :=
  (W8_arr m ρ c w).symm
/-- and every other buffer what it held at entry. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    at those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- No operation of the third host stretch allocates a buffer. -/
theorem hostOps2_fresh : (hostOps2 : List (HloOp τ sig (Elt F))).Forall fun op => op.fresh = ∅ := by
  simp only [List.Forall]; repeat' constructor
/-- No operation of the fourth host stretch allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments

A region is entered from every unscoped buffer at its entry contents. Its windows' arrays are split out of the
unscoped buffers and put back at the exit contents. The generator register and the scoped buffers no window
stages make the class invariant, which is the proof data's invariant before the first point (the scratch
block at anything); after the last point the proof data's invariant gives the class invariant back (the
scratch block's contents forgotten). Nothing is owed; the kernel has no semaphore of its own. -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m ρ 3 c).Φ 0 from hin3 (V7 m ρ) c)
    unfold Pipeline.ΦA
    iintro ⟨Hp, -, Hr⟩
    isplitl [Hr]; · iexact Hr
    iexact Hp
  hout c := by
    rw [Pipeline.ownSems0_none]
    refine BIBase.Entails.trans (show (pdats m ρ 3 c).Φ (Fin.last _) ⊢ Pipeline.ΦA spec3 c from hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- The run: at the compiled mesh, from any memory with zero counters, every weakly fair execution of @main on the
    TensorCores terminates, nothing faulting, and in every final state every unscoped buffer of every core holds
    the last boundary's contents `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Frame.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Run
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The arguments end as launched

No host stretch writes an argument array (each writes only its own reshape result) and no launch writes one
(a launch's write-backs go to its output windows' arrays only; an argument it reads through an input window is
left as found): so the last fold, read at an argument, walks back to the launch memory. -/

variable (m : (ℓ : Loc nD τ sig) → Buf (Elt F) ℓ) (ρ : Dev nD → PrngReg)

/-- A host stretch leaves every buffer but its one result as it was. -/
theorem keepHost (ops : List (HloOp τ sig (Elt F))) (Ws : List (Ref sig .tc))
    (hw : ops.Forall fun op => op.writes ⊆ (Ws.map (Proc.devRef (τ := τ) .tc)).toFinset)
    (W : Valuation τ sig (Elt F)) (b : Ref sig .tc) (hb : b ∉ Ws) :
    StableHlo.after ops W (Proc.devRef .tc b) = W (Proc.devRef .tc b) :=
  StableHlo.after_of_writes_sub ops _ hw hb

theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))

/-- Launch 0 leaves every buffer that is no output array of its own as it found it. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    rw [W2_arr]
    exact ((dat0 (V1 m ρ) c).arrAt_in w hin _).trans (A_eq0 (V1 m ρ) c w)
  · exact W2_of_ne m ρ c b (fun w e => h ⟨w, e⟩)

/-- Launch 1 leaves every buffer that is no output array of its own as it found it. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    rw [W4_arr]
    exact ((dat1 (V3 m ρ) c).arrAt_in w hin _).trans (A_eq1 (V3 m ρ) c w)
  · exact W4_of_ne m ρ c b (fun w e => h ⟨w, e⟩)

/-- Launch 2 leaves every buffer that is no output array of its own as it found it. -/
theorem W6_keep (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [W6_arr]
    exact ((dat2 (V5 m ρ) c).arrAt_in w hin _).trans (A_eq2 (V5 m ρ) c w)
  · exact W6_of_ne m ρ c b (fun w e => h ⟨w, e⟩)

/-- Launch 3 leaves every buffer that is no output array of its own as it found it. -/
theorem W8_keep (c : Dev nD) (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [W8_arr]
    exact ((dat3 (V7 m ρ) c).arrAt_in w hin _).trans (A_eq3 (V7 m ρ) c w)
  · exact W8_of_ne m ρ c b (fun w e => h ⟨w, e⟩)

/-- Buffer `b` holds its launch contents after each host stretch and at the end. -/
abbrev Kept (c : Dev nD) (b : Ref sig .tc) : Prop :=
  W1 m ρ c (Proc.devRef .tc b) = m ((c : Thread nD τ).loc b)
    ∧ W3 m ρ c (Proc.devRef .tc b) = m ((c : Thread nD τ).loc b)
    ∧ W5 m ρ c (Proc.devRef .tc b) = m ((c : Thread nD τ).loc b)
    ∧ W7 m ρ c (Proc.devRef .tc b) = m ((c : Thread nD τ).loc b)
    ∧ W8 m ρ c (Proc.devRef .tc b) = m ((c : Thread nD τ).loc b)

/-- A buffer that no host stretch writes and that is no launch's output array holds its launch contents at every fold. -/
theorem W_keep (c : Dev nD) (b : Ref sig .tc)
    (h0 : b ≠ main_v0) (h1 : b ≠ main_v2) (h2 : b ≠ main_v4) (h3 : b ≠ main_v6)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    Kept m ρ c b := by
  have e1 : W1 m ρ c (Proc.devRef .tc b) = m ((c : Thread nD τ).loc b) :=
    (keepHost hostOps0 [main_v0] hostOps0_writes _ b (by simpa using h0)).trans rfl
  have e3 : W3 m ρ c (Proc.devRef .tc b) = m ((c : Thread nD τ).loc b) :=
    (keepHost hostOps1 [main_v2] hostOps1_writes _ b (by simpa using h1)).trans ((W2_keep m ρ c b o0).trans e1)
  have e5 : W5 m ρ c (Proc.devRef .tc b) = m ((c : Thread nD τ).loc b) :=
    (keepHost hostOps2 [main_v4] hostOps2_writes _ b (by simpa using h2)).trans ((W4_keep m ρ c b o1).trans e3)
  have e7 : W7 m ρ c (Proc.devRef .tc b) = m ((c : Thread nD τ).loc b) :=
    (keepHost hostOps3 [main_v6] hostOps3_writes _ b (by simpa using h3)).trans ((W6_keep m ρ c b o2).trans e5)
  exact ⟨e1, e3, e5, e7, (W8_keep m ρ c b o3).trans e7⟩

theorem keep_arg0 (c : Dev nD) : Kept m ρ c main_arg0 := W_keep m ρ c main_arg0 (by decide) (by decide) (by decide) (by decide) (by decide) (by decide) (by decide) (by decide)
theorem keep_arg1 (c : Dev nD) : Kept m ρ c main_arg1 := W_keep m ρ c main_arg1 (by decide) (by decide) (by decide) (by decide) (by decide) (by decide) (by decide) (by decide)
theorem keep_arg2 (c : Dev nD) : Kept m ρ c main_arg2 := W_keep m ρ c main_arg2 (by decide) (by decide) (by decide) (by decide) (by decide) (by decide) (by decide) (by decide)
theorem keep_arg3 (c : Dev nD) : Kept m ρ c main_arg3 := W_keep m ρ c main_arg3 (by decide) (by decide) (by decide) (by decide) (by decide) (by decide) (by decide) (by decide)
theorem keep_arg4 (c : Dev nD) : Kept m ρ c main_arg4 := W_keep m ρ c main_arg4 (by decide) (by decide) (by decide) (by decide) (by decide) (by decide) (by decide) (by decide)
theorem keep_arg5 (c : Dev nD) : Kept m ρ c main_arg5 := W_keep m ρ c main_arg5 (by decide) (by decide) (by decide) (by decide) (by decide) (by decide) (by decide) (by decide)
theorem keep_arg6 (c : Dev nD) : Kept m ρ c main_arg6 := W_keep m ρ c main_arg6 (by decide) (by decide) (by decide) (by decide) (by decide) (by decide) (by decide) (by decide)
theorem keep_arg7 (c : Dev nD) : Kept m ρ c main_arg7 := W_keep m ρ c main_arg7 (by decide) (by decide) (by decide) (by decide) (by decide) (by decide) (by decide) (by decide)
theorem keep_arg8 (c : Dev nD) : Kept m ρ c main_arg8 := W_keep m ρ c main_arg8 (by decide) (by decide) (by decide) (by decide) (by decide) (by decide) (by decide) (by decide)
theorem keep_arg9 (c : Dev nD) : Kept m ρ c main_arg9 := W_keep m ρ c main_arg9 (by decide) (by decide) (by decide) (by decide) (by decide) (by decide) (by decide) (by decide)

/-- THE FRAME, at any instance: every weakly fair execution terminates and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (keep_arg0 m ρ c).2.2.2.2,
    (h c _ (mem_uc main_arg1 (by decide))).trans (keep_arg1 m ρ c).2.2.2.2,
    (h c _ (mem_uc main_arg2 (by decide))).trans (keep_arg2 m ρ c).2.2.2.2,
    (h c _ (mem_uc main_arg3 (by decide))).trans (keep_arg3 m ρ c).2.2.2.2,
    (h c _ (mem_uc main_arg4 (by decide))).trans (keep_arg4 m ρ c).2.2.2.2,
    (h c _ (mem_uc main_arg5 (by decide))).trans (keep_arg5 m ρ c).2.2.2.2,
    (h c _ (mem_uc main_arg6 (by decide))).trans (keep_arg6 m ρ c).2.2.2.2,
    (h c _ (mem_uc main_arg7 (by decide))).trans (keep_arg7 m ρ c).2.2.2.2,
    (h c _ (mem_uc main_arg8 (by decide))).trans (keep_arg8 m ρ c).2.2.2.2,
    (h c _ (mem_uc main_arg9 (by decide))).trans (keep_arg9 m ρ c).2.2.2.2⟩) (run_all m ρ)

end Cert.KernelIdeal.Hand

end
-- ==== Proof.Stages.lean ====
/-
  The autoencoder's four stages as functions on the extended reals, element by element, over the whole argument
  arrays: what each launch of the program leaves in its result array, and what the reference computes between its
  matrix products. Every matrix product is ONE sum over the whole contracted axis; that the program's tiled,
  step-by-step accumulation adds up to the same sum is proved where each launch is read.
-/
import Idealize.ShloMosaic.PureOps.Ideal
import Idealize.ShloMosaic.PureOps.Ideal.Laws
import Idealize.ShloMosaic.Lib.ValueIdx

noncomputable section

open scoped BigOperators

namespace Cert.Stages

open Idealize.ShloMosaic Idealize.ShloMosaic.ValueIdx

/-- A rank-2 shape by its two extents. -/
abbrev Sh (a b : ℕ) : Shape := ⟨2, ![a, b]⟩

/-- A rank-2 array from a function of the two coordinates. -/
def arr2 {a b : ℕ} (f : Fin a → Fin b → EReal) : (Sh a b).Idx → EReal := fun i => f (i 0) (i 1)

theorem arr2_ix2 {a b : ℕ} (f : Fin a → Fin b → EReal) (p : Fin a) (q : Fin b) : arr2 f (ix2 p q) = f p q := rfl

/-- The word `0.0` and the word `0.5`, as the extended reals they denote. -/
abbrev zeroW : EReal := Ideal.ofBits .f32 0x00000000#32
abbrev halfW : EReal := Ideal.ofBits .f32 0x3F000000#32

/-- First encoder layer: `max (x·W + b) 0`, the bias a row. -/
def enc1 (X W : (Sh 4096 4096).Idx → EReal) (b : (Sh 1 4096).Idx → EReal) (p q : Fin 4096) : EReal :=
  max (∑ k : Fin 4096, X (ix2 p k) * W (ix2 k q) + b (ix2 0 q)) zeroW

/-- Second encoder layer before the split: `h·W + b` over 1024 columns. -/
def enc2 (H : (Sh 4096 4096).Idx → EReal) (W : (Sh 4096 1024).Idx → EReal) (b : (Sh 1 1024).Idx → EReal) (p : Fin 4096) (q : Fin 1024) : EReal :=
  ∑ k : Fin 4096, H (ix2 p k) * W (ix2 k q) + b (ix2 0 q)

/-- The mean: the left half of the columns. -/
def mu (H : (Sh 4096 4096).Idx → EReal) (W : (Sh 4096 1024).Idx → EReal) (b : (Sh 1 1024).Idx → EReal) (p : Fin 4096) (q : Fin 512) : EReal :=
  enc2 H W b p ⟨q.val, by omega⟩

/-- The log-variance: the right half of the columns. -/
def logvar (H : (Sh 4096 4096).Idx → EReal) (W : (Sh 4096 1024).Idx → EReal) (b : (Sh 1 1024).Idx → EReal) (p : Fin 4096) (q : Fin 512) : EReal :=
  enc2 H W b p ⟨q.val + 512, by omega⟩

/-- The sample: `mu + exp (0.5 · logvar) · eps`. -/
def sample (H : (Sh 4096 4096).Idx → EReal) (W : (Sh 4096 1024).Idx → EReal) (b : (Sh 1 1024).Idx → EReal)
    (E : (Sh 4096 512).Idx → EReal) (p : Fin 4096) (q : Fin 512) : EReal :=
  mu H W b p q + Ideal.exp (halfW * logvar H W b p q) * E (ix2 p q)

/-- First decoder layer: `max (z·W + b) 0` over a contracted axis of 512. -/
def dec1 (Z : (Sh 4096 512).Idx → EReal) (W : (Sh 512 4096).Idx → EReal) (b : (Sh 1 4096).Idx → EReal) (p q : Fin 4096) : EReal :=
  max (∑ k : Fin 512, Z (ix2 p k) * W (ix2 k q) + b (ix2 0 q)) zeroW

/-- Second decoder layer: `h·W + b`, no activation. -/
def dec2 (H W : (Sh 4096 4096).Idx → EReal) (b : (Sh 1 4096).Idx → EReal) (p q : Fin 4096) : EReal :=
  ∑ k : Fin 4096, H (ix2 p k) * W (ix2 k q) + b (ix2 0 q)

/-- A sum over `n · t` consecutive indices is the sum over `n` consecutive stretches of `t`: the law that joins a
    step-by-step accumulation to the whole contraction (a commutative monoid's; no finiteness is asked). -/
theorem sum_blocks (n t : ℕ) (f : Fin (n * t) → EReal) :
    ∑ k : Fin (n * t), f k = ∑ kb : Fin n, ∑ kk : Fin t, f ⟨kb.val * t + kk.val, by
      have := kb.isLt; have := kk.isLt; nlinarith⟩ := by
  rw [← (finProdFinEquiv (m := n) (n := t)).sum_comp f, Fintype.sum_prod_type]
  refine Finset.sum_congr rfl fun kb _ => Finset.sum_congr rfl fun kk _ => ?_
  refine congrArg f (Fin.ext ?_)
  simp only [finProdFinEquiv_apply_val]
  rw [Nat.mul_comm, Nat.add_comm]

end Cert.Stages

end
-- ==== Proof.KI.Val0.lean ====
import proofs.«167880_j27642409517588_1_alg».proof.Proof.KI.Body0
import proofs.«167880_j27642409517588_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

/-! # Region 0's value over the extended reals: the first encoder layer, whole

The region cuts a 4096 × 4096 matrix product into 4 × 4 result tiles of 1024 × 1024 and walks each tile's contracted
axis in four steps of 1024. Point `t` of the grid has coordinates (t / 16, t / 4 % 4, t % 4): tile row, tile column,
step. Within a tile the scratch block starts from zero at step 0 and gains, at every step, the product of that step's
two blocks; after step 3 an entry of it is the sum of four stretches of 1024 products, which is the one sum over all
4096 contraction indices. The last step adds the bias row and takes the maximum with zero, and that is the block the
point writes back. The sixteen last-step blocks tile the result array, so the array ends at `max (X·W + b) 0`,
entry by entry. Only the laws of a commutative monoid are used of `+`; nothing is asked to be finite. -/

/-! ## The payloads, read at an entry -/

/-- The reset value is zero everywhere. -/
theorem pay0_zero (p q : Fin 1024) : k0_pay1 (F := Ideal) (ix2 p q) = 0 := by
  unfold k0_pay1
  simp only [shapeCast_self]
  exact Ideal.ofBits_zero_f32

/-- The product's operand indices at result index `i` and contraction index `k`: (row of `i`, `k`) on the left,
    (`k`, column of `i`) on the right — one lemma per axis. -/
theorem pay0_lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem pay0_lhs_contr (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem pay0_rhs_contr (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem pay0_rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One step's product added to what the scratch held: at an entry, the entry plus the row-by-column sum over the block. -/
theorem pay0_step (x0 x1 a : Vec Ideal S1024x1024 .f32) (p q : Fin 1024) :
    k0_pay2 x0 x1 a (ix2 p q) = a (ix2 p q) + ∑ k : Fin 1024, x0 (ix2 p k) * x1 (ix2 k q) := by
  unfold k0_pay2
  simp only [shapeCast_self]
  refine (addf_apply _ _ _).trans ?_
  refine congrArg (a (ix2 p q) + ·) ?_
  refine (Ideal.matmul_constant_zero_apply dot_S1024x1024_S1024x1024_S1024x1024_1_0_0_1_n_n none _ _ _).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact pay0_lhs_row _ _
    | ⟨1, _⟩ => exact (pay0_lhs_contr _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (pay0_rhs_contr _ _).trans hk
    | ⟨1, _⟩ => exact pay0_rhs_col _ _)
  rw [el, er]
  rfl

/-! ## The epilogue's payload, read at an entry -/

/-- The last step's stored value: the accumulated entry plus the bias row's entry of its column, then the maximum with the zero word. -/
theorem pay0_epilogue (a : Vec Ideal S1024x1024 .f32) (b : Vec Ideal S1x1024 .f32) (p q : Fin 1024) :
    k0_pay3 a b (ix2 p q) = max (a (ix2 p q) + b (ix2 0 q)) (Ideal.ofBits .f32 0x00000000#32) := by
  unfold k0_pay3
  simp only [shapeCast_self]
  refine (maximumf_apply _ _ _).trans ?_
  refine congrArg₂ max ?_ rfl
  refine (addf_apply _ _ _).trans ?_
  refine congrArg (a (ix2 p q) + ·) ?_
  exact broadcastTo_apply b broadcasts_S1x1024_S1024x1024 (ix2 p q) (ix2 0 q) (fun a => by
    match a with
    | ⟨0, _⟩ => rfl
    | ⟨1, _⟩ => rfl)

/-! ## The blocks, read from the arrays -/

section Region
variable (V : (c : Dev nD) → (b : Ref sig .tc) → Buf (Elt Ideal) ((c : Thread nD τ).loc b))

/-- The launch's three input arrays and its blocks at a point, at their literal types. -/
abbrev xarr0 (c : Dev nD) : Vec Ideal S4096x4096 .f32 := V c main_arg0
abbrev warr0 (c : Dev nD) : Vec Ideal S4096x4096 .f32 := V c main_arg1
abbrev barr0 (c : Dev nD) : Vec Ideal S1x4096 .f32 := V c main_v0
abbrev xblk0 (c : Dev nD) (t : Fin cfg0.N) : Vec Ideal S1024x1024 .f32 := iblk0 (F := Ideal) V c 0 t
abbrev wblk0 (c : Dev nD) (t : Fin cfg0.N) : Vec Ideal S1024x1024 .f32 := iblk0 (F := Ideal) V c 1 t
abbrev bblk0 (c : Dev nD) (t : Fin cfg0.N) : Vec Ideal S1x1024 .f32 := iblk0 (F := Ideal) V c 2 t

/-- The block indices of the four windows at a point: the point's coordinates are (t / 16, (t / 4) % 4, t % 4). -/
theorem idx0 : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- An entry of the first window's block at a point is the first array's entry at (tile row · 1024 + row, step · 1024 + column). -/
theorem blkread0_0 (c : Dev nD) (t : Fin cfg0.N) (p k : Fin 1024) (r s : Fin 4096)
    (hr : r.val = t.val / 16 * 1024 + p.val) (hs : s.val = t.val % 4 * 1024 + k.val) :
    xblk0 V c t (ix2 p k) = xarr0 V c (ix2 r s) := by
  unfold xblk0 iblk0
  rw [View.read_apply]
  show V c main_arg0 (((cfg0.win 0).blk t).view.emb (ix2 p k)) = V c main_arg0 (ix2 r s)
  refine congrArg (V c main_arg0) ?_
  funext a; apply Fin.ext
  match a with
  | ⟨0, _⟩ => show win0_0.index t (0 : Fin 2) * 1024 + 1 * p.val = r.val; rw [(idx0 t).1, hr]; omega
  | ⟨1, _⟩ => show win0_0.index t (1 : Fin 2) * 1024 + 1 * k.val = s.val; rw [(idx0 t).2.1, hs]; omega

/-- An entry of the second window's block is the second array's entry at (step · 1024 + row, tile column · 1024 + column). -/
theorem blkread0_1 (c : Dev nD) (t : Fin cfg0.N) (k q : Fin 1024) (r s : Fin 4096)
    (hr : r.val = t.val % 4 * 1024 + k.val) (hs : s.val = t.val / 4 % 4 * 1024 + q.val) :
    wblk0 V c t (ix2 k q) = warr0 V c (ix2 r s) := by
  unfold wblk0 iblk0
  rw [View.read_apply]
  show V c main_arg1 (((cfg0.win 1).blk t).view.emb (ix2 k q)) = V c main_arg1 (ix2 r s)
  refine congrArg (V c main_arg1) ?_
  funext a; apply Fin.ext
  match a with
  | ⟨0, _⟩ => show win0_1.index t (0 : Fin 2) * 1024 + 1 * k.val = r.val; rw [(idx0 t).2.2.1, hr]; omega
  | ⟨1, _⟩ => show win0_1.index t (1 : Fin 2) * 1024 + 1 * q.val = s.val; rw [(idx0 t).2.2.2.1, hs]; omega

/-- An entry of the bias window's block is the bias row's entry at tile column · 1024 + column. -/
theorem blkread0_2 (c : Dev nD) (t : Fin cfg0.N) (q : Fin 1024) (s : Fin 4096)
    (hs : s.val = t.val / 4 % 4 * 1024 + q.val) :
    bblk0 V c t (ix2 0 q) = barr0 V c (ix2 0 s) := by
  unfold bblk0 iblk0
  rw [View.read_apply]
  show V c main_v0 (((cfg0.win 2).blk t).view.emb (ix2 0 q)) = V c main_v0 (ix2 0 s)
  refine congrArg (V c main_v0) ?_
  funext a; apply Fin.ext
  match a with
  | ⟨0, _⟩ => show win0_2.index t (0 : Fin 2) * 1 + 1 * 0 = 0; rw [(idx0 t).2.2.2.2.1]
  | ⟨1, _⟩ => show win0_2.index t (1 : Fin 2) * 1024 + 1 * q.val = s.val; rw [(idx0 t).2.2.2.2.2.1, hs]; omega

end Region

/-! ## The scratch along one tile's four steps -/

section Region
variable (V : (c : Dev nD) → (b : Ref sig .tc) → Buf (Elt Ideal) ((c : Thread nD τ).loc b))

/-- One point's contribution to an entry of its tile: the row of its first block times the column of its second. -/
def term0 (c : Dev nD) (n : ℕ) (hn : n < cfg0.N) (p q : Fin 1024) : EReal :=
  ∑ k : Fin 1024, xblk0 V c ⟨n, hn⟩ (ix2 p k) * wblk0 V c ⟨n, hn⟩ (ix2 k q)

/-- At a reset point the scratch ends at zero plus the point's contribution; -/
theorem acc0_at_reset (c : Dev nD) (n : ℕ) (hn : n < cfg0.N) (h : n % 4 = 0) (p q : Fin 1024) :
    acc0 (F := Ideal) V c n hn (ix2 p q) = 0 + term0 V c n hn p q :=
  (congrFun (acc0_reset (F := Ideal) V c ⟨n, hn⟩ h) (ix2 p q)).trans
    ((pay0_step (xblk0 V c ⟨n, hn⟩) (wblk0 V c ⟨n, hn⟩) (k0_pay1 (F := Ideal)) p q).trans
      (congrArg (· + term0 V c n hn p q) (pay0_zero p q)))

/-- at any other point at what the point before left plus the point's contribution. -/
theorem acc0_at_step (c : Dev nD) (n : ℕ) (hn : n < cfg0.N) (h : ¬n % 4 = 0) (p q : Fin 1024) :
    acc0 (F := Ideal) V c n hn (ix2 p q)
      = acc0 (F := Ideal) V c (n - 1) (Nat.lt_of_le_of_lt (Nat.sub_le _ _) hn) (ix2 p q) + term0 V c n hn p q :=
  (congrFun (acc0_step (F := Ideal) V c ⟨n, hn⟩ h) (ix2 p q)).trans
    (pay0_step (xblk0 V c ⟨n, hn⟩) (wblk0 V c ⟨n, hn⟩) (acc0 (F := Ideal) V c (n - 1) (Nat.lt_of_le_of_lt (Nat.sub_le _ _) hn)) p q)

/-- A point's contribution, read from the two arrays: the products over the 1024 contraction indices of its k-block. -/
theorem term0_eq (c : Dev nD) (n : ℕ) (hn : n < cfg0.N) (p q : Fin 1024) (r s : Fin 4096) (kb : Fin 4)
    (hr : r.val = n / 16 * 1024 + p.val) (hs : s.val = n / 4 % 4 * 1024 + q.val) (hk : n % 4 = kb.val) :
    term0 V c n hn p q = ∑ kk : Fin 1024, xarr0 V c (ix2 r ⟨kb.val * 1024 + kk.val, by omega⟩) * warr0 V c (ix2 ⟨kb.val * 1024 + kk.val, by omega⟩ s) := by
  unfold term0
  refine Finset.sum_congr rfl fun kk _ => ?_
  rw [blkread0_0 V c ⟨n, hn⟩ p kk r ⟨kb.val * 1024 + kk.val, by omega⟩ hr (by show kb.val * 1024 + kk.val = n % 4 * 1024 + kk.val; rw [hk]),
    blkread0_1 V c ⟨n, hn⟩ kk q ⟨kb.val * 1024 + kk.val, by omega⟩ s (by show kb.val * 1024 + kk.val = n % 4 * 1024 + kk.val; rw [hk]) hs]

/-- After a tile's last point the scratch holds the whole contraction: the four k-blocks' sums are the one sum over 4096. -/
theorem acc0_last (c : Dev nD) (t : Fin cfg0.N) (h3 : t.val % 4 = 3) (p q : Fin 1024) (r s : Fin 4096)
    (hr : r.val = t.val / 16 * 1024 + p.val) (hs : s.val = t.val / 4 % 4 * 1024 + q.val) :
    acc0 (F := Ideal) V c t.val t.isLt (ix2 p q) = ∑ k : Fin 4096, xarr0 V c (ix2 r k) * warr0 V c (ix2 k s) := by
  have hN : t.val < 64 := lt_of_lt_of_eq t.isLt N_0
  have hN' : cfg0.N = 64 := N_0
  rw [acc0_at_step V c t.val t.isLt (by omega) p q,
    acc0_at_step V c (t.val - 1) (by omega) (by omega) p q,
    acc0_at_step V c (t.val - 1 - 1) (by omega) (by omega) p q,
    acc0_at_reset V c (t.val - 1 - 1 - 1) (by omega) (by omega) p q,
    term0_eq V c t.val t.isLt p q r s 3 hr hs (by omega),
    term0_eq V c (t.val - 1) (by omega) p q r s 2 (by omega) (by omega) (by omega),
    term0_eq V c (t.val - 1 - 1) (by omega) p q r s 1 (by omega) (by omega) (by omega),
    term0_eq V c (t.val - 1 - 1 - 1) (by omega) p q r s 0 (by omega) (by omega) (by omega),
    zero_add]
  refine Eq.trans ?_ (Cert.Stages.sum_blocks 4 1024 (fun k => xarr0 V c (ix2 r k) * warr0 V c (ix2 k s))).symm
  rw [Fin.sum_univ_four]

end Region

/-! ## From the last-step blocks to the array -/

section Region
variable (V : (c : Dev nD) → (b : Ref sig .tc) → Buf (Elt Ideal) ((c : Thread nD τ).loc b))

/-- What the launch leaves in its result array, as one function of its three input arrays. -/
abbrev res0 (c : Dev nD) : Vec Ideal S4096x4096 .f32 :=
  Cert.Stages.arr2 (Cert.Stages.enc1 (V c main_arg0) (V c main_arg1) (V c main_v0))

/-- What a last-step point writes back is its block of that function. -/
theorem flushed0_eq (c : Dev nD) (t : Fin cfg0.N) (hf : (cfg0.win 3).flush t = true) :
    (dat0 (F := Ideal) V c).flushed 3 t = ((cfg0.win 3).blk t).view.read (Elt Ideal) (res0 V c) := by
  have h3 : t.val % 4 = 3 := (flush0_3 t).mp hf
  have hN : t.val < 64 := lt_of_lt_of_eq t.isLt N_0
  show (cfg0.win 3).cut (grid0.coords t) ((dat0 (F := Ideal) V c).after 3 t) = _
  rw [after0_3]
  funext j
  obtain ⟨p, q, rfl⟩ : ∃ (p : Fin 1024) (q : Fin 1024), j = ix2 p q := ⟨j 0, j 1, eq_ix2 j⟩
  rw [View.read_apply]
  have he : ((cfg0.win 3).blk t).view.emb (ix2 p q)
      = ix2 (⟨t.val / 16 * 1024 + p.val, by omega⟩ : Fin 4096) (⟨t.val / 4 % 4 * 1024 + q.val, by omega⟩ : Fin 4096) := by
    funext a; apply Fin.ext
    match a with
    | ⟨0, _⟩ => show win0_3.index t (0 : Fin 2) * 1024 + 1 * p.val = t.val / 16 * 1024 + p.val; rw [(idx0 t).2.2.2.2.2.2.1]; omega
    | ⟨1, _⟩ => show win0_3.index t (1 : Fin 2) * 1024 + 1 * q.val = t.val / 4 % 4 * 1024 + q.val; rw [(idx0 t).2.2.2.2.2.2.2]; omega
  rw [he]
  show out0 (F := Ideal) V c t (ix2 p q) = Cert.Stages.enc1 (V c main_arg0) (V c main_arg1) (V c main_v0) _ _
  unfold out0 Cert.Stages.enc1
  refine (pay0_epilogue (acc0 (F := Ideal) V c t.val t.isLt) (bblk0 V c t) p q).trans ?_
  refine congrArg₂ max (congrArg₂ (· + ·) ?_ ?_) rfl
  · exact acc0_last V c t h3 p q _ _ rfl rfl
  · exact blkread0_2 V c t q _ rfl

/-- An index of the result array is in point `t`'s block iff each coordinate is in the block's range on its axis. -/
theorem mem_blk0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result array is in the block of its tile's last point. -/
theorem cover0 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  refine ⟨⟨(i 0).val / 1024 * 16 + (i 1).val / 1024 * 4 + 3, by omega⟩, (flush0_3 _).mpr (by show ((i 0).val / 1024 * 16 + (i 1).val / 1024 * 4 + 3) % 4 = 3; omega), ?_⟩
  rw [mem_blk0]
  intro a
  match a with
  | ⟨0, _⟩ =>
    show win0_3.index _ (0 : Fin 2) * 1024 ≤ (i 0).val ∧ (i 0).val < win0_3.index _ (0 : Fin 2) * 1024 + 1024
    rw [(idx0 _).2.2.2.2.2.2.1]
    show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_3.index _ (1 : Fin 2) * 1024 ≤ (i 1).val ∧ (i 1).val < win0_3.index _ (1 : Fin 2) * 1024 + 1024
    rw [(idx0 _).2.2.2.2.2.2.2]
    show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The launch's result array after its last point: the first encoder layer of the three input arrays. -/
theorem final0 (c : Dev nD) :
    (dat0 (F := Ideal) V c).arrAt 3 cfg0.N = Cert.Stages.arr2 (Cert.Stages.enc1 (V c main_arg0) (V c main_arg1) (V c main_v0)) :=
  (dat0 (F := Ideal) V c).arrAt_eq_of_cover 3 (res0 V c) (fun t hf => flushed0_eq V c t hf) cover0

end Region

end Cert.KernelIdeal.Hand

end
-- ==== Proof.KI.Val1.lean ====
import proofs.«167880_j27642409517588_1_alg».proof.Proof.KI.Body1
import proofs.«167880_j27642409517588_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

/-! # Launch 1's value: the second encoder layer with the reparameterisation

The scratch block of a row block accumulates, over the four steps of the contracted axis, the products of the
step's 512×1024 block of the first layer's result with the step's 1024×1024 block of the weights; the last step adds
the bias row, splits the 1024 columns into the mean (left half) and the log-variance (right half), and forms the
sample `mean + exp (½ · log-variance) · noise`. Read element by element, the three result arrays are the stage
functions `Cert.Stages.mu`, `logvar`, `sample` of the launch's four input arrays. -/

/-! ## The payloads at an entry -/

/-- The reset value is zero everywhere. -/
theorem pay1_zero (p : Fin 512) (q : Fin 1024) : k1_pay1 (F := Ideal) (ix2 p q) = 0 := by
  unfold k1_pay1
  simp only [shapeCast_self]
  exact Ideal.ofBits_zero_f32

theorem pay1_lhs0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem pay1_lhs1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
theorem pay1_rhs0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
theorem pay1_rhs1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- One step's product added to what the scratch held: at an entry, the entry plus the row-by-column sum over the step's block. -/
theorem pay1_step (x0 : Vec Ideal S512x1024 .f32) (x1 : Vec Ideal S1024x1024 .f32) (a : Vec Ideal S512x1024 .f32) (p : Fin 512) (q : Fin 1024) :
    k1_pay2 x0 x1 a (ix2 p q) = a (ix2 p q) + ∑ k : Fin 1024, x0 (ix2 p k) * x1 (ix2 k q) := by
  unfold k1_pay2
  simp only [shapeCast_self]
  refine (addf_apply _ _ _).trans ?_
  refine congrArg (a (ix2 p q) + ·) ?_
  refine (Ideal.matmul_constant_zero_apply _ none _ _ _).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact pay1_lhs0 _ _
    | ⟨1, _⟩ => exact (pay1_lhs1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (pay1_rhs0 _ _).trans hk
    | ⟨1, _⟩ => exact pay1_rhs1 _ _)
  rw [el, er]
  rfl

/-- The bias row added to the accumulated block. -/
theorem pay1_bias (a : Vec Ideal S512x1024 .f32) (b : Vec Ideal S1x1024 .f32) (p : Fin 512) (q : Fin 1024) :
    k1_pay3 a b (ix2 p q) = a (ix2 p q) + b (ix2 0 q) := by
  unfold k1_pay3
  simp only [shapeCast_self]
  refine (addf_apply _ _ _).trans ?_
  refine congrArg (a (ix2 p q) + ·) ?_
  exact broadcastTo_apply b _ (ix2 p q) (ix2 0 q) (fun a => match a with
    | ⟨0, _⟩ => by show (0 : ℕ) = if (1 : Nat) = 1 then 0 else p.val; rw [if_pos rfl]
    | ⟨1, _⟩ => by show q.val = if (1024 : Nat) = 1 then 0 else q.val; rw [if_neg (by decide)])

/-- The mean's block: the left 512 columns. -/
theorem pay1_mu (a : Vec Ideal S512x1024 .f32) (b : Vec Ideal S1x1024 .f32) (p q : Fin 512) :
    k1_pay4 a b (ix2 p q) = a (ix2 p ⟨q.val, by omega⟩) + b (ix2 0 ⟨q.val, by omega⟩) := by
  unfold k1_pay4
  refine (extractStridedSlice_apply _ _ _ (ix2 p q) (ix2 p (⟨q.val, by omega⟩ : Fin 1024)) (fun a => match a with
    | ⟨0, _⟩ => by show p.val = 0 + p.val; omega
    | ⟨1, _⟩ => by show q.val = 0 + q.val; omega)).trans ?_
  exact pay1_bias a b p _

/-- The log-variance's block: the right 512 columns. -/
theorem pay1_lv (a : Vec Ideal S512x1024 .f32) (b : Vec Ideal S1x1024 .f32) (p q : Fin 512) :
    k1_pay5 a b (ix2 p q) = a (ix2 p ⟨q.val + 512, by omega⟩) + b (ix2 0 ⟨q.val + 512, by omega⟩) := by
  unfold k1_pay5
  refine (extractStridedSlice_apply _ _ _ (ix2 p q) (ix2 p (⟨q.val + 512, by omega⟩ : Fin 1024)) (fun a => match a with
    | ⟨0, _⟩ => by show p.val = 0 + p.val; omega
    | ⟨1, _⟩ => by show q.val + 512 = 512 + q.val; omega)).trans ?_
  exact pay1_bias a b p _

/-- The sample's block: the mean plus the exponential of half the log-variance times the noise. -/
theorem pay1_zs (a : Vec Ideal S512x1024 .f32) (b : Vec Ideal S1x1024 .f32) (e : Vec Ideal S512x512 .f32) (p q : Fin 512) :
    k1_pay6 a b e (ix2 p q) = k1_pay4 a b (ix2 p q) + Ideal.exp (Ideal.ofBits .f32 0x3F000000#32 * k1_pay5 a b (ix2 p q)) * e (ix2 p q) := by
  unfold k1_pay6
  rfl

/-! ## The blocks of the four inputs, read in the arrays -/

/-- The printed index maps over the grid: at point `t` the row block is `t / 4` and the contraction step `t % 4`. -/
theorem idx1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The output windows' index maps: row block `t / 4`, the one column block. -/
theorem idx1_out : ∀ t : Fin cfg1.N,
    win1_4.index t (0 : Fin 2) = t.val / 4 ∧ win1_4.index t (1 : Fin 2) = 0
    ∧ win1_5.index t (0 : Fin 2) = t.val / 4 ∧ win1_5.index t (1 : Fin 2) = 0
    ∧ win1_6.index t (0 : Fin 2) = t.val / 4 ∧ win1_6.index t (1 : Fin 2) = 0 :=
  (by decide +kernel : ∀ t : Fin grid1.N, _)

section Blocks
variable (V : (c : Dev nD) → (b : Ref sig .tc) → Buf (Elt Ideal) ((c : Thread nD τ).loc b))

/-- The first layer's result: rows `512 (t / 4) …`, columns `1024 (t % 4) …`. -/
theorem blk1_h (c : Dev nD) (t : Fin cfg1.N) (x : S512x1024.Idx) (j : S4096x4096.Idx)
    (h0 : (j 0).val = 512 * (t.val / 4) + (x 0).val) (h1 : (j 1).val = 1024 * (t.val % 4) + (x 1).val) :
    (iblk1 V c 0 t : Vec Ideal S512x1024 .f32) x = (V c main_v1 : S4096x4096.Idx → EReal) j := by
  obtain ⟨e0, e1, -⟩ := idx1_facts t
  unfold iblk1
  rw [View.read_apply]
  show V c main_v1 _ = V c main_v1 _
  congr 1
  funext a
  apply Fin.ext
  match a with
  | ⟨0, _⟩ => show win1_0.index t 0 * 512 + 1 * (x 0).val = (j 0).val; rw [e0, h0]; omega
  | ⟨1, _⟩ => show win1_0.index t 1 * 1024 + 1 * (x 1).val = (j 1).val; rw [e1, h1]; omega

/-- The weights: rows `1024 (t % 4) …`, all 1024 columns. -/
theorem blk1_w (c : Dev nD) (t : Fin cfg1.N) (x : S1024x1024.Idx) (j : S4096x1024.Idx)
    (h0 : (j 0).val = 1024 * (t.val % 4) + (x 0).val) (h1 : (j 1).val = (x 1).val) :
    (iblk1 V c 1 t : Vec Ideal S1024x1024 .f32) x = (V c main_arg3 : S4096x1024.Idx → EReal) j := by
  obtain ⟨-, -, e0, e1, -⟩ := idx1_facts t
  unfold iblk1
  rw [View.read_apply]
  show V c main_arg3 _ = V c main_arg3 _
  congr 1
  funext a
  apply Fin.ext
  match a with
  | ⟨0, _⟩ => show win1_1.index t 0 * 1024 + 1 * (x 0).val = (j 0).val; rw [e0, h0]; omega
  | ⟨1, _⟩ => show win1_1.index t 1 * 1024 + 1 * (x 1).val = (j 1).val; rw [e1, h1]; omega

/-- The bias row: the whole array. -/
theorem blk1_b (c : Dev nD) (t : Fin cfg1.N) (x : S1x1024.Idx) (j : S1x1024.Idx)
    (h0 : (j 0).val = (x 0).val) (h1 : (j 1).val = (x 1).val) :
    (iblk1 V c 2 t : Vec Ideal S1x1024 .f32) x = (V c main_v2 : S1x1024.Idx → EReal) j := by
  obtain ⟨-, -, -, -, e0, e1, -⟩ := idx1_facts t
  unfold iblk1
  rw [View.read_apply]
  show V c main_v2 _ = V c main_v2 _
  congr 1
  funext a
  apply Fin.ext
  match a with
  | ⟨0, _⟩ => show win1_2.index t 0 * 1 + 1 * (x 0).val = (j 0).val; rw [e0, h0]; omega
  | ⟨1, _⟩ => show win1_2.index t 1 * 1024 + 1 * (x 1).val = (j 1).val; rw [e1, h1]; omega

/-- The noise: rows `512 (t / 4) …`, all 512 columns. -/
theorem blk1_e (c : Dev nD) (t : Fin cfg1.N) (x : S512x512.Idx) (j : S4096x512.Idx)
    (h0 : (j 0).val = 512 * (t.val / 4) + (x 0).val) (h1 : (j 1).val = (x 1).val) :
    (iblk1 V c 3 t : Vec Ideal S512x512 .f32) x = (V c main_arg9 : S4096x512.Idx → EReal) j := by
  obtain ⟨-, -, -, -, -, -, e0, e1⟩ := idx1_facts t
  unfold iblk1
  rw [View.read_apply]
  show V c main_arg9 _ = V c main_arg9 _
  congr 1
  funext a
  apply Fin.ext
  match a with
  | ⟨0, _⟩ => show win1_3.index t 0 * 512 + 1 * (x 0).val = (j 0).val; rw [e0, h0]; omega
  | ⟨1, _⟩ => show win1_3.index t 1 * 512 + 1 * (x 1).val = (j 1).val; rw [e1, h1]; omega

end Blocks

/-! ## The scratch along the four steps of a row block -/

section Acc
variable (V : (c : Dev nD) → (b : Ref sig .tc) → Buf (Elt Ideal) ((c : Thread nD τ).loc b))

/-- The launch's four input arrays on core `c`, as functions on their index sets: the first layer's result, the
    weights, the bias row, the noise. -/
abbrev inH (c : Dev nD) : (Cert.Stages.Sh 4096 4096).Idx → EReal := V c main_v1
abbrev inW (c : Dev nD) : (Cert.Stages.Sh 4096 1024).Idx → EReal := V c main_arg3
abbrev inB (c : Dev nD) : (Cert.Stages.Sh 1 1024).Idx → EReal := V c main_v2
abbrev inE (c : Dev nD) : (Cert.Stages.Sh 4096 512).Idx → EReal := V c main_arg9

/-- Row `p` of row block `i`, in the whole array. -/
abbrev rowOf (i : Fin 8) (p : Fin 512) : Fin 4096 := ⟨512 * i.val + p.val, by omega⟩

/-- Step `j`'s stretch of the contraction: the products over columns `1024 j … 1024 j + 1023` of row `rowOf i p`. -/
def stepSum (c : Dev nD) (i : Fin 8) (p : Fin 512) (q : Fin 1024) (j : Fin 4) : EReal :=
  ∑ kk : Fin 1024, inH V c (ix2 (rowOf i p) (⟨j.val * 1024 + kk.val, by omega⟩ : Fin 4096))
    * inW V c (ix2 (⟨j.val * 1024 + kk.val, by omega⟩ : Fin 4096) q)

/-- The products a point adds are its stretch's: the two blocks read in the arrays. -/
theorem step1_sum (c : Dev nD) (t : Fin cfg1.N) (i : Fin 8) (j : Fin 4) (ht : t.val = 4 * i.val + j.val) (p : Fin 512) (q : Fin 1024)
    (x0 : Vec Ideal S512x1024 .f32) (x1 : Vec Ideal S1024x1024 .f32) (hx0 : x0 = iblk1 V c 0 t) (hx1 : x1 = iblk1 V c 1 t) :
    ∑ kk : Fin 1024, x0 (ix2 p kk) * x1 (ix2 kk q) = stepSum V c i p q j := by
  subst hx0 hx1
  unfold stepSum
  refine Finset.sum_congr rfl fun kk _ => ?_
  exact congrArg₂ (· * ·)
    (blk1_h V c t (ix2 p kk) (ix2 (rowOf i p) (⟨j.val * 1024 + kk.val, by omega⟩ : Fin 4096))
      (by show 512 * i.val + p.val = 512 * (t.val / 4) + p.val; omega)
      (by show j.val * 1024 + kk.val = 1024 * (t.val % 4) + kk.val; omega))
    (blk1_w V c t (ix2 kk q) (ix2 (⟨j.val * 1024 + kk.val, by omega⟩ : Fin 4096) q)
      (by show j.val * 1024 + kk.val = 1024 * (t.val % 4) + kk.val; omega)
      (by show q.val = q.val; rfl))

/-- At the first step of a row block the scratch is the first stretch's sum. -/
theorem acc1_first (c : Dev nD) (i : Fin 8) (n : ℕ) (hn : n < cfg1.N) (e : n = 4 * i.val) (p : Fin 512) (q : Fin 1024) :
    acc1 V c n hn (ix2 p q) = stepSum V c i p q 0 := by
  refine (congrFun (acc1_reset V c ⟨n, hn⟩ (by show n % 4 = 0; omega)) (ix2 p q)).trans ?_
  refine (pay1_step (iblk1 V c 0 ⟨n, hn⟩) (iblk1 V c 1 ⟨n, hn⟩) (k1_pay1 (F := Ideal)) p q).trans ?_
  refine (congrArg (· + _) (pay1_zero p q)).trans ((zero_add _).trans ?_)
  exact step1_sum V c ⟨n, hn⟩ i 0 (by show n = 4 * i.val + 0; omega) p q _ _ rfl rfl

/-- A later step adds its stretch's sum to what the step before left. -/
theorem acc1_next (c : Dev nD) (i : Fin 8) (j : Fin 4) (n : ℕ) (hn : n + 1 < cfg1.N) (e : n + 1 = 4 * i.val + j.val) (hj : j.val ≠ 0)
    (p : Fin 512) (q : Fin 1024) :
    acc1 V c (n + 1) hn (ix2 p q) = acc1 V c n (Nat.lt_of_succ_lt hn) (ix2 p q) + stepSum V c i p q j := by
  refine (congrFun (acc1_step V c ⟨n + 1, hn⟩ (by show ¬(n + 1) % 4 = 0; omega)) (ix2 p q)).trans ?_
  refine (pay1_step (iblk1 V c 0 ⟨n + 1, hn⟩) (iblk1 V c 1 ⟨n + 1, hn⟩) (acc1 V c n (Nat.lt_of_succ_lt hn)) p q).trans ?_
  exact congrArg (acc1 V c n (Nat.lt_of_succ_lt hn) (ix2 p q) + ·) (step1_sum V c ⟨n + 1, hn⟩ i j e p q _ _ rfl rfl)

/-- After the last step the scratch holds the whole contraction: the four stretches' sums are the sum over all 4096 columns. -/
theorem acc1_row (c : Dev nD) (i : Fin 8) (n : ℕ) (hn : n < cfg1.N) (e : n = 4 * i.val + 3) (p : Fin 512) (q : Fin 1024) :
    acc1 V c n hn (ix2 p q) = ∑ k : Fin 4096, inH V c (ix2 (rowOf i p) k) * inW V c (ix2 k q) := by
  subst e
  have hN : cfg1.N = 32 := N_1
  have a0 := acc1_first V c i (4 * i.val) (by omega) rfl p q
  have a1 := (acc1_next V c i 1 (4 * i.val) (by omega) rfl (by decide) p q).trans (congrArg (· + stepSum V c i p q 1) a0)
  have a2 := (acc1_next V c i 2 (4 * i.val + 1) (by omega) rfl (by decide) p q).trans (congrArg (· + stepSum V c i p q 2) a1)
  have a3 := (acc1_next V c i 3 (4 * i.val + 2) hn rfl (by decide) p q).trans (congrArg (· + stepSum V c i p q 3) a2)
  refine a3.trans (Eq.symm ?_)
  refine (Cert.Stages.sum_blocks 4 1024 (fun k : Fin 4096 => inH V c (ix2 (rowOf i p) k) * inW V c (ix2 k q))).trans ?_
  rw [Fin.sum_univ_four]
  unfold stepSum
  rfl

end Acc

/-! ## From the blocks to the arrays -/

section Final
variable (V : (c : Dev nD) → (b : Ref sig .tc) → Buf (Elt Ideal) ((c : Thread nD τ).loc b))

/-- A function of a row and a column of the result, at the array position of entry `(p, q)` of row block `i`. -/
theorem at_row {α : Type} (f : Fin 4096 → Fin 512 → α) (P : Fin 4096) (Q : Fin 512) (i : Fin 8) (p q : Fin 512)
    (hP : P.val = 512 * i.val + p.val) (hQ : Q.val = q.val) : f P Q = f (rowOf i p) q := by
  obtain rfl : P = rowOf i p := Fin.ext hP
  obtain rfl : Q = q := Fin.ext hQ
  rfl

/-- What a last-step point leaves in the mean's block: the whole contraction plus the bias, at a column of the left half. -/
theorem outMu1_apply (c : Dev nD) (t : Fin cfg1.N) (i : Fin 8) (ht : t.val = 4 * i.val + 3) (p q : Fin 512) :
    outMu1 V c t (ix2 p q) = Cert.Stages.mu (inH V c) (inW V c) (inB V c) (rowOf i p) q := by
  unfold outMu1 Cert.Stages.mu Cert.Stages.enc2
  refine (pay1_mu (acc1 V c t.val t.isLt) (iblk1 V c 2 t) p q).trans ?_
  exact congrArg₂ (· + ·) (acc1_row V c i t.val t.isLt ht p _) (blk1_b V c t (ix2 0 _) (ix2 0 _) rfl rfl)

/-- In the log-variance's block: the same at a column of the right half. -/
theorem outLv1_apply (c : Dev nD) (t : Fin cfg1.N) (i : Fin 8) (ht : t.val = 4 * i.val + 3) (p q : Fin 512) :
    outLv1 V c t (ix2 p q) = Cert.Stages.logvar (inH V c) (inW V c) (inB V c) (rowOf i p) q := by
  unfold outLv1 Cert.Stages.logvar Cert.Stages.enc2
  refine (pay1_lv (acc1 V c t.val t.isLt) (iblk1 V c 2 t) p q).trans ?_
  exact congrArg₂ (· + ·) (acc1_row V c i t.val t.isLt ht p _) (blk1_b V c t (ix2 0 _) (ix2 0 _) rfl rfl)

/-- In the sample's block: the mean plus the exponential of half the log-variance times the noise at the same entry. -/
theorem outZs1_apply (c : Dev nD) (t : Fin cfg1.N) (i : Fin 8) (ht : t.val = 4 * i.val + 3) (p q : Fin 512) :
    outZs1 V c t (ix2 p q) = Cert.Stages.sample (inH V c) (inW V c) (inB V c) (inE V c) (rowOf i p) q := by
  have hmu := outMu1_apply V c t i ht p q
  have hlv := outLv1_apply V c t i ht p q
  unfold outMu1 at hmu
  unfold outLv1 at hlv
  unfold outZs1 Cert.Stages.sample
  refine (pay1_zs (acc1 V c t.val t.isLt) (iblk1 V c 2 t) (iblk1 V c 3 t) p q).trans ?_
  exact congrArg₂ (· + ·) hmu (congrArg₂ (· * ·) (congrArg (fun z => Ideal.exp (Cert.Stages.halfW * z)) hlv)
    (blk1_e V c t (ix2 p q) (ix2 (rowOf i p) q) (by show 512 * i.val + p.val = 512 * (t.val / 4) + p.val; omega) rfl))

/-! ### Result 0: the sample -/

/-- What a last-step point writes back is its block of the sample's array. -/
theorem flushed1_zs (c : Dev nD) (t : Fin cfg1.N) (hf : (cfg1.win 4).flush t = true) :
    (dat1 V c).flushed 4 t = ((cfg1.win 4).blk t).view.read (Elt Ideal) (Cert.Stages.arr2 (Cert.Stages.sample (V c main_v1) (V c main_arg3) (V c main_v2) (V c main_arg9))) := by
  have h3 : t.val % 4 = 3 := (flush1_4 t).mp hf
  have hN : cfg1.N = 32 := N_1
  have ht := t.isLt
  obtain ⟨e0, e1, -⟩ := idx1_out t
  show (cfg1.win 4).cut (grid1.coords t) ((dat1 V c).after 4 t) = _
  rw [after1_4]
  funext y
  obtain ⟨p, q, rfl⟩ : ∃ (p : Fin 512) (q : Fin 512), y = ix2 p q := ⟨y 0, y 1, eq_ix2 y⟩
  rw [View.read_apply]
  show outZs1 V c t (ix2 p q) = Cert.Stages.sample (inH V c) (inW V c) (inB V c) (inE V c) ((((cfg1.win 4).blk t).view.emb (ix2 p q)) 0) ((((cfg1.win 4).blk t).view.emb (ix2 p q)) 1)
  refine (outZs1_apply V c t ⟨t.val / 4, by omega⟩ (by show t.val = 4 * (t.val / 4) + 3; omega) p q).trans (Eq.symm ?_)
  exact at_row (Cert.Stages.sample (inH V c) (inW V c) (inB V c) (inE V c)) _ _ ⟨t.val / 4, by omega⟩ p q
    (by show win1_4.index t 0 * 512 + 1 * p.val = 512 * (t.val / 4) + p.val; rw [e0]; omega)
    (by show win1_4.index t 1 * 512 + 1 * q.val = q.val; rw [e1]; omega)

/-- An entry of the array lies in a point's block when each coordinate lies in the block's range on its axis. -/
theorem mem_blk1_4 (t : Fin cfg1.N) (i : S4096x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v3_0).slice (win1_4.rect t)).set ↔ _
  rw [View.set_slice_whole, Rect.mem_set_unit]
  exact Iff.rfl

/-- Row `r` is written back by the last step of row block `r / 512`. -/
theorem cover1_4 (i : S4096x512.Idx) : ∃ t : Fin cfg1.N, (cfg1.win 4).flush t = true ∧ i ∈ ((cfg1.win 4).blk t).view.set := by
  have hN : cfg1.N = 32 := N_1
  have h0 : (i 0).val < 4096 := (i 0).isLt
  have h1 : (i 1).val < 512 := (i 1).isLt
  obtain ⟨t, ht⟩ : ∃ t : Fin cfg1.N, t.val = (i 0).val / 512 * 4 + 3 := ⟨⟨(i 0).val / 512 * 4 + 3, by omega⟩, rfl⟩
  obtain ⟨e0, e1, -⟩ := idx1_out t
  refine ⟨t, (flush1_4 t).mpr (by omega), ?_⟩
  rw [mem_blk1_4]
  intro a
  match a with
  | ⟨0, _⟩ => show win1_4.index t 0 * 512 ≤ (i 0).val ∧ (i 0).val < win1_4.index t 0 * 512 + 512; rw [e0]; omega
  | ⟨1, _⟩ => show win1_4.index t 1 * 512 ≤ (i 1).val ∧ (i 1).val < win1_4.index t 1 * 512 + 512; rw [e1]; omega

/-- After the launch the array holds the sample, whole. -/
theorem final1_zs (c : Dev nD) :
    (dat1 (F := Ideal) V c).arrAt 4 cfg1.N = Cert.Stages.arr2 (Cert.Stages.sample (V c main_v1) (V c main_arg3) (V c main_v2) (V c main_arg9)) :=
  (dat1 V c).arrAt_eq_of_cover 4 _ (flushed1_zs V c) cover1_4

/-! ### Result 1: the mean -/

/-- What a last-step point writes back is its block of the mean's array. -/
theorem flushed1_mu (c : Dev nD) (t : Fin cfg1.N) (hf : (cfg1.win 5).flush t = true) :
    (dat1 V c).flushed 5 t = ((cfg1.win 5).blk t).view.read (Elt Ideal) (Cert.Stages.arr2 (Cert.Stages.mu (V c main_v1) (V c main_arg3) (V c main_v2))) := by
  have h3 : t.val % 4 = 3 := (flush1_5 t).mp hf
  have hN : cfg1.N = 32 := N_1
  have ht := t.isLt
  obtain ⟨-, -, e0, e1, -⟩ := idx1_out t
  show (cfg1.win 5).cut (grid1.coords t) ((dat1 V c).after 5 t) = _
  rw [after1_5]
  funext y
  obtain ⟨p, q, rfl⟩ : ∃ (p : Fin 512) (q : Fin 512), y = ix2 p q := ⟨y 0, y 1, eq_ix2 y⟩
  rw [View.read_apply]
  show outMu1 V c t (ix2 p q) = Cert.Stages.mu (inH V c) (inW V c) (inB V c) ((((cfg1.win 5).blk t).view.emb (ix2 p q)) 0) ((((cfg1.win 5).blk t).view.emb (ix2 p q)) 1)
  refine (outMu1_apply V c t ⟨t.val / 4, by omega⟩ (by show t.val = 4 * (t.val / 4) + 3; omega) p q).trans (Eq.symm ?_)
  exact at_row (Cert.Stages.mu (inH V c) (inW V c) (inB V c)) _ _ ⟨t.val / 4, by omega⟩ p q
    (by show win1_5.index t 0 * 512 + 1 * p.val = 512 * (t.val / 4) + p.val; rw [e0]; omega)
    (by show win1_5.index t 1 * 512 + 1 * q.val = q.val; rw [e1]; omega)

/-- An entry of the array lies in a point's block when each coordinate lies in the block's range on its axis. -/
theorem mem_blk1_5 (t : Fin cfg1.N) (i : S4096x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v3_1).slice (win1_5.rect t)).set ↔ _
  rw [View.set_slice_whole, Rect.mem_set_unit]
  exact Iff.rfl

/-- Row `r` is written back by the last step of row block `r / 512`. -/
theorem cover1_5 (i : S4096x512.Idx) : ∃ t : Fin cfg1.N, (cfg1.win 5).flush t = true ∧ i ∈ ((cfg1.win 5).blk t).view.set := by
  have hN : cfg1.N = 32 := N_1
  have h0 : (i 0).val < 4096 := (i 0).isLt
  have h1 : (i 1).val < 512 := (i 1).isLt
  obtain ⟨t, ht⟩ : ∃ t : Fin cfg1.N, t.val = (i 0).val / 512 * 4 + 3 := ⟨⟨(i 0).val / 512 * 4 + 3, by omega⟩, rfl⟩
  obtain ⟨-, -, e0, e1, -⟩ := idx1_out t
  refine ⟨t, (flush1_5 t).mpr (by omega), ?_⟩
  rw [mem_blk1_5]
  intro a
  match a with
  | ⟨0, _⟩ => show win1_5.index t 0 * 512 ≤ (i 0).val ∧ (i 0).val < win1_5.index t 0 * 512 + 512; rw [e0]; omega
  | ⟨1, _⟩ => show win1_5.index t 1 * 512 ≤ (i 1).val ∧ (i 1).val < win1_5.index t 1 * 512 + 512; rw [e1]; omega

/-- After the launch the array holds the mean, whole. -/
theorem final1_mu (c : Dev nD) :
    (dat1 (F := Ideal) V c).arrAt 5 cfg1.N = Cert.Stages.arr2 (Cert.Stages.mu (V c main_v1) (V c main_arg3) (V c main_v2)) :=
  (dat1 V c).arrAt_eq_of_cover 5 _ (flushed1_mu V c) cover1_5

/-! ### Result 2: the log-variance -/

/-- What a last-step point writes back is its block of the log-variance's array. -/
theorem flushed1_lv (c : Dev nD) (t : Fin cfg1.N) (hf : (cfg1.win 6).flush t = true) :
    (dat1 V c).flushed 6 t = ((cfg1.win 6).blk t).view.read (Elt Ideal) (Cert.Stages.arr2 (Cert.Stages.logvar (V c main_v1) (V c main_arg3) (V c main_v2))) := by
  have h3 : t.val % 4 = 3 := (flush1_6 t).mp hf
  have hN : cfg1.N = 32 := N_1
  have ht := t.isLt
  obtain ⟨-, -, -, -, e0, e1⟩ := idx1_out t
  show (cfg1.win 6).cut (grid1.coords t) ((dat1 V c).after 6 t) = _
  rw [after1_6]
  funext y
  obtain ⟨p, q, rfl⟩ : ∃ (p : Fin 512) (q : Fin 512), y = ix2 p q := ⟨y 0, y 1, eq_ix2 y⟩
  rw [View.read_apply]
  show outLv1 V c t (ix2 p q) = Cert.Stages.logvar (inH V c) (inW V c) (inB V c) ((((cfg1.win 6).blk t).view.emb (ix2 p q)) 0) ((((cfg1.win 6).blk t).view.emb (ix2 p q)) 1)
  refine (outLv1_apply V c t ⟨t.val / 4, by omega⟩ (by show t.val = 4 * (t.val / 4) + 3; omega) p q).trans (Eq.symm ?_)
  exact at_row (Cert.Stages.logvar (inH V c) (inW V c) (inB V c)) _ _ ⟨t.val / 4, by omega⟩ p q
    (by show win1_6.index t 0 * 512 + 1 * p.val = 512 * (t.val / 4) + p.val; rw [e0]; omega)
    (by show win1_6.index t 1 * 512 + 1 * q.val = q.val; rw [e1]; omega)

/-- An entry of the array lies in a point's block when each coordinate lies in the block's range on its axis. -/
theorem mem_blk1_6 (t : Fin cfg1.N) (i : S4096x512.Idx) :
    i ∈ ((cfg1.win 6).blk t).view.set ↔ ∀ a : Fin 2, win1_6.index t a * S512x512.size a ≤ (i a).val ∧ (i a).val < win1_6.index t a * S512x512.size a + S512x512.size a := by
  show i ∈ ((View.whole main_v3_2).slice (win1_6.rect t)).set ↔ _
  rw [View.set_slice_whole, Rect.mem_set_unit]
  exact Iff.rfl

/-- Row `r` is written back by the last step of row block `r / 512`. -/
theorem cover1_6 (i : S4096x512.Idx) : ∃ t : Fin cfg1.N, (cfg1.win 6).flush t = true ∧ i ∈ ((cfg1.win 6).blk t).view.set := by
  have hN : cfg1.N = 32 := N_1
  have h0 : (i 0).val < 4096 := (i 0).isLt
  have h1 : (i 1).val < 512 := (i 1).isLt
  obtain ⟨t, ht⟩ : ∃ t : Fin cfg1.N, t.val = (i 0).val / 512 * 4 + 3 := ⟨⟨(i 0).val / 512 * 4 + 3, by omega⟩, rfl⟩
  obtain ⟨-, -, -, -, e0, e1⟩ := idx1_out t
  refine ⟨t, (flush1_6 t).mpr (by omega), ?_⟩
  rw [mem_blk1_6]
  intro a
  match a with
  | ⟨0, _⟩ => show win1_6.index t 0 * 512 ≤ (i 0).val ∧ (i 0).val < win1_6.index t 0 * 512 + 512; rw [e0]; omega
  | ⟨1, _⟩ => show win1_6.index t 1 * 512 ≤ (i 1).val ∧ (i 1).val < win1_6.index t 1 * 512 + 512; rw [e1]; omega

/-- After the launch the array holds the log-variance, whole. -/
theorem final1_lv (c : Dev nD) :
    (dat1 (F := Ideal) V c).arrAt 6 cfg1.N = Cert.Stages.arr2 (Cert.Stages.logvar (V c main_v1) (V c main_arg3) (V c main_v2)) :=
  (dat1 V c).arrAt_eq_of_cover 6 _ (flushed1_lv V c) cover1_6

end Final

end Cert.KernelIdeal.Hand

end
-- ==== Proof.KI.Val2.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Body2
import proofs.«167880_j27642409517588_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! # Region 2 over the extended reals: the first decoder layer's result array, whole

The grid is 4 × 4 × 1: point `t` owns row block `t / 4` and column block `t % 4` of the 4096 × 4096 result, and its single
step contracts all 512 columns of the left factor's row block against all 512 rows of the right factor's column block. So
the running sum a point stores is zero plus the whole contraction, the epilogue adds the bias row's entry of the column
and takes the maximum with zero, and the sixteen blocks tile the result: the array ends at `max (z·W + b) 0`, entry by
entry. -/

/-! ## The three stored values at an entry -/

/-- The reset value is zero everywhere. -/
theorem pay2_1_at (p q : Fin 1024) : (k2_pay1 (F := Ideal)) (ix2 p q) = 0 := by
  unfold k2_pay1
  simp only [shapeCast_self]
  exact Ideal.ofBits_zero_f32

theorem lhs2_ax0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs2_ax1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs2_ax0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs2_ax1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- One step's update of the running sum, at an entry: what was there plus the whole contraction over the step's 512 columns. -/
theorem pay2_2_at (x0 : Vec Ideal S1024x512 .f32) (x1 : Vec Ideal S512x1024 .f32) (a : Vec Ideal S1024x1024 .f32) (p q : Fin 1024) :
    k2_pay2 x0 x1 a (ix2 p q) = a (ix2 p q) + ∑ k : Fin 512, x0 (ix2 p k) * x1 (ix2 k q) := by
  unfold k2_pay2
  simp only [shapeCast_self]
  refine congrArg (a (ix2 p q) + ·) ?_
  refine (Ideal.matmul_constant_zero_apply dot_S1024x512_S512x1024_S1024x1024_1_0_0_1_n_n none _ _ (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs2_ax0 _ _
    | ⟨1, _⟩ => exact (lhs2_ax1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs2_ax0 _ _).trans hk
    | ⟨1, _⟩ => exact rhs2_ax1 _ _)
  rw [el, er]
  rfl

/-- The epilogue at an entry: the sum plus the bias row's entry of that column, through the maximum with the zero word. -/
theorem pay2_3_at (a : Vec Ideal S1024x1024 .f32) (b : Vec Ideal S1x1024 .f32) (p q : Fin 1024) :
    k2_pay3 a b (ix2 p q) = max (a (ix2 p q) + b (ix2 0 q)) (Ideal.ofBits .f32 0x00000000#32) := by
  unfold k2_pay3
  simp only [shapeCast_self]
  refine congrArg (fun z => max (a (ix2 p q) + z) (Ideal.ofBits .f32 0x00000000#32)) ?_
  refine broadcastTo_apply b broadcasts_S1x1024_S1024x1024 (ix2 p q) (ix2 0 q) fun d => ?_
  match d with
  | ⟨0, _⟩ => rfl
  | ⟨1, _⟩ => rfl

/-! ## The blocks of the three arguments at a point, read at an entry -/

section Value
variable (V : (c : Dev nD) → (b : Ref sig .tc) → Buf (Elt Ideal) ((c : Thread nD τ).loc b))

/-- The block indices of the four windows at point `t`: row block `t / 4`, column block `t % 4`. -/
theorem idx_facts2 : ∀ t : Fin cfg2.N,
    win2_0.index t (0 : Fin 2) = t.val / 4 ∧ win2_0.index t (1 : Fin 2) = 0
    ∧ win2_1.index t (0 : Fin 2) = 0 ∧ win2_1.index t (1 : Fin 2) = t.val % 4
    ∧ win2_2.index t (0 : Fin 2) = 0 ∧ win2_2.index t (1 : Fin 2) = t.val % 4
    ∧ win2_3.index t (0 : Fin 2) = t.val / 4 ∧ win2_3.index t (1 : Fin 2) = t.val % 4 :=
  (by decide +kernel : ∀ t : Fin grid2.N,
    win2_0.index t (0 : Fin 2) = t.val / 4 ∧ win2_0.index t (1 : Fin 2) = 0
    ∧ win2_1.index t (0 : Fin 2) = 0 ∧ win2_1.index t (1 : Fin 2) = t.val % 4
    ∧ win2_2.index t (0 : Fin 2) = 0 ∧ win2_2.index t (1 : Fin 2) = t.val % 4
    ∧ win2_3.index t (0 : Fin 2) = t.val / 4 ∧ win2_3.index t (1 : Fin 2) = t.val % 4)

/-- The left factor's block at point `t` is rows `1024 (t / 4) …` of the left factor, all 512 columns. -/
theorem blk2_0_at (c : Dev nD) (t : Fin cfg2.N) (x : S1024x512.Idx) (k : S4096x512.Idx)
    (hk0 : (k 0).val = t.val / 4 * 1024 + (x 0).val) (hk1 : (k 1).val = (x 1).val) :
    (iblk2 V c 0 t : Vec Ideal S1024x512 .f32) x = (V c main_v3_0 : S4096x512.Idx → EReal) k := by
  obtain ⟨e0, e1, -⟩ := idx_facts2 t
  unfold iblk2
  rw [View.read_apply]
  show V c main_v3_0 _ = V c main_v3_0 _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 512 + 1 * (x 1).val = (k 1).val; rw [e1, hk1]; omega

/-- The right factor's block at point `t` is columns `1024 (t % 4) …` of the right factor, all 512 rows. -/
theorem blk2_1_at (c : Dev nD) (t : Fin cfg2.N) (x : S512x1024.Idx) (k : S512x4096.Idx)
    (hk0 : (k 0).val = (x 0).val) (hk1 : (k 1).val = t.val % 4 * 1024 + (x 1).val) :
    (iblk2 V c 1 t : Vec Ideal S512x1024 .f32) x = (V c main_arg5 : S512x4096.Idx → EReal) k := by
  obtain ⟨-, -, e0, e1, -⟩ := idx_facts2 t
  unfold iblk2
  rw [View.read_apply]
  show V c main_arg5 _ = V c main_arg5 _
  congr 1
  funext a
  apply Fin.ext
  match a with
  | ⟨0, _⟩ => show win2_1.index t (0 : Fin 2) * 512 + 1 * (x 0).val = (k 0).val; rw [e0, hk0]; omega
  | ⟨1, _⟩ => show win2_1.index t (1 : Fin 2) * 1024 + 1 * (x 1).val = (k 1).val; rw [e1, hk1]; omega

/-- The bias row's block at point `t` is columns `1024 (t % 4) …` of the bias row. -/
theorem blk2_2_at (c : Dev nD) (t : Fin cfg2.N) (x : S1x1024.Idx) (k : S1x4096.Idx)
    (hk0 : (k 0).val = (x 0).val) (hk1 : (k 1).val = t.val % 4 * 1024 + (x 1).val) :
    (iblk2 V c 2 t : Vec Ideal S1x1024 .f32) x = (V c main_v4 : S1x4096.Idx → EReal) k := by
  obtain ⟨-, -, -, -, e0, e1, -⟩ := idx_facts2 t
  unfold iblk2
  rw [View.read_apply]
  show V c main_v4 _ = V c main_v4 _
  congr 1
  funext a
  apply Fin.ext
  match a with
  | ⟨0, _⟩ => show win2_2.index t (0 : Fin 2) * 1 + 1 * (x 0).val = (k 0).val; rw [e0, hk0]; omega
  | ⟨1, _⟩ => show win2_2.index t (1 : Fin 2) * 1024 + 1 * (x 1).val = (k 1).val; rw [e1, hk1]; omega

/-! ## What a point stores, entry by entry -/

/-- Entry `(p, q)` of the block point `t` stores is entry `(1024 (t / 4) + p, 1024 (t % 4) + q)` of the layer: the one
    step's contraction is the whole one, added to zero. -/
theorem out2_at (c : Dev nD) (t : Fin cfg2.N) (p q : Fin 1024) (P Q : Fin 4096)
    (hP : P.val = t.val / 4 * 1024 + p.val) (hQ : Q.val = t.val % 4 * 1024 + q.val) :
    out2 V c t (ix2 p q) = Cert.Stages.dec1 (V c main_v3_0) (V c main_arg5) (V c main_v4) P Q := by
  unfold out2
  refine (pay2_3_at (acc2 V c t) (iblk2 V c 2 t) p q).trans ?_
  unfold Cert.Stages.dec1
  refine congrArg₂ (fun u v => max (u + v) (Ideal.ofBits .f32 0x00000000#32)) ?_ ?_
  · unfold acc2
    refine (pay2_2_at (iblk2 V c 0 t) (iblk2 V c 1 t) (k2_pay1 (F := Ideal)) p q).trans ?_
    refine (congrArg (· + _) (pay2_1_at p q)).trans ((zero_add _).trans ?_)
    refine Finset.sum_congr rfl fun k _ => ?_
    exact congrArg₂ (· * ·) (blk2_0_at V c t (ix2 p k) (ix2 P k) hP rfl) (blk2_1_at V c t (ix2 k q) (ix2 k Q) rfl hQ)
  · exact blk2_2_at V c t (ix2 0 q) (ix2 0 Q) rfl hQ

end Value

/-! ## From the blocks to the array -/

section Array
variable (V : (c : Dev nD) → (b : Ref sig .tc) → Buf (Elt Ideal) ((c : Thread nD τ).loc b))

/-- What point `t` writes back is its block of the layer's whole result. -/
theorem flushed2_eq (c : Dev nD) (t : Fin cfg2.N) :
    (dat2 V c).flushed 3 t = ((cfg2.win 3).blk t).view.read (Elt Ideal)
      (Cert.Stages.arr2 (Cert.Stages.dec1 (V c main_v3_0) (V c main_arg5) (V c main_v4))) := by
  show (cfg2.win 3).cut (grid2.coords t) ((dat2 V c).after 3 t) = _
  rw [after2_3]
  obtain ⟨-, -, -, -, -, -, e0, e1⟩ := idx_facts2 t
  have hN : t.val < 16 := lt_of_lt_of_eq t.isLt (show cfg2.N = 16 from N_2)
  funext j
  obtain ⟨p, q, rfl⟩ : ∃ (p : Fin 1024) (q : Fin 1024), j = ix2 p q := ⟨j 0, j 1, eq_ix2 j⟩
  rw [View.read_apply]
  have hi : ((cfg2.win 3).blk t).view.emb (ix2 p q)
      = (ix2 (⟨t.val / 4 * 1024 + p.val, by omega⟩ : Fin 4096) (⟨t.val % 4 * 1024 + q.val, by omega⟩ : Fin 4096) : S4096x4096.Idx) := by
    funext a
    apply Fin.ext
    match a with
    | ⟨0, _⟩ => show win2_3.index t (0 : Fin 2) * 1024 + 1 * p.val = t.val / 4 * 1024 + p.val; rw [e0]; omega
    | ⟨1, _⟩ => show win2_3.index t (1 : Fin 2) * 1024 + 1 * q.val = t.val % 4 * 1024 + q.val; rw [e1]; omega
  rw [hi]
  exact out2_at V c t p q _ _ rfl rfl

/-- An entry of the result is in point `t`'s block iff each coordinate is in the block's range on its axis. -/
theorem mem_blk2 (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

/-- Every entry of the result is in the block of the point of its row block and column block. -/
theorem cover2 (i : S4096x4096.Idx) : ∃ t : Fin cfg2.N, (cfg2.win 3).flush t = true ∧ i ∈ ((cfg2.win 3).blk t).view.set := by
  have h0 : (i 0).val < 4096 := (i 0).isLt
  have h1 : (i 1).val < 4096 := (i 1).isLt
  have hN : cfg2.N = 16 := N_2
  obtain ⟨t, ht⟩ : ∃ t : Fin cfg2.N, t.val = (i 0).val / 1024 * 4 + (i 1).val / 1024 := ⟨⟨(i 0).val / 1024 * 4 + (i 1).val / 1024, by omega⟩, rfl⟩
  refine ⟨t, flush2_3 t, ?_⟩
  rw [mem_blk2]
  obtain ⟨-, -, -, -, -, -, e0, e1⟩ := idx_facts2 t
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 1024 ≤ (i 1).val ∧ (i 1).val < win2_3.index t (1 : Fin 2) * 1024 + 1024; rw [e1, ht]; omega

/-- The first decoder layer's result array after the launch, whole. -/
theorem final2 (c : Dev nD) :
    (dat2 (F := Ideal) V c).arrAt 3 cfg2.N = Cert.Stages.arr2 (Cert.Stages.dec1 (V c main_v3_0) (V c main_arg5) (V c main_v4)) :=
  (dat2 V c).arrAt_eq_of_cover 3 _ (fun t _ => flushed2_eq V c t) cover2

end Array

end Cert.KernelIdeal.Hand

end
-- ==== Proof.KI.Val3.lean ====
import proofs.«167880_j27642409517588_1_alg».proof.Proof.KI.Body3
import proofs.«167880_j27642409517588_1_alg».proof.Proof.Stages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

/-! # Region 3's value over the extended reals: the second decoder layer, whole

The region cuts a 4096 × 4096 matrix product into 4 × 4 result tiles of 1024 × 1024 and walks each tile's contracted
axis in four steps of 1024. Point `t` of the grid has coordinates (t / 16, t / 4 % 4, t % 4): tile row, tile column,
step. Within a tile the scratch block starts from zero at step 0 and gains, at every step, the product of that step's
two blocks; after step 3 an entry of it is the sum of four stretches of 1024 products, which is the one sum over all
4096 contraction indices. The last step adds the bias row, and that is the block the point writes back. The sixteen
last-step blocks tile the result array, so the array ends at `H·W + b`, entry by entry. Only the laws of a
commutative monoid are used of `+`; nothing is asked to be finite. -/

/-! ## The payloads, read at an entry -/

/-- The reset value is zero everywhere. -/
theorem pay3_zero (p q : Fin 1024) : k3_pay1 (F := Ideal) (ix2 p q) = 0 := by
  unfold k3_pay1
  simp only [shapeCast_self]
  exact Ideal.ofBits_zero_f32

/-- The product's operand indices at result index `i` and contraction index `k`: (row of `i`, `k`) on the left,
    (`k`, column of `i`) on the right — one lemma per axis. -/
theorem pay3_lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem pay3_lhs_contr (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem pay3_rhs_contr (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem pay3_rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- One step's product added to what the scratch held: at an entry, the entry plus the row-by-column sum over the block. -/
theorem pay3_step (x0 x1 a : Vec Ideal S1024x1024 .f32) (p q : Fin 1024) :
    k3_pay2 x0 x1 a (ix2 p q) = a (ix2 p q) + ∑ k : Fin 1024, x0 (ix2 p k) * x1 (ix2 k q) := by
  unfold k3_pay2
  simp only [shapeCast_self]
  refine (addf_apply _ _ _).trans ?_
  refine congrArg (a (ix2 p q) + ·) ?_
  refine (Ideal.matmul_constant_zero_apply dot_S1024x1024_S1024x1024_S1024x1024_1_0_0_1_n_n none _ _ _).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact pay3_lhs_row _ _
    | ⟨1, _⟩ => exact (pay3_lhs_contr _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (pay3_rhs_contr _ _).trans hk
    | ⟨1, _⟩ => exact pay3_rhs_col _ _)
  rw [el, er]
  rfl

/-! ## The epilogue's payload, read at an entry -/

/-- The last step's stored value: the accumulated entry plus the bias row's entry of its column. -/
theorem pay3_epilogue (a : Vec Ideal S1024x1024 .f32) (b : Vec Ideal S1x1024 .f32) (p q : Fin 1024) :
    k3_pay3 a b (ix2 p q) = a (ix2 p q) + b (ix2 0 q) := by
  unfold k3_pay3
  simp only [shapeCast_self]
  refine (addf_apply _ _ _).trans ?_
  refine congrArg (a (ix2 p q) + ·) ?_
  exact broadcastTo_apply b broadcasts_S1x1024_S1024x1024 (ix2 p q) (ix2 0 q) (fun a => by
    match a with
    | ⟨0, _⟩ => rfl
    | ⟨1, _⟩ => rfl)

/-! ## The blocks, read from the arrays -/

section Region
variable (V : (c : Dev nD) → (b : Ref sig .tc) → Buf (Elt Ideal) ((c : Thread nD τ).loc b))

/-- The launch's three input arrays and its blocks at a point, at their literal types. -/
abbrev xarr3 (c : Dev nD) : Vec Ideal S4096x4096 .f32 := V c main_v5
abbrev warr3 (c : Dev nD) : Vec Ideal S4096x4096 .f32 := V c main_arg7
abbrev barr3 (c : Dev nD) : Vec Ideal S1x4096 .f32 := V c main_v6
abbrev xblk3 (c : Dev nD) (t : Fin cfg3.N) : Vec Ideal S1024x1024 .f32 := iblk3 (F := Ideal) V c 0 t
abbrev wblk3 (c : Dev nD) (t : Fin cfg3.N) : Vec Ideal S1024x1024 .f32 := iblk3 (F := Ideal) V c 1 t
abbrev bblk3 (c : Dev nD) (t : Fin cfg3.N) : Vec Ideal S1x1024 .f32 := iblk3 (F := Ideal) V c 2 t

/-- The block indices of the four windows at a point: the point's coordinates are (t / 16, (t / 4) % 4, t % 4). -/
theorem idx3 : ∀ t : Fin cfg3.N, win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = 0 ∧ win3_2.index t (1 : Fin 2) = t.val / 4 % 4
    ∧ win3_3.index t (0 : Fin 2) = t.val / 16 ∧ win3_3.index t (1 : Fin 2) = t.val / 4 % 4 :=
  (by decide +kernel : ∀ t : Fin grid3.N, _)

/-- An entry of the first window's block at a point is the first array's entry at (tile row · 1024 + row, step · 1024 + column). -/
theorem blkread3_0 (c : Dev nD) (t : Fin cfg3.N) (p k : Fin 1024) (r s : Fin 4096)
    (hr : r.val = t.val / 16 * 1024 + p.val) (hs : s.val = t.val % 4 * 1024 + k.val) :
    xblk3 V c t (ix2 p k) = xarr3 V c (ix2 r s) := by
  unfold xblk3 iblk3
  rw [View.read_apply]
  show V c main_v5 (((cfg3.win 0).blk t).view.emb (ix2 p k)) = V c main_v5 (ix2 r s)
  refine congrArg (V c main_v5) ?_
  funext a; apply Fin.ext
  match a with
  | ⟨0, _⟩ => show win3_0.index t (0 : Fin 2) * 1024 + 1 * p.val = r.val; rw [(idx3 t).1, hr]; omega
  | ⟨1, _⟩ => show win3_0.index t (1 : Fin 2) * 1024 + 1 * k.val = s.val; rw [(idx3 t).2.1, hs]; omega

/-- An entry of the second window's block is the second array's entry at (step · 1024 + row, tile column · 1024 + column). -/
theorem blkread3_1 (c : Dev nD) (t : Fin cfg3.N) (k q : Fin 1024) (r s : Fin 4096)
    (hr : r.val = t.val % 4 * 1024 + k.val) (hs : s.val = t.val / 4 % 4 * 1024 + q.val) :
    wblk3 V c t (ix2 k q) = warr3 V c (ix2 r s) := by
  unfold wblk3 iblk3
  rw [View.read_apply]
  show V c main_arg7 (((cfg3.win 1).blk t).view.emb (ix2 k q)) = V c main_arg7 (ix2 r s)
  refine congrArg (V c main_arg7) ?_
  funext a; apply Fin.ext
  match a with
  | ⟨0, _⟩ => show win3_1.index t (0 : Fin 2) * 1024 + 1 * k.val = r.val; rw [(idx3 t).2.2.1, hr]; omega
  | ⟨1, _⟩ => show win3_1.index t (1 : Fin 2) * 1024 + 1 * q.val = s.val; rw [(idx3 t).2.2.2.1, hs]; omega

/-- An entry of the bias window's block is the bias row's entry at tile column · 1024 + column. -/
theorem blkread3_2 (c : Dev nD) (t : Fin cfg3.N) (q : Fin 1024) (s : Fin 4096)
    (hs : s.val = t.val / 4 % 4 * 1024 + q.val) :
    bblk3 V c t (ix2 0 q) = barr3 V c (ix2 0 s) := by
  unfold bblk3 iblk3
  rw [View.read_apply]
  show V c main_v6 (((cfg3.win 2).blk t).view.emb (ix2 0 q)) = V c main_v6 (ix2 0 s)
  refine congrArg (V c main_v6) ?_
  funext a; apply Fin.ext
  match a with
  | ⟨0, _⟩ => show win3_2.index t (0 : Fin 2) * 1 + 1 * 0 = 0; rw [(idx3 t).2.2.2.2.1]
  | ⟨1, _⟩ => show win3_2.index t (1 : Fin 2) * 1024 + 1 * q.val = s.val; rw [(idx3 t).2.2.2.2.2.1, hs]; omega

end Region

/-! ## The scratch along one tile's four steps -/

section Region
variable (V : (c : Dev nD) → (b : Ref sig .tc) → Buf (Elt Ideal) ((c : Thread nD τ).loc b))

/-- One point's contribution to an entry of its tile: the row of its first block times the column of its second. -/
def term3 (c : Dev nD) (n : ℕ) (hn : n < cfg3.N) (p q : Fin 1024) : EReal :=
  ∑ k : Fin 1024, xblk3 V c ⟨n, hn⟩ (ix2 p k) * wblk3 V c ⟨n, hn⟩ (ix2 k q)

/-- At a reset point the scratch ends at zero plus the point's contribution; -/
theorem acc3_at_reset (c : Dev nD) (n : ℕ) (hn : n < cfg3.N) (h : n % 4 = 0) (p q : Fin 1024) :
    acc3 (F := Ideal) V c n hn (ix2 p q) = 0 + term3 V c n hn p q :=
  (congrFun (acc3_reset (F := Ideal) V c ⟨n, hn⟩ h) (ix2 p q)).trans
    ((pay3_step (xblk3 V c ⟨n, hn⟩) (wblk3 V c ⟨n, hn⟩) (k3_pay1 (F := Ideal)) p q).trans
      (congrArg (· + term3 V c n hn p q) (pay3_zero p q)))

/-- at any other point at what the point before left plus the point's contribution. -/
theorem acc3_at_step (c : Dev nD) (n : ℕ) (hn : n < cfg3.N) (h : ¬n % 4 = 0) (p q : Fin 1024) :
    acc3 (F := Ideal) V c n hn (ix2 p q)
      = acc3 (F := Ideal) V c (n - 1) (Nat.lt_of_le_of_lt (Nat.sub_le _ _) hn) (ix2 p q) + term3 V c n hn p q :=
  (congrFun (acc3_step (F := Ideal) V c ⟨n, hn⟩ h) (ix2 p q)).trans
    (pay3_step (xblk3 V c ⟨n, hn⟩) (wblk3 V c ⟨n, hn⟩) (acc3 (F := Ideal) V c (n - 1) (Nat.lt_of_le_of_lt (Nat.sub_le _ _) hn)) p q)

/-- A point's contribution, read from the two arrays: the products over the 1024 contraction indices of its k-block. -/
theorem term3_eq (c : Dev nD) (n : ℕ) (hn : n < cfg3.N) (p q : Fin 1024) (r s : Fin 4096) (kb : Fin 4)
    (hr : r.val = n / 16 * 1024 + p.val) (hs : s.val = n / 4 % 4 * 1024 + q.val) (hk : n % 4 = kb.val) :
    term3 V c n hn p q = ∑ kk : Fin 1024, xarr3 V c (ix2 r ⟨kb.val * 1024 + kk.val, by omega⟩) * warr3 V c (ix2 ⟨kb.val * 1024 + kk.val, by omega⟩ s) := by
  unfold term3
  refine Finset.sum_congr rfl fun kk _ => ?_
  rw [blkread3_0 V c ⟨n, hn⟩ p kk r ⟨kb.val * 1024 + kk.val, by omega⟩ hr (by show kb.val * 1024 + kk.val = n % 4 * 1024 + kk.val; rw [hk]),
    blkread3_1 V c ⟨n, hn⟩ kk q ⟨kb.val * 1024 + kk.val, by omega⟩ s (by show kb.val * 1024 + kk.val = n % 4 * 1024 + kk.val; rw [hk]) hs]

/-- After a tile's last point the scratch holds the whole contraction: the four k-blocks' sums are the one sum over 4096. -/
theorem acc3_last (c : Dev nD) (t : Fin cfg3.N) (h3 : t.val % 4 = 3) (p q : Fin 1024) (r s : Fin 4096)
    (hr : r.val = t.val / 16 * 1024 + p.val) (hs : s.val = t.val / 4 % 4 * 1024 + q.val) :
    acc3 (F := Ideal) V c t.val t.isLt (ix2 p q) = ∑ k : Fin 4096, xarr3 V c (ix2 r k) * warr3 V c (ix2 k s) := by
  have hN : t.val < 64 := lt_of_lt_of_eq t.isLt N_3
  have hN' : cfg3.N = 64 := N_3
  rw [acc3_at_step V c t.val t.isLt (by omega) p q,
    acc3_at_step V c (t.val - 1) (by omega) (by omega) p q,
    acc3_at_step V c (t.val - 1 - 1) (by omega) (by omega) p q,
    acc3_at_reset V c (t.val - 1 - 1 - 1) (by omega) (by omega) p q,
    term3_eq V c t.val t.isLt p q r s 3 hr hs (by omega),
    term3_eq V c (t.val - 1) (by omega) p q r s 2 (by omega) (by omega) (by omega),
    term3_eq V c (t.val - 1 - 1) (by omega) p q r s 1 (by omega) (by omega) (by omega),
    term3_eq V c (t.val - 1 - 1 - 1) (by omega) p q r s 0 (by omega) (by omega) (by omega),
    zero_add]
  refine Eq.trans ?_ (Cert.Stages.sum_blocks 4 1024 (fun k => xarr3 V c (ix2 r k) * warr3 V c (ix2 k s))).symm
  rw [Fin.sum_univ_four]

end Region

/-! ## From the last-step blocks to the array -/

section Region
variable (V : (c : Dev nD) → (b : Ref sig .tc) → Buf (Elt Ideal) ((c : Thread nD τ).loc b))

/-- What the launch leaves in its result array, as one function of its three input arrays. -/
abbrev res3 (c : Dev nD) : Vec Ideal S4096x4096 .f32 :=
  Cert.Stages.arr2 (Cert.Stages.dec2 (V c main_v5) (V c main_arg7) (V c main_v6))

/-- What a last-step point writes back is its block of that function. -/
theorem flushed3_eq (c : Dev nD) (t : Fin cfg3.N) (hf : (cfg3.win 3).flush t = true) :
    (dat3 (F := Ideal) V c).flushed 3 t = ((cfg3.win 3).blk t).view.read (Elt Ideal) (res3 V c) := by
  have h3 : t.val % 4 = 3 := (flush3_3 t).mp hf
  have hN : t.val < 64 := lt_of_lt_of_eq t.isLt N_3
  show (cfg3.win 3).cut (grid3.coords t) ((dat3 (F := Ideal) V c).after 3 t) = _
  rw [after3_3]
  funext j
  obtain ⟨p, q, rfl⟩ : ∃ (p : Fin 1024) (q : Fin 1024), j = ix2 p q := ⟨j 0, j 1, eq_ix2 j⟩
  rw [View.read_apply]
  have he : ((cfg3.win 3).blk t).view.emb (ix2 p q)
      = ix2 (⟨t.val / 16 * 1024 + p.val, by omega⟩ : Fin 4096) (⟨t.val / 4 % 4 * 1024 + q.val, by omega⟩ : Fin 4096) := by
    funext a; apply Fin.ext
    match a with
    | ⟨0, _⟩ => show win3_3.index t (0 : Fin 2) * 1024 + 1 * p.val = t.val / 16 * 1024 + p.val; rw [(idx3 t).2.2.2.2.2.2.1]; omega
    | ⟨1, _⟩ => show win3_3.index t (1 : Fin 2) * 1024 + 1 * q.val = t.val / 4 % 4 * 1024 + q.val; rw [(idx3 t).2.2.2.2.2.2.2]; omega
  rw [he]
  show out3 (F := Ideal) V c t (ix2 p q) = Cert.Stages.dec2 (V c main_v5) (V c main_arg7) (V c main_v6) _ _
  unfold out3 Cert.Stages.dec2
  refine (pay3_epilogue (acc3 (F := Ideal) V c t.val t.isLt) (bblk3 V c t) p q).trans ?_
  refine congrArg₂ (· + ·) ?_ ?_
  · exact acc3_last V c t h3 p q _ _ rfl rfl
  · exact blkread3_2 V c t q _ rfl

/-- An index of the result array is in point `t`'s block iff each coordinate is in the block's range on its axis. -/
theorem mem_blk3 (t : Fin cfg3.N) (i : S4096x4096.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v7).slice (win3_3.rect t)).set ↔ _
  rw [View.set_slice_whole, Rect.mem_set_unit]
  exact Iff.rfl

/-- Every index of the result array is in the block of its tile's last point. -/
theorem cover3 (i : S4096x4096.Idx) : ∃ t : Fin cfg3.N, (cfg3.win 3).flush t = true ∧ i ∈ ((cfg3.win 3).blk t).view.set := by
  have h0 : (i 0).val < 4096 := (i 0).isLt
  have h1 : (i 1).val < 4096 := (i 1).isLt
  have hN : cfg3.N = 64 := N_3
  refine ⟨⟨(i 0).val / 1024 * 16 + (i 1).val / 1024 * 4 + 3, by omega⟩, (flush3_3 _).mpr (by show ((i 0).val / 1024 * 16 + (i 1).val / 1024 * 4 + 3) % 4 = 3; omega), ?_⟩
  rw [mem_blk3]
  intro a
  match a with
  | ⟨0, _⟩ =>
    show win3_3.index _ (0 : Fin 2) * 1024 ≤ (i 0).val ∧ (i 0).val < win3_3.index _ (0 : Fin 2) * 1024 + 1024
    rw [(idx3 _).2.2.2.2.2.2.1]
    show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win3_3.index _ (1 : Fin 2) * 1024 ≤ (i 1).val ∧ (i 1).val < win3_3.index _ (1 : Fin 2) * 1024 + 1024
    rw [(idx3 _).2.2.2.2.2.2.2]
    show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The launch's result array after its last point: the second decoder layer of the three input arrays. -/
theorem final3 (c : Dev nD) :
    (dat3 (F := Ideal) V c).arrAt 3 cfg3.N = Cert.Stages.arr2 (Cert.Stages.dec2 (V c main_v5) (V c main_arg7) (V c main_v6)) :=
  (dat3 (F := Ideal) V c).arrAt_eq_of_cover 3 (res3 V c) (fun t hf => flushed3_eq V c t hf) cover3

end Region

end Cert.KernelIdeal.Hand

end
-- ==== Proof.Bridge.lean ====
/-
  The four stages, composed, are the reference program's result terms, element by element, at the ideal instance:
  every matrix product of the reference is the one sum over the contracted axis, its bias a row read at the column,
  its activation a maximum with the zero word, and its two slices the left and right halves of the columns.
-/
import proofs.«167880_j27642409517588_1_alg».proof.Proof.Stages
import proofs.«167880_j27642409517588_1_alg».proof.Proof.Gen.ReferenceIdeal.Read

set_option maxRecDepth 16384

noncomputable section

open scoped BigOperators

namespace Cert.Bridge

open Cert.Stages Cert.ReferenceIdeal Cert.ReferenceIdeal.Read Idealize.ShloMosaic Idealize.ShloMosaic.ValueIdx

/-- A length-n vector as the one-row array the program's reshape makes of it. -/
def row {n : ℕ} (b : (⟨1, ![n]⟩ : Shape).Idx → EReal) : (Sh 1 n).Idx → EReal := fun i => b (ix1 (i 1))

theorem row_ix2 {n : ℕ} (b : (⟨1, ![n]⟩ : Shape).Idx → EReal) (z : Fin 1) (q : Fin n) : row b (ix2 z q) = b (ix1 q) := rfl

/-! ## Index equations: the reference's composed index functions at a split index -/

theorem lidx0 (p q k : Fin 4096) : lidx_main_v0 (ix2 p q) k = ix2 p k :=
  funext fun a => Fin.ext (by match a with | ⟨0, _⟩ => rfl | ⟨1, _⟩ => rfl)
theorem ridx0 (p q k : Fin 4096) : ridx_main_v0 (ix2 p q) k = ix2 k q :=
  funext fun a => Fin.ext (by match a with | ⟨0, _⟩ => rfl | ⟨1, _⟩ => rfl)
theorem bidx0 (p q : Fin 4096) : idx_main_v1 (idx_main_v2 (ix2 p q)) = ix1 q :=
  funext fun a => Fin.ext (by match a with | ⟨0, _⟩ => rfl)

theorem lidx5 (p : Fin 4096) (q : Fin 1024) (k : Fin 4096) : lidx_main_v5 (ix2 p q) k = ix2 p k :=
  funext fun a => Fin.ext (by match a with | ⟨0, _⟩ => rfl | ⟨1, _⟩ => rfl)
theorem ridx5 (p : Fin 4096) (q : Fin 1024) (k : Fin 4096) : ridx_main_v5 (ix2 p q) k = ix2 k q :=
  funext fun a => Fin.ext (by match a with | ⟨0, _⟩ => rfl | ⟨1, _⟩ => rfl)
theorem bidx5 (p : Fin 4096) (q : Fin 1024) : idx_main_v6 (idx_main_v7 (ix2 p q)) = ix1 q :=
  funext fun a => Fin.ext (by match a with | ⟨0, _⟩ => rfl)

/-- The left slice reads column `q` of the 1024. -/
theorem idx9 (p : Fin 4096) (q : Fin 512) :
    idx_main_v9 (ix2 p q) = ix2 p (⟨q.val, by omega⟩ : Fin 1024) :=
  funext fun a => Fin.ext (by match a with | ⟨0, _⟩ => rfl | ⟨1, _⟩ => rfl)
/-- The right slice reads column `q + 512` of the 1024. -/
theorem idx10 (p : Fin 4096) (q : Fin 512) :
    idx_main_v10 (ix2 p q) = ix2 p (⟨q.val + 512, by omega⟩ : Fin 1024) :=
  funext fun a => Fin.ext (by match a with | ⟨0, _⟩ => rfl | ⟨1, _⟩ => exact Nat.add_comm 512 q.val)

theorem lidx16 (p q : Fin 4096) (k : Fin 512) : lidx_main_v16 (ix2 p q) k = ix2 p k :=
  funext fun a => Fin.ext (by match a with | ⟨0, _⟩ => rfl | ⟨1, _⟩ => rfl)
theorem ridx16 (p q : Fin 4096) (k : Fin 512) : ridx_main_v16 (ix2 p q) k = ix2 k q :=
  funext fun a => Fin.ext (by match a with | ⟨0, _⟩ => rfl | ⟨1, _⟩ => rfl)
theorem bidx16 (p q : Fin 4096) : idx_main_v17 (idx_main_v18 (ix2 p q)) = ix1 q :=
  funext fun a => Fin.ext (by match a with | ⟨0, _⟩ => rfl)

theorem lidx21 (p q k : Fin 4096) : lidx_main_v21 (ix2 p q) k = ix2 p k :=
  funext fun a => Fin.ext (by match a with | ⟨0, _⟩ => rfl | ⟨1, _⟩ => rfl)
theorem ridx21 (p q k : Fin 4096) : ridx_main_v21 (ix2 p q) k = ix2 k q :=
  funext fun a => Fin.ext (by match a with | ⟨0, _⟩ => rfl | ⟨1, _⟩ => rfl)
theorem bidx21 (p q : Fin 4096) : idx_main_v22 (idx_main_v23 (ix2 p q)) = ix1 q :=
  funext fun a => Fin.ext (by match a with | ⟨0, _⟩ => rfl)

/-! ## The stages, bottom-up -/

section

variable (x0 x1 x7 : (Sh 4096 4096).Idx → EReal) (x2 x6 x8 : (⟨1, ![4096]⟩ : Shape).Idx → EReal)
  (x3 : (Sh 4096 1024).Idx → EReal) (x4 : (⟨1, ![1024]⟩ : Shape).Idx → EReal) (x5 : (Sh 512 4096).Idx → EReal)
  (x9 : (Sh 4096 512).Idx → EReal)

/-- The first layer, as an array. -/
abbrev hArr : (Sh 4096 4096).Idx → EReal := arr2 (enc1 x0 x1 (row x2))

/-- The first layer is the reference's first activation. -/
theorem h_eq : arr2 (enc1 x0 x1 (row x2)) = val_main_v4 (F := Ideal) x0 x1 x2 := by
  funext i
  obtain ⟨p, q, rfl⟩ : ∃ (p : Fin 4096) (q : Fin 4096), i = ix2 p q := ⟨i 0, i 1, eq_ix2 i⟩
  rw [val_main_v4_apply, val_main_v3_apply, val_main_v0_apply, val_main_v2_apply, val_main_v1_apply,
    val_main_call0_v0_apply, val_main_call0_cst_apply]
  simp only [lidx0, ridx0, bidx0, Ideal.maximumf_def, Ideal.addf_def, Ideal.ofBits_def]
  rfl

/-- The second layer, all 1024 columns, is the reference's sum before its two slices. -/
theorem z_eq : arr2 (enc2 (arr2 (enc1 x0 x1 (row x2))) x3 (row x4)) = val_main_v8 (F := Ideal) x0 x1 x2 x3 x4 := by
  funext i
  obtain ⟨p, q, rfl⟩ : ∃ (p : Fin 4096) (q : Fin 1024), i = ix2 p q := ⟨i 0, i 1, eq_ix2 i⟩
  rw [val_main_v8_apply, val_main_v5_apply, val_main_v7_apply, val_main_v6_apply, ← h_eq]
  simp only [lidx5, ridx5, bidx5, Ideal.addf_def]
  rfl

/-- The mean is the reference's left slice. -/
theorem mu_eq : arr2 (mu (arr2 (enc1 x0 x1 (row x2))) x3 (row x4)) = val_main_v9 (F := Ideal) x0 x1 x2 x3 x4 := by
  funext i
  obtain ⟨p, q, rfl⟩ : ∃ (p : Fin 4096) (q : Fin 512), i = ix2 p q := ⟨i 0, i 1, eq_ix2 i⟩
  rw [val_main_v9_apply, ← z_eq, idx9]
  rfl

/-- The log-variance is the reference's right slice. -/
theorem lv_eq : arr2 (logvar (arr2 (enc1 x0 x1 (row x2))) x3 (row x4)) = val_main_v10 (F := Ideal) x0 x1 x2 x3 x4 := by
  funext i
  obtain ⟨p, q, rfl⟩ : ∃ (p : Fin 4096) (q : Fin 512), i = ix2 p q := ⟨i 0, i 1, eq_ix2 i⟩
  rw [val_main_v10_apply, ← z_eq, idx10]
  rfl

/-- The sample is the reference's `mu + exp (0.5 · logvar) · eps`. -/
theorem zs_eq : arr2 (sample (arr2 (enc1 x0 x1 (row x2))) x3 (row x4) x9) = val_main_v15 (F := Ideal) x0 x1 x2 x3 x4 x9 := by
  funext i
  obtain ⟨p, q, rfl⟩ : ∃ (p : Fin 4096) (q : Fin 512), i = ix2 p q := ⟨i 0, i 1, eq_ix2 i⟩
  rw [val_main_v15_apply, val_main_v14_apply, val_main_v13_apply, val_main_v12_apply, val_main_v11_apply,
    val_main_cst_apply, ← mu_eq, ← lv_eq]
  simp only [Ideal.addf_def, Ideal.mulf_def, Ideal.hostUnary_exp_def, Ideal.ofBits_def]
  rfl

/-- The first decoder layer is the reference's second activation. -/
theorem hd_eq :
    arr2 (dec1 (arr2 (sample (arr2 (enc1 x0 x1 (row x2))) x3 (row x4) x9)) x5 (row x6))
      = val_main_v20 (F := Ideal) x0 x1 x2 x3 x4 x5 x6 x9 := by
  funext i
  obtain ⟨p, q, rfl⟩ : ∃ (p : Fin 4096) (q : Fin 4096), i = ix2 p q := ⟨i 0, i 1, eq_ix2 i⟩
  rw [val_main_v20_apply, val_main_v19_apply, val_main_v16_apply, val_main_v18_apply, val_main_v17_apply,
    val_main_call1_v0_apply, val_main_call1_cst_apply, ← zs_eq]
  simp only [lidx16, ridx16, bidx16, Ideal.maximumf_def, Ideal.addf_def, Ideal.ofBits_def]
  rfl

/-- The reconstruction is the reference's last sum. -/
theorem recon_eq :
    arr2 (dec2 (arr2 (dec1 (arr2 (sample (arr2 (enc1 x0 x1 (row x2))) x3 (row x4) x9)) x5 (row x6))) x7 (row x8))
      = val_main_v24 (F := Ideal) x0 x1 x2 x3 x4 x5 x6 x7 x8 x9 := by
  funext i
  obtain ⟨p, q, rfl⟩ : ∃ (p : Fin 4096) (q : Fin 4096), i = ix2 p q := ⟨i 0, i 1, eq_ix2 i⟩
  rw [val_main_v24_apply, val_main_v21_apply, val_main_v23_apply, val_main_v22_apply, ← hd_eq]
  simp only [lidx21, ridx21, bidx21, Ideal.addf_def]
  rfl

end

end Cert.Bridge

end
-- ==== Proof.KI.Reshape.lean ====
/-
  The program's four host stretches: each is ONE reshape of a bias vector of length n to the one-row array [1, n].
  After a stretch its result array holds the vector as a row, and every other array holds what it held.
-/
import proofs.«167880_j27642409517588_1_alg».proof.Proof.Gen.KernelIdeal.Launch
import proofs.«167880_j27642409517588_1_alg».proof.Proof.Bridge
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

/-- After stretch 0 its result array is the vector `main_arg2` as a row. -/
theorem reshape0 (W : Valuation τ sig (Elt Ideal)) :
    (StableHlo.after (hostOps0 (F := Ideal)) W (Proc.devRef .tc main_v0) : (Cert.Stages.Sh 1 4096).Idx → EReal)
      = Cert.Bridge.row (W (Proc.devRef .tc main_arg2)) := by
  have e : (StableHlo.after (hostOps0 (F := Ideal)) W (Proc.devRef .tc main_v0) : (Cert.Stages.Sh 1 4096).Idx → EReal)
      = shapeCast ⟨2, ![1, 4096]⟩ (W (Proc.devRef .tc main_arg2) : (⟨1, ![4096]⟩ : Shape).Idx → EReal) shapeCasts_S4096_S1x4096 := by
    after_results; rfl
  rw [e]
  funext i
  obtain ⟨p, q, rfl⟩ : ∃ (p : Fin 1) (q : Fin 4096), i = ix2 p q := ⟨i 0, i 1, eq_ix2 i⟩
  exact shapeCast_a_1a_apply _ _ p q

/-- Stretch 0 changes no other array. -/
theorem keep0 (W : Valuation τ sig (Elt F)) (b : Ref sig .tc) (hb : b ≠ main_v0) :
    StableHlo.after (hostOps0 (F := F)) W (Proc.devRef .tc b) = W (Proc.devRef .tc b) :=
  StableHlo.reshape_result_ne main_arg2 main_v0 rfl shapeCasts_S4096_S1x4096 _ _ W hb

/-- After stretch 1 its result array is the vector `main_arg4` as a row. -/
theorem reshape1 (W : Valuation τ sig (Elt Ideal)) :
    (StableHlo.after (hostOps1 (F := Ideal)) W (Proc.devRef .tc main_v2) : (Cert.Stages.Sh 1 1024).Idx → EReal)
      = Cert.Bridge.row (W (Proc.devRef .tc main_arg4)) := by
  have e : (StableHlo.after (hostOps1 (F := Ideal)) W (Proc.devRef .tc main_v2) : (Cert.Stages.Sh 1 1024).Idx → EReal)
      = shapeCast ⟨2, ![1, 1024]⟩ (W (Proc.devRef .tc main_arg4) : (⟨1, ![1024]⟩ : Shape).Idx → EReal) shapeCasts_S1024_S1x1024 := by
    after_results; rfl
  rw [e]
  funext i
  obtain ⟨p, q, rfl⟩ : ∃ (p : Fin 1) (q : Fin 1024), i = ix2 p q := ⟨i 0, i 1, eq_ix2 i⟩
  exact shapeCast_a_1a_apply _ _ p q

/-- Stretch 1 changes no other array. -/
theorem keep1 (W : Valuation τ sig (Elt F)) (b : Ref sig .tc) (hb : b ≠ main_v2) :
    StableHlo.after (hostOps1 (F := F)) W (Proc.devRef .tc b) = W (Proc.devRef .tc b) :=
  StableHlo.reshape_result_ne main_arg4 main_v2 rfl shapeCasts_S1024_S1x1024 _ _ W hb

/-- After stretch 2 its result array is the vector `main_arg6` as a row. -/
theorem reshape2 (W : Valuation τ sig (Elt Ideal)) :
    (StableHlo.after (hostOps2 (F := Ideal)) W (Proc.devRef .tc main_v4) : (Cert.Stages.Sh 1 4096).Idx → EReal)
      = Cert.Bridge.row (W (Proc.devRef .tc main_arg6)) := by
  have e : (StableHlo.after (hostOps2 (F := Ideal)) W (Proc.devRef .tc main_v4) : (Cert.Stages.Sh 1 4096).Idx → EReal)
      = shapeCast ⟨2, ![1, 4096]⟩ (W (Proc.devRef .tc main_arg6) : (⟨1, ![4096]⟩ : Shape).Idx → EReal) shapeCasts_S4096_S1x4096 := by
    after_results; rfl
  rw [e]
  funext i
  obtain ⟨p, q, rfl⟩ : ∃ (p : Fin 1) (q : Fin 4096), i = ix2 p q := ⟨i 0, i 1, eq_ix2 i⟩
  exact shapeCast_a_1a_apply _ _ p q

/-- Stretch 2 changes no other array. -/
theorem keep2 (W : Valuation τ sig (Elt F)) (b : Ref sig .tc) (hb : b ≠ main_v4) :
    StableHlo.after (hostOps2 (F := F)) W (Proc.devRef .tc b) = W (Proc.devRef .tc b) :=
  StableHlo.reshape_result_ne main_arg6 main_v4 rfl shapeCasts_S4096_S1x4096 _ _ W hb

/-- After stretch 3 its result array is the vector `main_arg8` as a row. -/
theorem reshape3 (W : Valuation τ sig (Elt Ideal)) :
    (StableHlo.after (hostOps3 (F := Ideal)) W (Proc.devRef .tc main_v6) : (Cert.Stages.Sh 1 4096).Idx → EReal)
      = Cert.Bridge.row (W (Proc.devRef .tc main_arg8)) := by
  have e : (StableHlo.after (hostOps3 (F := Ideal)) W (Proc.devRef .tc main_v6) : (Cert.Stages.Sh 1 4096).Idx → EReal)
      = shapeCast ⟨2, ![1, 4096]⟩ (W (Proc.devRef .tc main_arg8) : (⟨1, ![4096]⟩ : Shape).Idx → EReal) shapeCasts_S4096_S1x4096 := by
    after_results; rfl
  rw [e]
  funext i
  obtain ⟨p, q, rfl⟩ : ∃ (p : Fin 1) (q : Fin 4096), i = ix2 p q := ⟨i 0, i 1, eq_ix2 i⟩
  exact shapeCast_a_1a_apply _ _ p q

/-- Stretch 3 changes no other array. -/
theorem keep3 (W : Valuation τ sig (Elt F)) (b : Ref sig .tc) (hb : b ≠ main_v6) :
    StableHlo.after (hostOps3 (F := F)) W (Proc.devRef .tc b) = W (Proc.devRef .tc b) :=
  StableHlo.reshape_result_ne main_arg8 main_v6 rfl shapeCasts_S4096_S1x4096 _ _ W hb

end Cert.KernelIdeal.Hand

end
-- ==== Proof.KI.Value.lean ====
import proofs.«167880_j27642409517588_1_alg».proof.Proof.Gen.KernelIdeal.Launch
import proofs.«167880_j27642409517588_1_alg».proof.Proof.Gen.KernelIdeal.Skeleton
import proofs.«167880_j27642409517588_1_alg».proof.Proof.Gen.KernelIdeal.Points
import proofs.«167880_j27642409517588_1_alg».proof.Proof.KI.Frame
import proofs.«167880_j27642409517588_1_alg».proof.Proof.KI.Val0
import proofs.«167880_j27642409517588_1_alg».proof.Proof.KI.Val1
import proofs.«167880_j27642409517588_1_alg».proof.Proof.KI.Val2
import proofs.«167880_j27642409517588_1_alg».proof.Proof.KI.Val3
import proofs.«167880_j27642409517588_1_alg».proof.Proof.KI.Reshape
import proofs.«167880_j27642409517588_1_alg».proof.Proof.Bridge
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the program leaves in its three result arrays, at the ideal instance

Launch by launch: each launch's result array is its stage of the arrays it found, those are the stage before it
(or an argument, or a bias vector as a one-row array), and the composition is the reference's term. -/

open Cert.Stages Cert.Bridge

variable (m : (ℓ : Loc nD τ sig) → Buf (Elt Ideal) ℓ) (ρ : Dev nD → PrngReg)

/-- The ten argument arrays on core `c`, as arrays of extended reals. -/
abbrev a0 (c : Dev nD) : (Sh 4096 4096).Idx → EReal := m ((c : Thread nD τ).loc main_arg0)
abbrev a1 (c : Dev nD) : (Sh 4096 4096).Idx → EReal := m ((c : Thread nD τ).loc main_arg1)
abbrev a2 (c : Dev nD) : (⟨1, ![4096]⟩ : Shape).Idx → EReal := m ((c : Thread nD τ).loc main_arg2)
abbrev a3 (c : Dev nD) : (Sh 4096 1024).Idx → EReal := m ((c : Thread nD τ).loc main_arg3)
abbrev a4 (c : Dev nD) : (⟨1, ![1024]⟩ : Shape).Idx → EReal := m ((c : Thread nD τ).loc main_arg4)
abbrev a5 (c : Dev nD) : (Sh 512 4096).Idx → EReal := m ((c : Thread nD τ).loc main_arg5)
abbrev a6 (c : Dev nD) : (⟨1, ![4096]⟩ : Shape).Idx → EReal := m ((c : Thread nD τ).loc main_arg6)
abbrev a7 (c : Dev nD) : (Sh 4096 4096).Idx → EReal := m ((c : Thread nD τ).loc main_arg7)
abbrev a8 (c : Dev nD) : (⟨1, ![4096]⟩ : Shape).Idx → EReal := m ((c : Thread nD τ).loc main_arg8)
abbrev a9 (c : Dev nD) : (Sh 4096 512).Idx → EReal := m ((c : Thread nD τ).loc main_arg9)

/-! ## The first encoder layer -/

theorem bias0 (c : Dev nD) : (V1 m ρ c main_v0 : (Sh 1 4096).Idx → EReal) = row (a2 m c) :=
  reshape0 (W0 m ρ c)

theorem arr_h (c : Dev nD) : (W2 m ρ c (Proc.devRef .tc main_v1) : (Sh 4096 4096).Idx → EReal) = arr2 (enc1 (a0 m c) (a1 m c) (row (a2 m c))) := by
  refine (W2_arr m ρ c 3).trans ((final0 (V1 m ρ) c).trans ?_)
  rw [show (V1 m ρ c main_arg0 : (Sh 4096 4096).Idx → EReal) = a0 m c from (keep_arg0 m ρ c).1,
    show (V1 m ρ c main_arg1 : (Sh 4096 4096).Idx → EReal) = a1 m c from (keep_arg1 m ρ c).1, bias0]

/-! ## The second encoder layer and the sample -/

theorem bias1 (c : Dev nD) : (V3 m ρ c main_v2 : (Sh 1 1024).Idx → EReal) = row (a4 m c) :=
  (reshape1 (W2 m ρ c)).trans (congrArg row ((W2_keep m ρ c main_arg4 (by decide)).trans (keep_arg4 m ρ c).1))

theorem entry1_h (c : Dev nD) : (V3 m ρ c main_v1 : (Sh 4096 4096).Idx → EReal) = arr2 (enc1 (a0 m c) (a1 m c) (row (a2 m c))) :=
  (keepHost hostOps1 [main_v2] hostOps1_writes _ main_v1 (by decide)).trans (arr_h m ρ c)

theorem arr_mu (c : Dev nD) : (W4 m ρ c (Proc.devRef .tc main_v3_1) : (Sh 4096 512).Idx → EReal) = arr2 (mu (arr2 (enc1 (a0 m c) (a1 m c) (row (a2 m c)))) (a3 m c) (row (a4 m c))) := by
  refine (W4_arr m ρ c 5).trans ((final1_mu (V3 m ρ) c).trans ?_)
  rw [entry1_h, show (V3 m ρ c main_arg3 : (Sh 4096 1024).Idx → EReal) = a3 m c from (keep_arg3 m ρ c).2.1, bias1]

theorem arr_lv (c : Dev nD) : (W4 m ρ c (Proc.devRef .tc main_v3_2) : (Sh 4096 512).Idx → EReal) = arr2 (logvar (arr2 (enc1 (a0 m c) (a1 m c) (row (a2 m c)))) (a3 m c) (row (a4 m c))) := by
  refine (W4_arr m ρ c 6).trans ((final1_lv (V3 m ρ) c).trans ?_)
  rw [entry1_h, show (V3 m ρ c main_arg3 : (Sh 4096 1024).Idx → EReal) = a3 m c from (keep_arg3 m ρ c).2.1, bias1]

theorem arr_zs (c : Dev nD) : (W4 m ρ c (Proc.devRef .tc main_v3_0) : (Sh 4096 512).Idx → EReal) = arr2 (sample (arr2 (enc1 (a0 m c) (a1 m c) (row (a2 m c)))) (a3 m c) (row (a4 m c)) (a9 m c)) := by
  refine (W4_arr m ρ c 4).trans ((final1_zs (V3 m ρ) c).trans ?_)
  rw [entry1_h, show (V3 m ρ c main_arg3 : (Sh 4096 1024).Idx → EReal) = a3 m c from (keep_arg3 m ρ c).2.1, bias1,
    show (V3 m ρ c main_arg9 : (Sh 4096 512).Idx → EReal) = a9 m c from (keep_arg9 m ρ c).2.1]

/-! ## The first decoder layer -/

theorem bias2 (c : Dev nD) : (V5 m ρ c main_v4 : (Sh 1 4096).Idx → EReal) = row (a6 m c) :=
  (reshape2 (W4 m ρ c)).trans (congrArg row ((W4_keep m ρ c main_arg6 (by decide)).trans (keep_arg6 m ρ c).2.1))

theorem entry2_zs (c : Dev nD) : (V5 m ρ c main_v3_0 : (Sh 4096 512).Idx → EReal) = arr2 (sample (arr2 (enc1 (a0 m c) (a1 m c) (row (a2 m c)))) (a3 m c) (row (a4 m c)) (a9 m c)) :=
  (keepHost hostOps2 [main_v4] hostOps2_writes _ main_v3_0 (by decide)).trans (arr_zs m ρ c)

theorem arr_hd (c : Dev nD) : (W6 m ρ c (Proc.devRef .tc main_v5) : (Sh 4096 4096).Idx → EReal)
    = arr2 (dec1 (arr2 (sample (arr2 (enc1 (a0 m c) (a1 m c) (row (a2 m c)))) (a3 m c) (row (a4 m c)) (a9 m c))) (a5 m c) (row (a6 m c))) := by
  refine (W6_arr m ρ c 3).trans ((final2 (V5 m ρ) c).trans ?_)
  rw [entry2_zs, show (V5 m ρ c main_arg5 : (Sh 512 4096).Idx → EReal) = a5 m c from (keep_arg5 m ρ c).2.2.1, bias2]

/-! ## The second decoder layer -/

theorem bias3 (c : Dev nD) : (V7 m ρ c main_v6 : (Sh 1 4096).Idx → EReal) = row (a8 m c) :=
  (reshape3 (W6 m ρ c)).trans (congrArg row ((W6_keep m ρ c main_arg8 (by decide)).trans (keep_arg8 m ρ c).2.2.1))

theorem entry3_hd (c : Dev nD) : (V7 m ρ c main_v5 : (Sh 4096 4096).Idx → EReal)
    = arr2 (dec1 (arr2 (sample (arr2 (enc1 (a0 m c) (a1 m c) (row (a2 m c)))) (a3 m c) (row (a4 m c)) (a9 m c))) (a5 m c) (row (a6 m c))) :=
  (keepHost hostOps3 [main_v6] hostOps3_writes _ main_v5 (by decide)).trans (arr_hd m ρ c)

theorem arr_recon (c : Dev nD) : (W8 m ρ c (Proc.devRef .tc main_v7) : (Sh 4096 4096).Idx → EReal)
    = arr2 (dec2 (arr2 (dec1 (arr2 (sample (arr2 (enc1 (a0 m c) (a1 m c) (row (a2 m c)))) (a3 m c) (row (a4 m c)) (a9 m c))) (a5 m c) (row (a6 m c)))) (a7 m c) (row (a8 m c))) := by
  refine (W8_arr m ρ c 3).trans ((final3 (V7 m ρ) c).trans ?_)
  rw [entry3_hd, show (V7 m ρ c main_arg7 : (Sh 4096 4096).Idx → EReal) = a7 m c from (keep_arg7 m ρ c).2.2.2.1, bias3]

/-- The mean and the log-variance are not touched after launch 1. -/
theorem last_mu (c : Dev nD) : W8 m ρ c (Proc.devRef .tc main_v3_1) = W4 m ρ c (Proc.devRef .tc main_v3_1) :=
  (W8_keep m ρ c main_v3_1 (by decide)).trans ((keepHost hostOps3 [main_v6] hostOps3_writes _ main_v3_1 (by decide)).trans
    ((W6_keep m ρ c main_v3_1 (by decide)).trans (keepHost hostOps2 [main_v4] hostOps2_writes _ main_v3_1 (by decide))))
theorem last_lv (c : Dev nD) : W8 m ρ c (Proc.devRef .tc main_v3_2) = W4 m ρ c (Proc.devRef .tc main_v3_2) :=
  (W8_keep m ρ c main_v3_2 (by decide)).trans ((keepHost hostOps3 [main_v6] hostOps3_writes _ main_v3_2 (by decide)).trans
    ((W6_keep m ρ c main_v3_2 (by decide)).trans (keepHost hostOps2 [main_v4] hostOps2_writes _ main_v3_2 (by decide))))

/-! ## The run with its results named -/

/-- Every weakly fair execution terminates with the reconstruction, the mean and the log-variance at the
    reference's own stages of the argument arrays, and the arguments as launched. -/
theorem value_run : θ_run defs (onTc (τ := τ) (main (F := Ideal))) ⟨m, fun _ => 0, ρ⟩ (fun r => ∀ c : Dev nD,
      r.2.mem ((c.tc : Thread nD τ).loc main_v7) = Cert.ReferenceIdeal.Read.val_main_v24 (F := Ideal) (a0 m c) (a1 m c) (a2 m c) (a3 m c) (a4 m c) (a5 m c) (a6 m c) (a7 m c) (a8 m c) (a9 m c)
      ∧ r.2.mem ((c.tc : Thread nD τ).loc main_v3_1) = Cert.ReferenceIdeal.Read.val_main_v9 (F := Ideal) (a0 m c) (a1 m c) (a2 m c) (a3 m c) (a4 m c)
      ∧ r.2.mem ((c.tc : Thread nD τ).loc main_v3_2) = Cert.ReferenceIdeal.Read.val_main_v10 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h c _ (mem_uc main_v7 (by decide))).trans ((arr_recon m ρ c).trans (recon_eq _ _ _ _ _ _ _ _ _ _)),
    (h c _ (mem_uc main_v3_1 (by decide))).trans ((last_mu m ρ c).trans ((arr_mu m ρ c).trans (mu_eq _ _ _ _ _))),
    (h c _ (mem_uc main_v3_2 (by decide))).trans ((last_lv m ρ c).trans ((arr_lv m ρ c).trans (lv_eq _ _ _ _ _))),
    (h c _ (mem_uc main_arg0 (by decide))).trans (keep_arg0 m ρ c).2.2.2.2,
    (h c _ (mem_uc main_arg1 (by decide))).trans (keep_arg1 m ρ c).2.2.2.2,
    (h c _ (mem_uc main_arg2 (by decide))).trans (keep_arg2 m ρ c).2.2.2.2,
    (h c _ (mem_uc main_arg3 (by decide))).trans (keep_arg3 m ρ c).2.2.2.2,
    (h c _ (mem_uc main_arg4 (by decide))).trans (keep_arg4 m ρ c).2.2.2.2,
    (h c _ (mem_uc main_arg5 (by decide))).trans (keep_arg5 m ρ c).2.2.2.2,
    (h c _ (mem_uc main_arg6 (by decide))).trans (keep_arg6 m ρ c).2.2.2.2,
    (h c _ (mem_uc main_arg7 (by decide))).trans (keep_arg7 m ρ c).2.2.2.2,
    (h c _ (mem_uc main_arg8 (by decide))).trans (keep_arg8 m ρ c).2.2.2.2,
    (h c _ (mem_uc main_arg9 (by decide))).trans (keep_arg9 m ρ c).2.2.2.2⟩) (run_all m ρ)

end Cert.KernelIdeal.Hand

end
-- ==== Proof.lean ====
/-
  A variational autoencoder's forward pass as four chained tiled matrix products — each launch accumulates its
  product block by block over the last grid axis in a scratch block (reset at the first step, bias and activation
  applied at the last), the second launch also splitting its columns into mean and log-variance and drawing the
  sample `mu + exp (0.5 · logvar) · eps` — against the plain reference `relu (x·W + b)`, `h·W + b`, the split and the
  sample, `relu (z·W + b)`, `h·W + b`.

  At the ideal instance a change of float format is the identity and a matrix product is a sum over the
  contracted axis on the extended reals, so each launch's result array is one function of the arrays it reads
  (Proof/Stages.lean; proved launch by launch in Proof/KI/Val0 … Val3: the step-by-step accumulation of the four
  k-blocks is the one sum over the whole axis, a regrouping in a commutative monoid that asks no finiteness), and
  the four functions composed are the reference's own stages (Proof/Bridge.lean). The frames: every launch's body
  is run once per case of its two conditions with the scratch's contents named point by point (Proof/KI/Body0 … 3,
  and the same text for the word-level program under Proof/K/), the four launches and the four one-line host
  stretches between them composed in order (Run.lean), and every argument array read back unchanged (Frame.lean).
  The ideal pass rewrote nothing, so `preserves` has nothing to state.
-/
import proofs.«167880_j27642409517588_1_alg».proof.Defs
import proofs.«167880_j27642409517588_1_alg».proof.Proof.Gen.Kernel
import proofs.«167880_j27642409517588_1_alg».proof.Proof.Gen.KernelIdeal
import proofs.«167880_j27642409517588_1_alg».proof.Proof.Gen.ReferenceIdeal
import proofs.«167880_j27642409517588_1_alg».proof.Proof.Gen.Pre_finite_inputs
import proofs.«167880_j27642409517588_1_alg».proof.Proof.Gen.ReferenceIdeal.Read
import proofs.«167880_j27642409517588_1_alg».proof.Proof.K.Frame
import proofs.«167880_j27642409517588_1_alg».proof.Proof.KI.Value

noncomputable section

namespace Cert.Proof

open Idealize.ShloMosaic Idealize.SL.Sem

/-- The word-level program runs to the end and leaves its arguments as launched. -/
theorem frame_k : Cert.frame_Kernel := fun m ρ _ => Cert.Kernel.Hand.frame_all m ρ

/-- So does the idealized program. -/
theorem frame_ki : Cert.frame_KernelIdeal := fun m ρ _ => Cert.KernelIdeal.Hand.frame_all m ρ

/-- The reference is host operations only: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the reconstruction, the mean and the log-variance at the same stages of arguments that agree. -/
theorem algebraic : Cert.algebraic_KernelIdeal_ReferenceIdeal := by
  intro m ρ m' ρ' _ hagree
  refine ⟨_, _, _, Cert.KernelIdeal.Hand.value_run m ρ, ?_⟩
  refine (θ_run Cert.ReferenceIdeal.defs _ _).mono (fun _ h c => ?_) (Cert.ReferenceIdeal.Value.run (F := Ideal) m' ρ')
  obtain ⟨h24, h9, h10, hargs⟩ := h c
  obtain ⟨e0, e1, e2, e3, e4, e5, e6, e7, e8, e9⟩ := hagree c
  refine ⟨h24.trans ?_, h9.trans ?_, h10.trans ?_, hargs⟩
  · rw [e0, e1, e2, e3, e4, e5, e6, e7, e8, e9]
    exact Cert.ReferenceIdeal.Read.val_main_v24_eq _ _ _ _ _ _ _ _ _ _
  · rw [e0, e1, e2, e3, e4]
    exact Cert.ReferenceIdeal.Read.val_main_v9_eq _ _ _ _ _
  · rw [e0, e1, e2, e3, e4]
    exact Cert.ReferenceIdeal.Read.val_main_v10_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
